-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S256x384 : Shape := ⟨2, ![256, 384]⟩
abbrev S128x256 : Shape := ⟨2, ![128, 256]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x384 : S_.BroadcastsInDim S256x384 (![] : Fin 0 → Fin S256x384.rank)
  reducesTo_S256x384_S_d0_1 : S256x384.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x8192x256 .f32) (main_arg1 : FVec F S256x384 .f32) (main_arg2 : FVec F S128x256 .f32) (main_arg3 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x384 .f32 := Host.absf main_arg1
  let main_cst_0 : FVec F S_ .f32 := constant S_ .f32 0x7F800000#32
  let main_v5 : FVec F S256x384 .f32 := broadcastInDim S256x384 ![] bcast_S_S256x384 main_cst_0
  let main_v6 : IVec S256x384 1 := cmpf .olt main_v4 main_v5
  let main_c_1 : IVec S_ 1 := constantI S_ 1 1#1
  let main_v7 : IVec S_ 1 := (fun x v => Host.reduce IntOp.andi x v reducesTo_S256x384_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x8192x256 : Shape := ⟨3, ![16, 8192, 256]⟩
abbrev S256x384 : Shape := ⟨2, ![256, 384]⟩
abbrev S128x256 : Shape := ⟨2, ![128, 256]⟩
abbrev S256 : Shape := ⟨1, ![256]⟩
abbrev S1x256 : Shape := ⟨2, ![1, 256]⟩
abbrev S1x2048x256 : Shape := ⟨3, ![1, 2048, 256]⟩
abbrev S1x8192x256 : Shape := ⟨3, ![1, 8192, 256]⟩
abbrev S1x128 : Shape := ⟨2, ![1, 128]⟩
abbrev S128x32 : Shape := ⟨2, ![128, 32]⟩
abbrev S8192x128 : Shape := ⟨2, ![8192, 128]⟩
abbrev S2048x256 : Shape := ⟨2, ![2048, 256]⟩
abbrev S2048x384 : Shape := ⟨2, ![2048, 384]⟩
abbrev S2048x128 : Shape := ⟨2, ![2048, 128]⟩
abbrev S128 : Shape := ⟨1, ![128]⟩
abbrev S128x128 : Shape := ⟨2, ![128, 128]⟩
abbrev S128x1 : Shape := ⟨2, ![128, 1]⟩
abbrev S32x1 : Shape := ⟨2, ![32, 1]⟩
abbrev S32x32 : Shape := ⟨2, ![32, 32]⟩
abbrev S32x256 : Shape := ⟨2, ![32, 256]⟩

abbrev nBuf : Space → Nat
  | .hbm => 8
  | .vmem => 11
  | .smem => 0
  | _ => 0

abbrev bufTy : (tb : Table) → Fin (tcTables nBuf tb) → BufTy
  | .hbm, ⟨0, _⟩ => ⟨S16x8192x256, .f32⟩
  | .hbm, ⟨1, _⟩ => ⟨S256x384, .f32⟩
  | .hbm, ⟨2, _⟩ => ⟨S128x256, .f32⟩
  | .hbm, ⟨3, _⟩ => ⟨S256, .f32⟩
  | .hbm, ⟨4, _⟩ => ⟨S256x384, .bf16⟩
  | .hbm, ⟨5, _⟩ => ⟨S128x256, .bf16⟩
  | .hbm, ⟨6, _⟩ => ⟨S1x256, .f32⟩
  | .hbm, ⟨7, _⟩ => ⟨S16x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S256x384, .bf16⟩
  | .local _ .vmem, ⟨3, _⟩ => ⟨S128x256, .bf16⟩
  | .local _ .vmem, ⟨4, _⟩ => ⟨S1x256, .f32⟩
  | .local _ .vmem, ⟨5, _⟩ => ⟨S1x8192x256, .f32⟩
  | .local _ .vmem, ⟨6, _⟩ => ⟨S1x8192x256, .f32⟩
  | .local _ .vmem, ⟨7, _⟩ => ⟨S1x128, .f32⟩
  | .local _ .vmem, ⟨8, _⟩ => ⟨S1x128, .f32⟩
  | .local _ .vmem, ⟨9, _⟩ => ⟨S128x32, .f32⟩
  | .local _ .vmem, ⟨10, _⟩ => ⟨S8192x128, .bf16⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v14 : BitVec 32 := Scalar.muli arg1 c2048_i32
  v14
def k0_off1 (i : grid0.Coords) : Fin 2 → Nat :=
  let arg1 : BitVec 32 := BitVec.ofNat 32 (i 1).val
  let c2048_i32 : BitVec 32 := 2048#32
  let v14 : BitVec 32 := Scalar.muli arg1 c2048_i32
  let v15 : BitVec 32 := v14
  let v17 : Index := Scalar.indexCast v15
  let c0_6 : Index := 0#32
  ![v17.toNat, 0]
def k0_cond2 (i : grid0.Coords) : BitVec 1 :=
  let arg1 : BitVec 32 := BitVec.ofNat 32 (i 1).val
  let c3_i32 : BitVec 32 := 3#32
  let v81 : BitVec 1 := Scalar.cmpi .eq arg1 c3_i32
  let v82 : BitVec 32 := Scalar.extui v81
  let c0_i32_31 : BitVec 32 := 0#32
  let v83 : BitVec 1 := Scalar.cmpi .ne v82 c0_i32_31
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S256_S1x256 : S256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  h_S2048x128 : 0 < S2048x128.numel
  shapeCasts_S2048x128_S2048x128 : S2048x128.ShapeCasts S2048x128
  reduces_S2048x128_S128 : S2048x128.Reduces [0] S128
  shapeCasts_S128_S1x128 : S128.ShapeCasts S1x128
  broadcasts_S1x128_S2048x128 : S1x128.Broadcasts S2048x128
  transposes_S1x128_p1_0_S128x1 : S1x128.Transposes [1, 0] S128x1
  slices_S128x1_o0_0_S32x1 : S128x1.Slices ![0, 0] S32x1
  inb_S128x32_S32x32_0_0 : ∀ a, (![0, 0] : Fin 2 → Nat) a + S32x32.size a ≤ S128x32.size a
  h_S32x32 : 0 < S32x32.numel
  broadcasts_S32x1_S32x32 : S32x1.Broadcasts S32x32
  slices_S128x128_o0_0_S32x32 : S128x128.Slices ![0, 0] S32x32
  shapeCasts_S32x32_S32x32 : S32x32.ShapeCasts S32x32
  slices_S128x1_o32_0_S32x1 : S128x1.Slices ![32, 0] S32x1
  inb_S128x32_S32x32_32_0 : ∀ a, (![32, 0] : Fin 2 → Nat) a + S32x32.size a ≤ S128x32.size a
  slices_S128x128_o32_32_S32x32 : S128x128.Slices ![32, 32] S32x32
  slices_S128x1_o64_0_S32x1 : S128x1.Slices ![64, 0] S32x1
  inb_S128x32_S32x32_64_0 : ∀ a, (![64, 0] : Fin 2 → Nat) a + S32x32.size a ≤ S128x32.size a
  slices_S128x128_o64_64_S32x32 : S128x128.Slices ![64, 64] S32x32
  slices_S128x1_o96_0_S32x1 : S128x1.Slices ![96, 0] S32x1
  inb_S128x32_S32x32_96_0 : ∀ a, (![96, 0] : Fin 2 → Nat) a + S32x32.size a ≤ S128x32.size a
  slices_S128x128_o96_96_S32x32 : S128x128.Slices ![96, 96] S32x32
  broadcasts_S128x1_S128x32 : S128x1.Broadcasts S128x32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S128x32_o0_0_S32x32 : S128x32.Slices ![0, 0] S32x32
  slices_S128x256_o0_0_S32x256 : S128x256.Slices ![0, 0] S32x256
  slices_S128x32_o32_0_S32x32 : S128x32.Slices ![32, 0] S32x32
  slices_S128x256_o32_0_S32x256 : S128x256.Slices ![32, 0] S32x256
  slices_S128x32_o64_0_S32x32 : S128x32.Slices ![64, 0] S32x32
  slices_S128x256_o64_0_S32x256 : S128x256.Slices ![64, 0] S32x256
  slices_S128x32_o96_0_S32x32 : S128x32.Slices ![96, 0] S32x32
  slices_S128x256_o96_0_S32x256 : S128x256.Slices ![96, 0] S32x256
  concatenates_S32x256_S32x256_S32x256_S32x256_S128x256_d0 : Shape.Concatenates [S32x256, S32x256, S32x256, S32x256] S128x256 0
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8192x128_S2048x128_0_0 : ∀ a, (![0, 0] : Fin 2 → Nat) a + S2048x128.size a ≤ S8192x128.size a
  broadcasts_S1x256_S2048x256 : S1x256.Broadcasts S2048x256
  inb_S1x8192x256_S1x2048x256_0_0_0 : ∀ a, (![0, 0, 0] : Fin 3 → Nat) a + S1x2048x256.size a ≤ S1x8192x256.size a
  shapeCasts_S2048x256_S1x2048x256 : S2048x256.ShapeCasts S1x2048x256
  inb_S8192x128_S2048x128_2048_0 : ∀ a, (![2048, 0] : Fin 2 → Nat) a + S2048x128.size a ≤ S8192x128.size a
  inb_S1x8192x256_S1x2048x256_0_2048_0 : ∀ a, (![0, 2048, 0] : Fin 3 → Nat) a + S1x2048x256.size a ≤ S1x8192x256.size a
  inb_S8192x128_S2048x128_4096_0 : ∀ a, (![4096, 0] : Fin 2 → Nat) a + S2048x128.size a ≤ S8192x128.size a
  inb_S1x8192x256_S1x2048x256_0_4096_0 : ∀ a, (![0, 4096, 0] : Fin 3 → Nat) a + S1x2048x256.size a ≤ S1x8192x256.size a
  inb_S8192x128_S2048x128_6144_0 : ∀ a, (![6144, 0] : Fin 2 → Nat) a + S2048x128.size a ≤ S8192x128.size a
  inb_S1x8192x256_S1x2048x256_0_6144_0 : ∀ a, (![0, 6144, 0] : Fin 3 → Nat) a + S1x2048x256.size a ≤ S1x8192x256.size a
  dot_S2048x256_S256x384_S2048x384_1_0_0_1_n_n_wf : DotDims.WF S2048x256 S256x384 S2048x384 [1] [0] [0] [1] [] []
  dot_S2048x128_S2048x128_S128x128_0_0_1_1_n_n_wf : DotDims.WF S2048x128 S2048x128 S128x128 [0] [0] [1] [1] [] []
  dot_S32x32_S32x256_S32x256_1_0_0_1_n_n_wf : DotDims.WF S32x32 S32x256 S32x256 [1] [0] [0] [1] [] []
  dot_S2048x128_S128x256_S2048x256_1_0_0_1_n_n_wf : DotDims.WF S2048x128 S128x256 S2048x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  k0_off1_packedbf16 : ∀ i : grid0.Coords, (Rect.unit (s := S8192x128) (k0_off1 i) S2048x128.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x8192x256.size a
  hwx0_0 : ∀ i : grid0.Coords, EltTy.bits .f32 = 32 ∨ (Rect.block (s := S16x8192x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .bf16 = 32 ∨ (Rect.block (s := S256x384) S256x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192x256.size a ≤ S16x8192x256.size a
  hwx0_4 : ∀ i : grid0.Coords, EltTy.bits .f32 = 32 ∨ (Rect.block (s := S16x8192x256) S1x8192x256.size (cc0_transform_4 i) (hinb0_4 i)).WholeWords (EltTy.packing .f32)

variable [Facts₀]

def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8192x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x8192x256 : Shape := ⟨3, ![16, 8192, 256]⟩
abbrev S256x384 : Shape := ⟨2, ![256, 384]⟩
abbrev S128x256 : Shape := ⟨2, ![128, 256]⟩
abbrev S256 : Shape := ⟨1, ![256]⟩
abbrev S16x8192x384 : Shape := ⟨3, ![16, 8192, 384]⟩
abbrev S16x8192x3x4x32 : Shape := ⟨5, ![16, 8192, 3, 4, 32]⟩
abbrev S16x8192x1x4x32 : Shape := ⟨5, ![16, 8192, 1, 4, 32]⟩
abbrev S16x8192x4x32 : Shape := ⟨4, ![16, 8192, 4, 32]⟩
abbrev S16x4x8192x32 : Shape := ⟨4, ![16, 4, 8192, 32]⟩
abbrev S_ : Shape := ⟨0, ![]⟩
abbrev S16x4x32 : Shape := ⟨3, ![16, 4, 32]⟩
abbrev S16x4x1x32 : Shape := ⟨4, ![16, 4, 1, 32]⟩
abbrev S16x4x32x32 : Shape := ⟨4, ![16, 4, 32, 32]⟩
abbrev S16x8192x128 : Shape := ⟨3, ![16, 8192, 128]⟩
abbrev S1x1x256 : Shape := ⟨3, ![1, 1, 256]⟩

abbrev nBuf : Space → Nat
  | .hbm => 40
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S256x384, .f32⟩
  | .hbm, ⟨2, _⟩ => ⟨S128x256, .f32⟩
  | .hbm, ⟨3, _⟩ => ⟨S256, .f32⟩
  | .hbm, ⟨4, _⟩ => ⟨S16x8192x384, .f32⟩
  | .hbm, ⟨5, _⟩ => ⟨S16x8192x3x4x32, .f32⟩
  | .hbm, ⟨6, _⟩ => ⟨S16x8192x1x4x32, .f32⟩
  | .hbm, ⟨7, _⟩ => ⟨S16x8192x4x32, .f32⟩
  | .hbm, ⟨8, _⟩ => ⟨S16x4x8192x32, .f32⟩
  | .hbm, ⟨9, _⟩ => ⟨S_, .f32⟩
  | .hbm, ⟨10, _⟩ => ⟨S16x4x8192x32, .f32⟩
  | .hbm, ⟨11, _⟩ => ⟨S16x4x8192x32, .f32⟩
  | .hbm, ⟨12, _⟩ => ⟨S16x8192x1x4x32, .f32⟩
  | .hbm, ⟨13, _⟩ => ⟨S16x8192x4x32, .f32⟩
  | .hbm, ⟨14, _⟩ => ⟨S16x4x8192x32, .f32⟩
  | .hbm, ⟨15, _⟩ => ⟨S_, .f32⟩
  | .hbm, ⟨16, _⟩ => ⟨S16x4x32, .f32⟩
  | .hbm, ⟨17, _⟩ => ⟨S_, .f32⟩
  | .hbm, ⟨18, _⟩ => ⟨S16x4x32, .f32⟩
  | .hbm, ⟨19, _⟩ => ⟨S16x4x32, .f32⟩
  | .hbm, ⟨20, _⟩ => ⟨S16x4x1x32, .f32⟩
  | .hbm, ⟨21, _⟩ => ⟨S16x4x8192x32, .f32⟩
  | .hbm, ⟨22, _⟩ => ⟨S16x4x8192x32, .f32⟩
  | .hbm, ⟨23, _⟩ => ⟨S16x4x8192x32, .f32⟩
  | .hbm, ⟨24, _⟩ => ⟨S_, .f32⟩
  | .hbm, ⟨25, _⟩ => ⟨S16x4x32, .f32⟩
  | .hbm, ⟨26, _⟩ => ⟨S16x4x1x32, .f32⟩
  | .hbm, ⟨27, _⟩ => ⟨S16x4x8192x32, .f32⟩
  | .hbm, ⟨28, _⟩ => ⟨S16x4x8192x32, .f32⟩
  | .hbm, ⟨29, _⟩ => ⟨S16x8192x1x4x32, .f32⟩
  | .hbm, ⟨30, _⟩ => ⟨S16x8192x4x32, .f32⟩
  | .hbm, ⟨31, _⟩ => ⟨S16x4x8192x32, .f32⟩
  | .hbm, ⟨32, _⟩ => ⟨S16x4x32x32, .f32⟩
  | .hbm, ⟨33, _⟩ => ⟨S16x4x8192x32, .f32⟩
  | .hbm, ⟨34, _⟩ => ⟨S16x8192x4x32, .f32⟩
  | .hbm, ⟨35, _⟩ => ⟨S16x8192x128, .f32⟩
  | .hbm, ⟨36, _⟩ => ⟨S16x8192x256, .f32⟩
  | .hbm, ⟨37, _⟩ => ⟨S1x1x256, .f32⟩
  | .hbm, ⟨38, _⟩ => ⟨S16x8192x256, .f32⟩
  | .hbm, ⟨39, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  shapeCasts_S16x8192x384_S16x8192x3x4x32 : S16x8192x384.ShapeCasts S16x8192x3x4x32
  slices_S16x8192x3x4x32_S16x8192x1x4x32_0_0_0_0_0 : S16x8192x3x4x32.Slices ![0, 0, 0, 0, 0] S16x8192x1x4x32
  shapeCasts_S16x8192x1x4x32_S16x8192x4x32 : S16x8192x1x4x32.ShapeCasts S16x8192x4x32
  transposes_S16x8192x4x32_S16x4x8192x32_0_2_1_3 : S16x8192x4x32.Transposes [0, 2, 1, 3] S16x4x8192x32
  bcast_S_S16x4x8192x32 : S_.BroadcastsInDim S16x4x8192x32 (![] : Fin 0 → Fin S16x4x8192x32.rank)
  slices_S16x8192x3x4x32_S16x8192x1x4x32_0_0_1_0_0 : S16x8192x3x4x32.Slices ![0, 0, 1, 0, 0] S16x8192x1x4x32
  reducesTo_S16x4x8192x32_S16x4x32_d2 : S16x4x8192x32.ReducesTo [2] S16x4x32
  h_S_ : 0 < S_.numel
  bcast_S_S16x4x32 : S_.BroadcastsInDim S16x4x32 (![] : Fin 0 → Fin S16x4x32.rank)
  bcast_S16x4x32_S16x4x1x32_0_1_3 : S16x4x32.BroadcastsInDim S16x4x1x32 (![0, 1, 3] : Fin 3 → Fin S16x4x1x32.rank)
  bcast_S16x4x1x32_S16x4x8192x32_0_1_2_3 : S16x4x1x32.BroadcastsInDim S16x4x8192x32 (![0, 1, 2, 3] : Fin 4 → Fin S16x4x8192x32.rank)
  slices_S16x8192x3x4x32_S16x8192x1x4x32_0_0_2_0_0 : S16x8192x3x4x32.Slices ![0, 0, 2, 0, 0] S16x8192x1x4x32
  transposes_S16x4x8192x32_S16x8192x4x32_0_2_1_3 : S16x4x8192x32.Transposes [0, 2, 1, 3] S16x8192x4x32
  shapeCasts_S16x8192x4x32_S16x8192x128 : S16x8192x4x32.ShapeCasts S16x8192x128
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  dot_S16x8192x256_S256x384_S16x8192x384_2_0_01_1_n_n_wf : DotDims.WF S16x8192x256 S256x384 S16x8192x384 [2] [0] [0, 1] [1] [] []
  dot_S16x4x8192x32_S16x4x8192x32_S16x4x32x32_2_2_3_3_01_01_wf : DotDims.WF S16x4x8192x32 S16x4x8192x32 S16x4x32x32 [2] [2] [3] [3] [0, 1] [0, 1]
  dot_S16x4x8192x32_S16x4x32x32_S16x4x8192x32_3_2_2_3_01_01_wf : DotDims.WF S16x4x8192x32 S16x4x32x32 S16x4x8192x32 [3] [2] [2] [3] [0, 1] [0, 1]
  dot_S16x8192x128_S128x256_S16x8192x256_2_0_01_1_n_n_wf : DotDims.WF S16x8192x128 S128x256 S16x8192x256 [2] [0] [0, 1] [1] [] []

variable [Facts₀]

def dot_S16x8192x256_S256x384_S16x8192x384_2_0_01_1_n_n : DotDims S16x8192x256 S256x384 S16x8192x384 where
  lhsContracting := [2]
  rhsContracting := [0]
  lhsNonContracting := [0, 1]
  rhsNonContracting := [1]
  lhsBatch := []
  rhsBatch := []
  wf := dot_S16x8192x256_S256x384_S16x8192x384_2_0_01_1_n_n_wf
def dot_S16x4x8192x32_S16x4x8192x32_S16x4x32x32_2_2_3_3_01_01 : DotDims S16x4x8192x32 S16x4x8192x32 S16x4x32x32 where
  lhsContracting := [2]
  rhsContracting := [2]
  lhsNonContracting := [3]
  rhsNonContracting := [3]
  lhsBatch := [0, 1]
  rhsBatch := [0, 1]
  wf := dot_S16x4x8192x32_S16x4x8192x32_S16x4x32x32_2_2_3_3_01_01_wf
def dot_S16x4x8192x32_S16x4x32x32_S16x4x8192x32_3_2_2_3_01_01 : DotDims S16x4x8192x32 S16x4x32x32 S16x4x8192x32 where
  lhsContracting := [3]
  rhsContracting := [2]
  lhsNonContracting := [2]
  rhsNonContracting := [3]
  lhsBatch := [0, 1]
  rhsBatch := [0, 1]
  wf := dot_S16x4x8192x32_S16x4x32x32_S16x4x8192x32_3_2_2_3_01_01_wf
def dot_S16x8192x128_S128x256_S16x8192x256_2_0_01_1_n_n : DotDims S16x8192x128 S128x256 S16x8192x256 where
  lhsContracting := [2]
  rhsContracting := [0]
  lhsNonContracting := [0, 1]
  rhsNonContracting := [1]
  lhsBatch := []
  rhsBatch := []
  wf := dot_S16x8192x128_S128x256_S16x8192x256_2_0_01_1_n_n_wf

class Facts : Prop extends Facts₀ where

variable [Facts]
-- ==== Proof.AttnSpec.lean ====
/-
  Linear attention with a softmax over the sequence axis, stated twice over the extended reals as
  functions of the four argument arrays (curried by coordinates):

  * `outOnline`: the value computed by an online pass over the sequence in four tiles of 2048 rows.
    Per batch row and channel a running maximum (started at a large negative finite number), a running
    sum of exponentials and a running 128 x 32 accumulator are rescaled by `exp (old max - new max)` at
    every tile; at the end the accumulator is divided by the running sum (the context), folded into the
    output weights head by head, and applied to the scaled queries.
  * `outDirect`: the textbook value: softmax over the whole sequence axis of the keys, the
    context `sum_l softmax(k)[l, d] * v[l, e]` per head, the queries applied to it, the heads
    concatenated and projected, the bias added.

  Both use the same projection `proj` (x times the fused q/k/v weight) and the same scale word.
-/
import Idealize.ShloMosaic.PureOps.Ideal

noncomputable section

namespace Cert.LinAttn

open Idealize.ShloMosaic

variable (x : Fin 16 → Fin 8192 → Fin 256 → EReal) (w : Fin 256 → Fin 384 → EReal)
  (wo : Fin 128 → Fin 256 → EReal) (bo : Fin 256 → EReal)

/-- The fused projection: row `l` of batch `b` times column `f` of the q/k/v weight. -/
def proj (b : Fin 16) (l : Fin 8192) (f : Fin 384) : EReal := ∑ d : Fin 256, x b l d * w d f

/-- The query scale (the float nearest 32^(-1/2)), the same word in both programs. -/
def scale : EReal := Ideal.ofBits .f32 0x3E3504F3#32
/-- The finite number the running maximum starts from. -/
def negInit : EReal := Ideal.ofBits .f32 0xF149F2CA#32
/-- The word of minus infinity, from which every maximum is folded. -/
def negInf : EReal := Ideal.ofBits .f32 0xFF800000#32

/-- Columns of the fused projection: queries, keys, values of channel `c`. -/
def qcol (c : Fin 128) : Fin 384 := ⟨c.val, by omega⟩
def kcol (c : Fin 128) : Fin 384 := ⟨128 + c.val, by omega⟩
def vcol (c : Fin 128) : Fin 384 := ⟨256 + c.val, by omega⟩

def qv (b : Fin 16) (l : Fin 8192) (c : Fin 128) : EReal := proj x w b l (qcol c) * scale
def kv (b : Fin 16) (l : Fin 8192) (c : Fin 128) : EReal := proj x w b l (kcol c)
def vv (b : Fin 16) (l : Fin 8192) (c : Fin 128) : EReal := proj x w b l (vcol c)

/-- Column `e` of the head that channel `c` belongs to (heads are 32 channels wide). -/
def hcol (c : Fin 128) (e : Fin 32) : Fin 128 := ⟨c.val / 32 * 32 + e.val, by omega⟩
/-- Channel `d` of head `h`. -/
def hch (h : Fin 4) (d : Fin 32) : Fin 128 := ⟨32 * h.val + d.val, by omega⟩

/-! ## The online pass -/

/-- Row `r` of tile `n` (tiles 0..3 of 2048 rows; reduced mod 8192 so that it is total in `n`). -/
def rowOf (n : ℕ) (r : Fin 2048) : Fin 8192 := ⟨(2048 * n + r.val) % 8192, Nat.mod_lt _ (by norm_num)⟩

/-- The maximum of the keys of channel `c` over the rows of tile `n`. -/
def tileMax (b : Fin 16) (n : ℕ) (c : Fin 128) : EReal :=
  (Finset.univ : Finset (Fin 2048)).fold max negInf (fun r => kv x w b (rowOf n r) c)

/-- The running maximum after `n` tiles. -/
def runMax (b : Fin 16) : ℕ → Fin 128 → EReal
  | 0, _ => negInit
  | n + 1, c => max (runMax b n c) (tileMax x w b n c)

/-- The factor by which tile `n` rescales what was accumulated before it. -/
def decay (b : Fin 16) (n : ℕ) (c : Fin 128) : EReal :=
  Ideal.exp (runMax x w b n c - runMax x w b (n + 1) c)

/-- The weight of row `r` of tile `n` against the running maximum after that tile. -/
def pw (b : Fin 16) (n : ℕ) (r : Fin 2048) (c : Fin 128) : EReal :=
  Ideal.exp (kv x w b (rowOf n r) c - runMax x w b (n + 1) c)

/-- The running sum of weights after `n` tiles. -/
def runSum (b : Fin 16) : ℕ → Fin 128 → EReal
  | 0, _ => 0
  | n + 1, c => decay x w b n c * runSum b n c + ∑ r : Fin 2048, pw x w b n r c

/-- The running accumulator after `n` tiles: channel `c` against column `e` of its own head's values. -/
def runAcc (b : Fin 16) : ℕ → Fin 128 → Fin 32 → EReal
  | 0, _, _ => 0
  | n + 1, c, e => decay x w b n c * runAcc b n c e
      + ∑ r : Fin 2048, pw x w b n r c * vv x w b (rowOf n r) (hcol c e)

/-- The context after the four tiles. -/
def ctxOnline (b : Fin 16) (c : Fin 128) (e : Fin 32) : EReal :=
  Ideal.div (runAcc x w b 4 c e) (runSum x w b 4 c)

/-- The context folded into the output weights. -/
def wbOnline (b : Fin 16) (c : Fin 128) (D : Fin 256) : EReal :=
  ∑ e : Fin 32, ctxOnline x w b c e * wo (hcol c e) D

/-- The online pass's result. -/
def outOnline (b : Fin 16) (l : Fin 8192) (D : Fin 256) : EReal :=
  (∑ c : Fin 128, qv x w b l c * wbOnline x w wo b c D) + bo D

/-! ## The direct value -/

/-- The maximum of the keys of channel `c` over the whole sequence (joined once more with minus infinity,
    as the softmax spells it). -/
def seqMax (b : Fin 16) (c : Fin 128) : EReal :=
  max negInf ((Finset.univ : Finset (Fin 8192)).fold max negInf (fun l => kv x w b l c))

def expK (b : Fin 16) (l : Fin 8192) (c : Fin 128) : EReal := Ideal.exp (kv x w b l c - seqMax x w b c)

def seqSum (b : Fin 16) (c : Fin 128) : EReal := 0 + ∑ l : Fin 8192, expK x w b l c

/-- The softmax of the keys over the sequence axis. -/
def softK (b : Fin 16) (l : Fin 8192) (c : Fin 128) : EReal := Ideal.div (expK x w b l c) (seqSum x w b c)

/-- The context of head `h`. -/
def ctxDirect (b : Fin 16) (h : Fin 4) (d e : Fin 32) : EReal :=
  ∑ l : Fin 8192, softK x w b l (hch h d) * vv x w b l (hch h e)

/-- The queries applied to the context. -/
def headOut (b : Fin 16) (h : Fin 4) (l : Fin 8192) (e : Fin 32) : EReal :=
  ∑ d : Fin 32, qv x w b l (hch h d) * ctxDirect x w b h d e

/-- The direct result: heads concatenated (`f = 32 h + e`), projected, the bias added. -/
def outDirect (b : Fin 16) (l : Fin 8192) (D : Fin 256) : EReal :=
  (∑ f : Fin 128, headOut x w b ⟨f.val / 32, by omega⟩ l ⟨f.val % 32, Nat.mod_lt _ (by norm_num)⟩ * wo f D) + bo D

/-- Every entry of the four arrays is a real number. -/
def AllReal : Prop :=
  (∀ b l d, ∃ r : ℝ, x b l d = (r : EReal)) ∧ (∀ d f, ∃ r : ℝ, w d f = (r : EReal))
    ∧ (∀ f D, ∃ r : ℝ, wo f D = (r : EReal)) ∧ (∀ D, ∃ r : ℝ, bo D = (r : EReal))

end Cert.LinAttn

end
-- ==== Proof.AttnArrays.lean ====
/-
  The argument arrays as functions of their coordinates: an array of literal shape read at the index
  built from coordinates. The specification of the attention value is stated over these.
-/
import Idealize.ShloMosaic.Lib.ValueIdx
import proofs.«425081_j79276506350102_3_alg».proof.Proof.AttnSpec

noncomputable section

namespace Cert.LinAttn

open Idealize.ShloMosaic Idealize.ShloMosaic.ValueIdx

/-- A rank-3 array as a function of its three coordinates. -/
def cur3 {n0 n1 n2 : Nat} (a : (⟨3, ![n0, n1, n2]⟩ : Shape).Idx → EReal) : Fin n0 → Fin n1 → Fin n2 → EReal :=
  fun i j k => a (ix3 i j k)
/-- A rank-2 array as a function of its two coordinates. -/
def cur2 {n0 n1 : Nat} (a : (⟨2, ![n0, n1]⟩ : Shape).Idx → EReal) : Fin n0 → Fin n1 → EReal :=
  fun i j => a (ix2 i j)
/-- A rank-1 array as a function of its coordinate. -/
def cur1 {n0 : Nat} (a : (⟨1, ![n0]⟩ : Shape).Idx → EReal) : Fin n0 → EReal :=
  fun i => a (ix1 i)

/-- The attention value as one array of the four argument arrays, by the online pass. -/
def arrOnline (a0 : (⟨3, ![16, 8192, 256]⟩ : Shape).Idx → EReal) (a1 : (⟨2, ![256, 384]⟩ : Shape).Idx → EReal)
    (a2 : (⟨2, ![128, 256]⟩ : Shape).Idx → EReal) (a3 : (⟨1, ![256]⟩ : Shape).Idx → EReal) :
    (⟨3, ![16, 8192, 256]⟩ : Shape).Idx → EReal :=
  fun i => outOnline (cur3 a0) (cur2 a1) (cur2 a2) (cur1 a3) (i 0) (i 1) (i 2)

/-- The attention value as one array of the four argument arrays, directly. -/
def arrDirect (a0 : (⟨3, ![16, 8192, 256]⟩ : Shape).Idx → EReal) (a1 : (⟨2, ![256, 384]⟩ : Shape).Idx → EReal)
    (a2 : (⟨2, ![128, 256]⟩ : Shape).Idx → EReal) (a3 : (⟨1, ![256]⟩ : Shape).Idx → EReal) :
    (⟨3, ![16, 8192, 256]⟩ : Shape).Idx → EReal :=
  fun i => outDirect (cur3 a0) (cur2 a1) (cur2 a2) (cur1 a3) (i 0) (i 1) (i 2)

end Cert.LinAttn

end
-- ==== Proof.RefValue.lean ====
/-
  The reference program's value is the direct attention value. Each operation of the reference is read at
  coordinates and identified with the piece of the specification it computes: the fused projection, its
  columns split into (part, head, channel) with the queries scaled, the maximum of the keys over the
  sequence axis folded from minus infinity and joined once more with it, the exponentials, their sum from
  zero, the softmax, the context of each head, the queries applied to it, the heads concatenated and
  projected, and the bias added.
-/
import proofs.«425081_j79276506350102_3_alg».proof.Defs
import proofs.«425081_j79276506350102_3_alg».proof.Proof.Gen.ReferenceIdeal.Run
import proofs.«425081_j79276506350102_3_alg».proof.Proof.Gen.ReferenceIdeal.Read
import proofs.«425081_j79276506350102_3_alg».proof.Proof.AttnSpec
import proofs.«425081_j79276506350102_3_alg».proof.Proof.AttnArrays
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.LinAttn
open Idealize.ShloMosaic Idealize.ShloMosaic.ValueIdx

/-! ## The projections -/

variable (x0 : (⟨S16x8192x256, .f32⟩ : BufTy).Contents (Elt Ideal)) (x1 : (⟨S256x384, .f32⟩ : BufTy).Contents (Elt Ideal))

/-- The first argument array by coordinates. -/
abbrev X : Fin 16 → Fin 8192 → Fin 256 → EReal := cur3 (n0 := 16) (n1 := 8192) (n2 := 256) x0
/-- The second argument array by coordinates. -/
abbrev W : Fin 256 → Fin 384 → EReal := cur2 (n0 := 256) (n1 := 384) x1

/-- The contraction over the model axis is the fused projection. -/
theorem v0_at (b : Fin 16) (l : Fin 8192) (f : Fin 384) :
    val_main_v0 (F := Ideal) x0 x1 (ix3 b l f) = proj (X x0) (W x1) b l f := by
  rw [val_main_v0_apply]
  unfold proj
  refine Finset.sum_congr rfl fun k _ => ?_
  have el : lidx_main_v0 (ix3 b l f) k = ix3 b l k := funext fun a => Fin.ext (by
    match a with
    | ⟨0, _⟩ => rfl
    | ⟨1, _⟩ => rfl
    | ⟨2, _⟩ => rfl)
  have er : ridx_main_v0 (ix3 b l f) k = ix2 k f := funext fun a => Fin.ext (by
    match a with
    | ⟨0, _⟩ => rfl
    | ⟨1, _⟩ => rfl)
  rw [el, er]
  rfl

/-- Column f = 128 s + 32 h + d of the projection is entry (s, h, d) of the split array. -/
theorem v1_at (b : Fin 16) (l : Fin 8192) (s : Fin 3) (h : Fin 4) (d : Fin 32) (f : Fin 384)
    (hf : f.val = 128 * s.val + 32 * h.val + d.val) :
    val_main_v1 (F := Ideal) x0 x1 (ix5 b l s h d) = proj (X x0) (W x1) b l f := by
  rw [val_main_v1_apply]
  have e : idx_main_v1 (ix5 b l s h d) = ix3 b l f := funext fun a => Fin.ext (by
    have hb := b.isLt; have hl := l.isLt; have hs := s.isLt; have hh := h.isLt; have hd := d.isLt
    match a with
    | ⟨0, _⟩ => show ((((b.val * 8192 + l.val) * 3 + s.val) * 4 + h.val) * 32 + d.val) / 3145728 = b.val; omega
    | ⟨1, _⟩ => show ((((b.val * 8192 + l.val) * 3 + s.val) * 4 + h.val) * 32 + d.val) / 384 % 8192 = l.val; omega
    | ⟨2, _⟩ => show ((((b.val * 8192 + l.val) * 3 + s.val) * 4 + h.val) * 32 + d.val) % 384 = f.val; omega)
  rw [e, v0_at]

/-- The slice at position 0 of the split axis. -/
theorem v2_at (b : Fin 16) (l : Fin 8192) (h : Fin 4) (d : Fin 32) :
    val_main_v2 (F := Ideal) x0 x1 (ix5 b l (0 : Fin 1) h d)
      = val_main_v1 (F := Ideal) x0 x1 (ix5 b l (0 : Fin 3) h d) := by
  rw [val_main_v2_apply]
  have e : idx_main_v2 (ix5 b l (0 : Fin 1) h d) = ix5 b l (0 : Fin 3) h d := funext fun a => Fin.ext (by
    match a with
    | ⟨0, _⟩ => rfl
    | ⟨1, _⟩ => rfl
    | ⟨2, _⟩ => rfl
    | ⟨3, _⟩ => rfl
    | ⟨4, _⟩ => rfl)
  rw [e]

/-- The unit axis dropped. -/
theorem v3_at (b : Fin 16) (l : Fin 8192) (h : Fin 4) (d : Fin 32) :
    val_main_v3 (F := Ideal) x0 x1 (ix4 b l h d)
      = val_main_v2 (F := Ideal) x0 x1 (ix5 b l (0 : Fin 1) h d) := by
  rw [val_main_v3_apply]
  have e : idx_main_v3 (ix4 b l h d) = ix5 b l (0 : Fin 1) h d := funext fun a => Fin.ext (by
    have hb := b.isLt; have hl := l.isLt; have hh := h.isLt; have hd := d.isLt
    match a with
    | ⟨0, _⟩ => show (((b.val * 8192 + l.val) * 4 + h.val) * 32 + d.val) / 1048576 = b.val; omega
    | ⟨1, _⟩ => show (((b.val * 8192 + l.val) * 4 + h.val) * 32 + d.val) / 128 % 8192 = l.val; omega
    | ⟨2, _⟩ => rfl
    | ⟨3, _⟩ => show (((b.val * 8192 + l.val) * 4 + h.val) * 32 + d.val) / 32 % 4 = h.val; omega
    | ⟨4, _⟩ => show (((b.val * 8192 + l.val) * 4 + h.val) * 32 + d.val) % 32 = d.val; omega)
  rw [e]

/-- The head axis moved in front of the sequence axis. -/
theorem v4_at (b : Fin 16) (h : Fin 4) (l : Fin 8192) (d : Fin 32) :
    val_main_v4 (F := Ideal) x0 x1 (ix4 b h l d) = val_main_v3 (F := Ideal) x0 x1 (ix4 b l h d) := by
  rw [val_main_v4_apply]
  have e : idx_main_v4 (ix4 b h l d) = ix4 b l h d := funext fun a => Fin.ext (by
    match a with
    | ⟨0, _⟩ => rfl
    | ⟨1, _⟩ => rfl
    | ⟨2, _⟩ => rfl
    | ⟨3, _⟩ => rfl)
  rw [e]

/-- The slice at position 1 of the split axis. -/
theorem v7_at (b : Fin 16) (l : Fin 8192) (h : Fin 4) (d : Fin 32) :
    val_main_v7 (F := Ideal) x0 x1 (ix5 b l (0 : Fin 1) h d)
      = val_main_v1 (F := Ideal) x0 x1 (ix5 b l (1 : Fin 3) h d) := by
  rw [val_main_v7_apply]
  have e : idx_main_v7 (ix5 b l (0 : Fin 1) h d) = ix5 b l (1 : Fin 3) h d := funext fun a => Fin.ext (by
    match a with
    | ⟨0, _⟩ => rfl
    | ⟨1, _⟩ => rfl
    | ⟨2, _⟩ => rfl
    | ⟨3, _⟩ => rfl
    | ⟨4, _⟩ => rfl)
  rw [e]

/-- The unit axis dropped. -/
theorem v8_at (b : Fin 16) (l : Fin 8192) (h : Fin 4) (d : Fin 32) :
    val_main_v8 (F := Ideal) x0 x1 (ix4 b l h d)
      = val_main_v7 (F := Ideal) x0 x1 (ix5 b l (0 : Fin 1) h d) := by
  rw [val_main_v8_apply]
  have e : idx_main_v8 (ix4 b l h d) = ix5 b l (0 : Fin 1) h d := funext fun a => Fin.ext (by
    have hb := b.isLt; have hl := l.isLt; have hh := h.isLt; have hd := d.isLt
    match a with
    | ⟨0, _⟩ => show (((b.val * 8192 + l.val) * 4 + h.val) * 32 + d.val) / 1048576 = b.val; omega
    | ⟨1, _⟩ => show (((b.val * 8192 + l.val) * 4 + h.val) * 32 + d.val) / 128 % 8192 = l.val; omega
    | ⟨2, _⟩ => rfl
    | ⟨3, _⟩ => show (((b.val * 8192 + l.val) * 4 + h.val) * 32 + d.val) / 32 % 4 = h.val; omega
    | ⟨4, _⟩ => show (((b.val * 8192 + l.val) * 4 + h.val) * 32 + d.val) % 32 = d.val; omega)
  rw [e]

/-- The head axis moved in front of the sequence axis. -/
theorem v9_at (b : Fin 16) (h : Fin 4) (l : Fin 8192) (d : Fin 32) :
    val_main_v9 (F := Ideal) x0 x1 (ix4 b h l d) = val_main_v8 (F := Ideal) x0 x1 (ix4 b l h d) := by
  rw [val_main_v9_apply]
  have e : idx_main_v9 (ix4 b h l d) = ix4 b l h d := funext fun a => Fin.ext (by
    match a with
    | ⟨0, _⟩ => rfl
    | ⟨1, _⟩ => rfl
    | ⟨2, _⟩ => rfl
    | ⟨3, _⟩ => rfl)
  rw [e]

/-- The slice at position 2 of the split axis. -/
theorem v21_at (b : Fin 16) (l : Fin 8192) (h : Fin 4) (d : Fin 32) :
    val_main_v21 (F := Ideal) x0 x1 (ix5 b l (0 : Fin 1) h d)
      = val_main_v1 (F := Ideal) x0 x1 (ix5 b l (2 : Fin 3) h d) := by
  rw [val_main_v21_apply]
  have e : idx_main_v21 (ix5 b l (0 : Fin 1) h d) = ix5 b l (2 : Fin 3) h d := funext fun a => Fin.ext (by
    match a with
    | ⟨0, _⟩ => rfl
    | ⟨1, _⟩ => rfl
    | ⟨2, _⟩ => rfl
    | ⟨3, _⟩ => rfl
    | ⟨4, _⟩ => rfl)
  rw [e]

/-- The unit axis dropped. -/
theorem v22_at (b : Fin 16) (l : Fin 8192) (h : Fin 4) (d : Fin 32) :
    val_main_v22 (F := Ideal) x0 x1 (ix4 b l h d)
      = val_main_v21 (F := Ideal) x0 x1 (ix5 b l (0 : Fin 1) h d) := by
  rw [val_main_v22_apply]
  have e : idx_main_v22 (ix4 b l h d) = ix5 b l (0 : Fin 1) h d := funext fun a => Fin.ext (by
    have hb := b.isLt; have hl := l.isLt; have hh := h.isLt; have hd := d.isLt
    match a with
    | ⟨0, _⟩ => show (((b.val * 8192 + l.val) * 4 + h.val) * 32 + d.val) / 1048576 = b.val; omega
    | ⟨1, _⟩ => show (((b.val * 8192 + l.val) * 4 + h.val) * 32 + d.val) / 128 % 8192 = l.val; omega
    | ⟨2, _⟩ => rfl
    | ⟨3, _⟩ => show (((b.val * 8192 + l.val) * 4 + h.val) * 32 + d.val) / 32 % 4 = h.val; omega
    | ⟨4, _⟩ => show (((b.val * 8192 + l.val) * 4 + h.val) * 32 + d.val) % 32 = d.val; omega)
  rw [e]

/-- The head axis moved in front of the sequence axis. -/
theorem v23_at (b : Fin 16) (h : Fin 4) (l : Fin 8192) (d : Fin 32) :
    val_main_v23 (F := Ideal) x0 x1 (ix4 b h l d) = val_main_v22 (F := Ideal) x0 x1 (ix4 b l h d) := by
  rw [val_main_v23_apply]
  have e : idx_main_v23 (ix4 b h l d) = ix4 b l h d := funext fun a => Fin.ext (by
    match a with
    | ⟨0, _⟩ => rfl
    | ⟨1, _⟩ => rfl
    | ⟨2, _⟩ => rfl
    | ⟨3, _⟩ => rfl)
  rw [e]

/-- The scaled queries. -/
theorem q_at (b : Fin 16) (h : Fin 4) (l : Fin 8192) (d : Fin 32) :
    val_main_v6 (F := Ideal) x0 x1 (ix4 b h l d) = qv (X x0) (W x1) b l (hch h d) := by
  rw [val_main_v6_apply, v4_at, v3_at, v2_at,
    v1_at x0 x1 b l 0 h d (qcol (hch h d)) (by show 32 * h.val + d.val = 128 * 0 + 32 * h.val + d.val; omega),
    val_main_v5_apply, val_main_cst_apply]
  rfl

/-- The keys. -/
theorem k_at (b : Fin 16) (h : Fin 4) (l : Fin 8192) (d : Fin 32) :
    val_main_v9 (F := Ideal) x0 x1 (ix4 b h l d) = kv (X x0) (W x1) b l (hch h d) := by
  rw [v9_at, v8_at, v7_at,
    v1_at x0 x1 b l 1 h d (kcol (hch h d)) (by show 128 + (32 * h.val + d.val) = 128 * 1 + 32 * h.val + d.val; omega)]
  rfl

/-- The values. -/
theorem v_at (b : Fin 16) (h : Fin 4) (l : Fin 8192) (d : Fin 32) :
    val_main_v23 (F := Ideal) x0 x1 (ix4 b h l d) = vv (X x0) (W x1) b l (hch h d) := by
  rw [v23_at, v22_at, v21_at,
    v1_at x0 x1 b l 2 h d (vcol (hch h d)) (by show 256 + (32 * h.val + d.val) = 128 * 2 + 32 * h.val + d.val; omega)]
  rfl

/-! ## The softmax over the sequence axis -/

/-- The reduced index (b, h, d) with sequence position k put back is (b, h, k, d). -/
theorem lift_at (hr : S16x4x8192x32.Reduces [2] S16x4x32) (b : Fin 16) (h : Fin 4) (d : Fin 32)
    (k : Fin (S16x4x8192x32.size 2)) :
    hr.lift (ix3 b h d) k = ix4 b h (⟨k.val, k.isLt⟩ : Fin 8192) d := by
  funext c; apply Fin.ext
  fin_cases c <;> rfl

/-- The maximum of the keys over the sequence axis, folded from minus infinity. -/
theorem v10_at (b : Fin 16) (h : Fin 4) (d : Fin 32) :
    val_main_v10 (F := Ideal) x0 x1 (ix3 b h d)
      = (Finset.univ : Finset (Fin 8192)).fold max negInf (fun l => kv (X x0) (W x1) b l (hch h d)) := by
  have hr : S16x4x8192x32.Reduces [2] S16x4x32 :=
    ⟨reducesTo_S16x4x8192x32_S16x4x32_d2.1, by decide, reducesTo_S16x4x8192x32_S16x4x32_d2.2⟩
  unfold val_main_v10
  rw [Host.reduce_eq_fold_single FloatOps.maximumf _ _ reducesTo_S16x4x8192x32_S16x4x32_d2 hr h_S_]
  have hf : (val_main_v9 (F := Ideal) x0 x1 ∘ hr.lift (ix3 b h d))
      = fun l : Fin 8192 => kv (X x0) (W x1) b l (hch h d) :=
    funext fun k => (congrArg (val_main_v9 (F := Ideal) x0 x1) (lift_at hr b h d k)).trans
      (k_at x0 x1 b h ⟨k.val, k.isLt⟩ d)
  exact congrArg (fun f => Finset.fold max negInf f (Finset.univ : Finset (Fin 8192))) hf

/-- Joined once more with minus infinity: the maximum the softmax subtracts. -/
theorem v12_at (b : Fin 16) (h : Fin 4) (d : Fin 32) :
    val_main_v12 (F := Ideal) x0 x1 (ix3 b h d) = seqMax (X x0) (W x1) b (hch h d) := by
  rw [val_main_v12_apply, v10_at, val_main_v11_apply, val_main_cst_1_apply]
  rfl

/-- The maximum broadcast along the sequence axis. -/
theorem v14_at (b : Fin 16) (h : Fin 4) (l : Fin 8192) (d : Fin 32) :
    val_main_v14 (F := Ideal) x0 x1 (ix4 b h l d) = seqMax (X x0) (W x1) b (hch h d) := by
  rw [val_main_v14_apply]
  have e : idx_main_v14 (ix4 b h l d) = ix4 b h (0 : Fin 1) d := funext fun a => Fin.ext (by
    match a with
    | ⟨0, _⟩ => rfl
    | ⟨1, _⟩ => rfl
    | ⟨2, _⟩ => rfl
    | ⟨3, _⟩ => rfl)
  rw [e, val_main_v13_apply]
  have e' : idx_main_v13 (ix4 b h (0 : Fin 1) d) = ix3 b h d := funext fun a => Fin.ext (by
    match a with
    | ⟨0, _⟩ => rfl
    | ⟨1, _⟩ => rfl
    | ⟨2, _⟩ => rfl)
  rw [e', v12_at]

/-- The exponentials of the keys less their maximum. -/
theorem v16_at (b : Fin 16) (h : Fin 4) (l : Fin 8192) (d : Fin 32) :
    val_main_v16 (F := Ideal) x0 x1 (ix4 b h l d) = expK (X x0) (W x1) b l (hch h d) := by
  rw [val_main_v16_apply, val_main_v15_apply, k_at, v14_at]
  rfl

/-- Their sum over the sequence axis, from zero. -/
theorem v17_at (b : Fin 16) (h : Fin 4) (d : Fin 32) :
    val_main_v17 (F := Ideal) x0 x1 (ix3 b h d) = seqSum (X x0) (W x1) b (hch h d) := by
  rw [val_main_v17_apply, val_main_cst_2_apply]
  unfold seqSum
  show Ideal.ofBits .f32 0x00000000#32 + _ = _
  rw [Ideal.ofBits_zero_f32]
  refine congrArg (0 + ·) (Finset.sum_congr rfl fun k _ => ?_)
  have e : idx_main_v17 (ix3 b h d) k = ix4 b h k d := funext fun a => Fin.ext (by
    match a with
    | ⟨0, _⟩ => rfl
    | ⟨1, _⟩ => rfl
    | ⟨2, _⟩ => rfl
    | ⟨3, _⟩ => rfl)
  rw [e, v16_at]

/-- The sum broadcast along the sequence axis. -/
theorem v19_at (b : Fin 16) (h : Fin 4) (l : Fin 8192) (d : Fin 32) :
    val_main_v19 (F := Ideal) x0 x1 (ix4 b h l d) = seqSum (X x0) (W x1) b (hch h d) := by
  rw [val_main_v19_apply]
  have e : idx_main_v19 (ix4 b h l d) = ix4 b h (0 : Fin 1) d := funext fun a => Fin.ext (by
    match a with
    | ⟨0, _⟩ => rfl
    | ⟨1, _⟩ => rfl
    | ⟨2, _⟩ => rfl
    | ⟨3, _⟩ => rfl)
  rw [e, val_main_v18_apply]
  have e' : idx_main_v18 (ix4 b h (0 : Fin 1) d) = ix3 b h d := funext fun a => Fin.ext (by
    match a with
    | ⟨0, _⟩ => rfl
    | ⟨1, _⟩ => rfl
    | ⟨2, _⟩ => rfl)
  rw [e', v17_at]

/-- The softmax of the keys. -/
theorem v20_at (b : Fin 16) (h : Fin 4) (l : Fin 8192) (d : Fin 32) :
    val_main_v20 (F := Ideal) x0 x1 (ix4 b h l d) = softK (X x0) (W x1) b l (hch h d) := by
  rw [val_main_v20_apply, v16_at, v19_at]
  rfl

/-! ## The context, the heads' outputs, and the output projection -/

/-- The context of a head: the softmax of the keys against the values, contracted over the sequence axis. -/
theorem v24_at (b : Fin 16) (h : Fin 4) (d e : Fin 32) :
    val_main_v24 (F := Ideal) x0 x1 (ix4 b h d e) = ctxDirect (X x0) (W x1) b h d e := by
  rw [val_main_v24_apply]
  unfold ctxDirect
  refine Finset.sum_congr rfl fun k _ => ?_
  have el : lidx_main_v24 (ix4 b h d e) k = ix4 b h k d := funext fun a => Fin.ext (by
    match a with
    | ⟨0, _⟩ => rfl
    | ⟨1, _⟩ => rfl
    | ⟨2, _⟩ => rfl
    | ⟨3, _⟩ => rfl)
  have er : ridx_main_v24 (ix4 b h d e) k = ix4 b h k e := funext fun a => Fin.ext (by
    match a with
    | ⟨0, _⟩ => rfl
    | ⟨1, _⟩ => rfl
    | ⟨2, _⟩ => rfl
    | ⟨3, _⟩ => rfl)
  rw [el, er, v20_at, v_at]

/-- The queries applied to the context, contracted over the channel axis. -/
theorem v25_at (b : Fin 16) (h : Fin 4) (l : Fin 8192) (e : Fin 32) :
    val_main_v25 (F := Ideal) x0 x1 (ix4 b h l e) = headOut (X x0) (W x1) b h l e := by
  rw [val_main_v25_apply]
  unfold headOut
  refine Finset.sum_congr rfl fun k _ => ?_
  have el : lidx_main_v25 (ix4 b h l e) k = ix4 b h l k := funext fun a => Fin.ext (by
    match a with
    | ⟨0, _⟩ => rfl
    | ⟨1, _⟩ => rfl
    | ⟨2, _⟩ => rfl
    | ⟨3, _⟩ => rfl)
  have er : ridx_main_v25 (ix4 b h l e) k = ix4 b h k e := funext fun a => Fin.ext (by
    match a with
    | ⟨0, _⟩ => rfl
    | ⟨1, _⟩ => rfl
    | ⟨2, _⟩ => rfl
    | ⟨3, _⟩ => rfl)
  rw [el, er, q_at, v24_at]

/-- The heads concatenated: column f = 32 h + e is head f / 32, column f % 32. -/
theorem v27_at (b : Fin 16) (l : Fin 8192) (f : Fin 128) :
    val_main_v27 (F := Ideal) x0 x1 (ix3 b l f)
      = headOut (X x0) (W x1) b ⟨f.val / 32, by omega⟩ l ⟨f.val % 32, Nat.mod_lt _ (by norm_num)⟩ := by
  rw [val_main_v27_apply]
  have e : idx_main_v27 (ix3 b l f)
      = ix4 b l (⟨f.val / 32, by omega⟩ : Fin 4) (⟨f.val % 32, Nat.mod_lt _ (by norm_num)⟩ : Fin 32) :=
    funext fun a => Fin.ext (by
      have hb := b.isLt; have hl := l.isLt; have hf := f.isLt
      match a with
      | ⟨0, _⟩ => show ((b.val * 8192 + l.val) * 128 + f.val) / 1048576 = b.val; omega
      | ⟨1, _⟩ => show ((b.val * 8192 + l.val) * 128 + f.val) / 128 % 8192 = l.val; omega
      | ⟨2, _⟩ => show ((b.val * 8192 + l.val) * 128 + f.val) / 32 % 4 = f.val / 32; omega
      | ⟨3, _⟩ => show ((b.val * 8192 + l.val) * 128 + f.val) % 32 = f.val % 32; omega)
  rw [e, val_main_v26_apply]
  have e' : idx_main_v26 (ix4 b l (⟨f.val / 32, by omega⟩ : Fin 4) (⟨f.val % 32, Nat.mod_lt _ (by norm_num)⟩ : Fin 32))
      = ix4 b (⟨f.val / 32, by omega⟩ : Fin 4) l (⟨f.val % 32, Nat.mod_lt _ (by norm_num)⟩ : Fin 32) :=
    funext fun a => Fin.ext (by
      match a with
      | ⟨0, _⟩ => rfl
      | ⟨1, _⟩ => rfl
      | ⟨2, _⟩ => rfl
      | ⟨3, _⟩ => rfl)
  rw [e', v25_at]

variable (x2 : (⟨S128x256, .f32⟩ : BufTy).Contents (Elt Ideal)) (x3 : (⟨S256, .f32⟩ : BufTy).Contents (Elt Ideal))

/-- The third argument array by coordinates. -/
abbrev WO : Fin 128 → Fin 256 → EReal := cur2 (n0 := 128) (n1 := 256) x2
/-- The fourth argument array by coordinates. -/
abbrev BO : Fin 256 → EReal := cur1 (n0 := 256) x3

/-- The output projection with the bias added: the direct value. -/
theorem v31_at (b : Fin 16) (l : Fin 8192) (D : Fin 256) :
    val_main_v31 (F := Ideal) x0 x1 x2 x3 (ix3 b l D) = outDirect (X x0) (W x1) (WO x2) (BO x3) b l D := by
  rw [val_main_v31_apply, val_main_v28_apply, val_main_v30_apply]
  have e : idx_main_v30 (ix3 b l D) = ix3 (0 : Fin 1) (0 : Fin 1) D := funext fun a => Fin.ext (by
    match a with
    | ⟨0, _⟩ => rfl
    | ⟨1, _⟩ => rfl
    | ⟨2, _⟩ => rfl)
  rw [e, val_main_v29_apply]
  have e' : idx_main_v29 (ix3 (0 : Fin 1) (0 : Fin 1) D) = ix1 D := funext fun a => Fin.ext (by
    match a with
    | ⟨0, _⟩ => rfl)
  rw [e']
  have hs : (∑ k : Fin 128, val_main_v27 (F := Ideal) x0 x1 (lidx_main_v28 (ix3 b l D) k) * x2 (ridx_main_v28 (ix3 b l D) k))
      = ∑ f : Fin 128, headOut (X x0) (W x1) b ⟨f.val / 32, by omega⟩ l ⟨f.val % 32, Nat.mod_lt _ (by norm_num)⟩ * WO x2 f D :=
    Finset.sum_congr rfl fun k _ => by
      have el : lidx_main_v28 (ix3 b l D) k = ix3 b l k := funext fun a => Fin.ext (by
        match a with
        | ⟨0, _⟩ => rfl
        | ⟨1, _⟩ => rfl
        | ⟨2, _⟩ => rfl)
      have er : ridx_main_v28 (ix3 b l D) k = ix2 k D := funext fun a => Fin.ext (by
        match a with
        | ⟨0, _⟩ => rfl
        | ⟨1, _⟩ => rfl)
      rw [el, er, v27_at]
      rfl
  rw [hs]
  rfl

/-- The reference program's value is the direct value of its four argument arrays. -/
theorem ref_eq
    (x0 : (⟨Cert.ReferenceIdeal.S16x8192x256, .f32⟩ : BufTy).Contents (Elt Ideal)) (x1 : (⟨Cert.ReferenceIdeal.S256x384, .f32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal)) :
    Cert.ReferenceIdeal.Read.val_main_v31 (F := Ideal) x0 x1 x2 x3 = Cert.LinAttn.arrDirect x0 x1 x2 x3 := by
  funext i
  obtain ⟨b, l, D, rfl⟩ : ∃ (b : Fin 16) (l : Fin 8192) (D : Fin 256), i = ix3 b l D := ⟨i 0, i 1, i 2, eq_ix3 i⟩
  exact v31_at x0 x1 x2 x3 b l D

end Cert.ReferenceIdeal.RefValue

end
-- ==== Proof.FiniteInputs.lean ====
/-
  Finiteness of the argument arrays. The printed precondition compares the absolute value of every
  entry of the four arrays with the word of plus infinity and joins the comparisons by conjunction;
  when it holds, every entry is an extended real that is neither infinity, hence a real number.
-/
import proofs.«425081_j79276506350102_3_alg».proof.Pre_finite_inputs
import proofs.«425081_j79276506350102_3_alg».proof.Proof.Gen.Pre_finite_inputs
import proofs.«425081_j79276506350102_3_alg».proof.Proof.AttnArrays
import Idealize.ShloMosaic.Lib.ReduceAll
import Idealize.ShloMosaic.Lib.ValueIdx

noncomputable section

namespace Cert.LinAttn

open Idealize.ShloMosaic Idealize.ShloMosaic.ValueIdx

/-- The scalar shape has one index. -/
instance : Subsingleton Cert.Pre_finite_inputs.S_.Idx := ⟨fun a b => funext fun d => d.elim0⟩

/-- The word 0x7F800000 denotes plus infinity. -/
theorem ofBits_posInf : Ideal.ofBits .f32 0x7F800000#32 = (⊤ : EReal) := by
  simp [Ideal.ofBits, Ideal.ieee]

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the comparison of the absolute value of x with the word of plus infinity
    answering 1 makes x a real number. -/
theorem real_of_cmp (x : EReal)
    (h : Ideal.cmp .olt (max x (-x)) (Ideal.ofBits .f32 0x7F800000#32) = 1#1) :
    ∃ r : ℝ, x = (r : EReal) := by
  rw [ofBits_posInf] at h
  refine real_of_abs_lt_top x ?_
  by_contra hn
  simp [Ideal.cmp, hn] at h

/-- The precondition holding, every entry of the four argument arrays is a real number. -/
theorem allReal_of_pre [Cert.Pre_finite_inputs.Facts]
    (a0 : (⟨3, ![16, 8192, 256]⟩ : Shape).Idx → EReal) (a1 : (⟨2, ![256, 384]⟩ : Shape).Idx → EReal)
    (a2 : (⟨2, ![128, 256]⟩ : Shape).Idx → EReal) (a3 : (⟨1, ![256]⟩ : Shape).Idx → EReal)
    (h : Cert.Pre_finite_inputs.fn (F := Ideal) a0 a1 a2 a3 = fun _ => 1#1) :
    AllReal (cur3 a0) (cur2 a1) (cur2 a2) (cur1 a3) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun b l d => ?_, fun d f => ?_, fun f D => ?_, fun D => ?_⟩
  · exact real_of_cmp (a0 (ix3 b l d)) (Host.reduce_andi_all _ _ _ _ _ h0' (ix3 b l d))
  · exact real_of_cmp (a1 (ix2 d f)) (Host.reduce_andi_all _ _ _ _ _ h1 (ix2 d f))
  · exact real_of_cmp (a2 (ix2 f D)) (Host.reduce_andi_all _ _ _ _ _ h2 (ix2 f D))
  · exact real_of_cmp (a3 (ix1 D)) (Host.reduce_andi_all _ _ _ _ _ h3 (ix1 D))

end Cert.LinAttn

end
-- ==== Proof.AttnAlgebra.Sums.lean ====
/-
  Real-number facts behind the online softmax-weighted sum, over abstract finite index types:
  the invariant of the rescaled running sums, the independence of a softmax-weighted sum from the
  shift used inside the exponentials, and the re-indexing of a sum over `Fin (m * n)` by pairs.
-/
import Mathlib.Analysis.SpecialFunctions.Exp
import Mathlib.Algebra.BigOperators.Fin
import Mathlib.Algebra.BigOperators.Field
import Mathlib.Algebra.Order.BigOperators.Group.Finset
import Mathlib.Data.Fintype.BigOperators
import Mathlib.Logic.Equiv.Fin.Basic

namespace Cert.LinAttn.Sums

open Finset

/-- A sequence that starts at zero and at every step is rescaled by `exp (M n - M (n+1))` before
    the weights `exp (k n r - M (n+1)) * v n r` of the next block are added, is after `n` steps
    the sum over the first `n` blocks of the weights taken against `M n`. -/
theorem online_sum {T : Type*} [Fintype T] (k v : ℕ → T → ℝ) (M A : ℕ → ℝ) (h0 : A 0 = 0)
    (hs : ∀ n, A (n + 1) = Real.exp (M n - M (n + 1)) * A n
      + ∑ r, Real.exp (k n r - M (n + 1)) * v n r) (n : ℕ) :
    A n = ∑ j ∈ range n, ∑ r, Real.exp (k j r - M n) * v j r := by
  induction n with
  | zero => simp [h0]
  | succ n ih =>
    rw [hs, ih, sum_range_succ, mul_sum]
    congr 1
    refine sum_congr rfl fun j _ => ?_
    rw [mul_sum]
    refine sum_congr rfl fun r _ => ?_
    rw [← mul_assoc, ← Real.exp_add]
    congr 2
    ring

/-- The same without the second factor. -/
theorem online_sum_one {T : Type*} [Fintype T] (k : ℕ → T → ℝ) (M A : ℕ → ℝ) (h0 : A 0 = 0)
    (hs : ∀ n, A (n + 1) = Real.exp (M n - M (n + 1)) * A n
      + ∑ r, Real.exp (k n r - M (n + 1))) (n : ℕ) :
    A n = ∑ j ∈ range n, ∑ r, Real.exp (k j r - M n) := by
  have h := online_sum k (fun _ _ => 1) M A h0 (fun n => by simpa using hs n) n
  simpa using h

/-- A softmax-weighted sum does not depend on the shift inside the exponentials. -/
theorem softmax_shift {ι : Type*} [Fintype ι] (k v : ι → ℝ) (M S : ℝ) :
    (∑ l, Real.exp (k l - M) * v l) / (∑ l, Real.exp (k l - M))
      = ∑ l, (Real.exp (k l - S) / ∑ l', Real.exp (k l' - S)) * v l := by
  have hexp : ∀ l, Real.exp (k l - M) = Real.exp (S - M) * Real.exp (k l - S) := by
    intro l
    rw [← Real.exp_add]
    congr 1
    ring
  simp_rw [hexp, mul_assoc, ← mul_sum]
  rw [mul_div_mul_left _ _ (Real.exp_pos _).ne', sum_div]
  refine sum_congr rfl fun l _ => ?_
  rw [div_mul_eq_mul_div]

/-- A sum of exponentials over a nonempty finite type is positive. -/
theorem sum_exp_pos {ι : Type*} [Fintype ι] [Nonempty ι] (k : ι → ℝ) (M : ℝ) :
    0 < ∑ l, Real.exp (k l - M) :=
  sum_pos (fun l _ => Real.exp_pos _) univ_nonempty

/-- A sum over `Fin (m * n)` is the double sum over the pairs `(j, r)` at `r + n * j`. -/
theorem sum_fin_mul {α : Type*} [AddCommMonoid α] {m n : ℕ} (g : Fin (m * n) → α) :
    ∑ l, g l = ∑ j : Fin m, ∑ r : Fin n, g (finProdFinEquiv (j, r)) :=
  ((Equiv.sum_comp finProdFinEquiv g).symm.trans (Fintype.sum_prod_type _))

/-- Exchange of a weighted double sum: queries against a context against output weights. -/
theorem sum_exchange {ι κ : Type*} [Fintype ι] [Fintype κ] (q : ι → ℝ) (C : ι → κ → ℝ) (W : κ → ℝ) :
    ∑ d, q d * ∑ e, C d e * W e = ∑ e, (∑ d, q d * C d e) * W e := by
  simp_rw [mul_sum, sum_mul]
  rw [sum_comm]
  refine sum_congr rfl fun e _ => sum_congr rfl fun d _ => ?_
  ring

end Cert.LinAttn.Sums
-- ==== Proof.AttnAlgebra.Coe.lean ====
/-
  Over real-valued arrays every quantity of the two statements is the coercion of a real number.
  Real-valued copies of the quantities are defined here, and each extended-real quantity is shown to
  be the coercion of its copy. The running and the whole-sequence maxima are only shown to be real
  numbers: their values are never needed.
-/
import proofs.«425081_j79276506350102_3_alg».proof.Proof.AttnSpec
import proofs.«425081_j79276506350102_3_alg».proof.Proof.AttnAlgebra.Sums

noncomputable section

namespace Cert.LinAttn

open Idealize.ShloMosaic Finset

/-! ## Auxiliary facts on the extended reals -/

/-- A finite sum of coercions is the coercion of the sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [sum_insert ha, sum_insert ha, EReal.coe_add, ih]

/-- An extended real strictly between the infinities is the coercion of a real. -/
theorem eq_coe_toReal {a : EReal} (h : ⊥ < a ∧ a < ⊤) : a = ((a.toReal : ℝ) : EReal) :=
  (EReal.coe_toReal h.2.ne h.1.ne').symm

/-- The join of a real with a maximum of reals folded from minus infinity is finite. -/
theorem max_fold_bounds {ι : Type*} (s : Finset ι) (f : ι → ℝ) (r0 : ℝ) :
    ⊥ < max (r0 : EReal) (s.fold max ⊥ fun i => (f i : EReal)) ∧
      max (r0 : EReal) (s.fold max ⊥ fun i => (f i : EReal)) < ⊤ :=
  ⟨lt_of_lt_of_le (EReal.bot_lt_coe r0) (le_max_left _ _),
   max_lt (EReal.coe_lt_top r0)
     ((fold_max_lt _).2 ⟨bot_lt_top, fun i _ => EReal.coe_lt_top (f i)⟩)⟩

/-- A maximum of reals folded from minus infinity over a nonempty set is finite. -/
theorem fold_bounds {ι : Type*} (s : Finset ι) (hs : s.Nonempty) (f : ι → ℝ) :
    ⊥ < (s.fold max ⊥ fun i => (f i : EReal)) ∧ (s.fold max ⊥ fun i => (f i : EReal)) < ⊤ := by
  obtain ⟨i, hi⟩ := hs
  exact ⟨(lt_fold_max _).2 (Or.inr ⟨i, hi, EReal.bot_lt_coe (f i)⟩),
    (fold_max_lt _).2 ⟨bot_lt_top, fun i _ => EReal.coe_lt_top (f i)⟩⟩

/-! ## The three literal words -/

theorem negInf_eq : negInf = ⊥ := by
  simp [negInf, Ideal.ofBits, Ideal.ieee]

theorem scale_real : ∃ r : ℝ, scale = (r : EReal) := by
  simp [scale, Ideal.ofBits, Ideal.ieee]
  exact ⟨_, rfl⟩

theorem negInit_real : ∃ r : ℝ, negInit = (r : EReal) := by
  simp [negInit, Ideal.ofBits, Ideal.ieee]
  exact ⟨_, rfl⟩

/-- The scale as a real number. -/
def scaleR : ℝ := scale.toReal

theorem scale_coe : scale = (scaleR : EReal) := by
  obtain ⟨r, hr⟩ := scale_real
  rw [scaleR, hr, EReal.toReal_coe]

/-! ## Index facts -/

theorem hcol_hch (h : Fin 4) (d e : Fin 32) : hcol (hch h d) e = hch h e :=
  Fin.ext (show (32 * h.val + d.val) / 32 * 32 + e.val = 32 * h.val + e.val by omega)

/-- The four tiles of 2048 rows exhaust the sequence. -/
theorem sum_tiles {α : Type*} [AddCommMonoid α] (g : Fin 8192 → α) :
    ∑ j ∈ range 4, ∑ r : Fin 2048, g (rowOf j r) = ∑ l, g l := by
  rw [Finset.sum_range]
  refine Eq.trans ?_ (Sums.sum_fin_mul (m := 4) (n := 2048) g).symm
  refine sum_congr rfl fun j _ => sum_congr rfl fun r _ => congrArg g ?_
  exact Fin.ext (show (2048 * j.val + r.val) % 8192 = r.val + 2048 * j.val by omega)

/-- A sum over the 128 channels, head by head. -/
theorem sum_heads {α : Type*} [AddCommMonoid α] (F : Fin 4 → Fin 32 → Fin 128 → α) :
    ∑ f : Fin 128, F ⟨f.val / 32, by omega⟩ ⟨f.val % 32, Nat.mod_lt _ (by norm_num)⟩ f
      = ∑ h : Fin 4, ∑ e : Fin 32, F h e (hch h e) := by
  refine (Sums.sum_fin_mul (m := 4) (n := 32) _).trans ?_
  refine sum_congr rfl fun h _ => sum_congr rfl fun e _ => ?_
  have key : ∀ (a a' : Fin 4) (b b' : Fin 32) (c c' : Fin 128), a = a' → b = b' → c = c' →
      F a b c = F a' b' c' := by
    rintro _ _ _ _ _ _ rfl rfl rfl
    rfl
  exact key _ _ _ _ _ _
    (Fin.ext (show (e.val + 32 * h.val) / 32 = h.val by omega))
    (Fin.ext (show (e.val + 32 * h.val) % 32 = e.val by omega))
    (Fin.ext (show e.val + 32 * h.val = 32 * h.val + e.val by omega))

/-! ## Real-valued arrays and the real copies -/

variable (xr : Fin 16 → Fin 8192 → Fin 256 → ℝ) (wr : Fin 256 → Fin 384 → ℝ)
  (wor : Fin 128 → Fin 256 → ℝ) (bor : Fin 256 → ℝ)

/-- The real arrays read as extended-real arrays. -/
def cx : Fin 16 → Fin 8192 → Fin 256 → EReal := fun b l d => (xr b l d : EReal)
def cw : Fin 256 → Fin 384 → EReal := fun d f => (wr d f : EReal)
def cwo : Fin 128 → Fin 256 → EReal := fun f D => (wor f D : EReal)
def cbo : Fin 256 → EReal := fun D => (bor D : EReal)

def projR (b : Fin 16) (l : Fin 8192) (f : Fin 384) : ℝ := ∑ d : Fin 256, xr b l d * wr d f

theorem proj_coe (b : Fin 16) (l : Fin 8192) (f : Fin 384) :
    proj (cx xr) (cw wr) b l f = (projR xr wr b l f : EReal) := by
  simp only [proj, cx, cw, projR, ← EReal.coe_mul]
  exact coe_sum _ _

def qR (b : Fin 16) (l : Fin 8192) (c : Fin 128) : ℝ := projR xr wr b l (qcol c) * scaleR
def kR (b : Fin 16) (l : Fin 8192) (c : Fin 128) : ℝ := projR xr wr b l (kcol c)
def vR (b : Fin 16) (l : Fin 8192) (c : Fin 128) : ℝ := projR xr wr b l (vcol c)

theorem qv_coe (b : Fin 16) (l : Fin 8192) (c : Fin 128) :
    qv (cx xr) (cw wr) b l c = (qR xr wr b l c : EReal) := by
  rw [qv, proj_coe, scale_coe, ← EReal.coe_mul, qR]

theorem kv_coe (b : Fin 16) (l : Fin 8192) (c : Fin 128) :
    kv (cx xr) (cw wr) b l c = (kR xr wr b l c : EReal) := proj_coe xr wr b l (kcol c)

theorem vv_coe (b : Fin 16) (l : Fin 8192) (c : Fin 128) :
    vv (cx xr) (cw wr) b l c = (vR xr wr b l c : EReal) := proj_coe xr wr b l (vcol c)

/-! ### The maxima are real numbers -/

theorem runMax_bounds (b : Fin 16) (n : ℕ) (c : Fin 128) :
    ⊥ < runMax (cx xr) (cw wr) b n c ∧ runMax (cx xr) (cw wr) b n c < ⊤ := by
  induction n with
  | zero =>
    obtain ⟨r, hr⟩ := negInit_real
    rw [runMax, hr]
    exact ⟨EReal.bot_lt_coe r, EReal.coe_lt_top r⟩
  | succ n ih =>
    rw [runMax, eq_coe_toReal ih, tileMax, negInf_eq]
    simp only [kv_coe]
    exact max_fold_bounds _ _ _

def runMaxR (b : Fin 16) (n : ℕ) (c : Fin 128) : ℝ := (runMax (cx xr) (cw wr) b n c).toReal

theorem runMax_coe (b : Fin 16) (n : ℕ) (c : Fin 128) :
    runMax (cx xr) (cw wr) b n c = (runMaxR xr wr b n c : EReal) :=
  eq_coe_toReal (runMax_bounds xr wr b n c)

theorem seqMax_bounds (b : Fin 16) (c : Fin 128) :
    ⊥ < seqMax (cx xr) (cw wr) b c ∧ seqMax (cx xr) (cw wr) b c < ⊤ := by
  rw [seqMax, negInf_eq, max_eq_right bot_le]
  simp only [kv_coe]
  exact fold_bounds _ univ_nonempty _

def seqMaxR (b : Fin 16) (c : Fin 128) : ℝ := (seqMax (cx xr) (cw wr) b c).toReal

theorem seqMax_coe (b : Fin 16) (c : Fin 128) :
    seqMax (cx xr) (cw wr) b c = (seqMaxR xr wr b c : EReal) :=
  eq_coe_toReal (seqMax_bounds xr wr b c)

/-! ### The online pass -/

theorem decay_coe (b : Fin 16) (n : ℕ) (c : Fin 128) :
    decay (cx xr) (cw wr) b n c
      = ((Real.exp (runMaxR xr wr b n c - runMaxR xr wr b (n + 1) c) : ℝ) : EReal) := by
  rw [decay, runMax_coe, runMax_coe, ← EReal.coe_sub, Ideal.exp_coe]

theorem pw_coe (b : Fin 16) (n : ℕ) (r : Fin 2048) (c : Fin 128) :
    pw (cx xr) (cw wr) b n r c
      = ((Real.exp (kR xr wr b (rowOf n r) c - runMaxR xr wr b (n + 1) c) : ℝ) : EReal) := by
  rw [pw, kv_coe, runMax_coe, ← EReal.coe_sub, Ideal.exp_coe]

def runSumR (b : Fin 16) : ℕ → Fin 128 → ℝ
  | 0, _ => 0
  | n + 1, c => Real.exp (runMaxR xr wr b n c - runMaxR xr wr b (n + 1) c) * runSumR b n c
      + ∑ r : Fin 2048, Real.exp (kR xr wr b (rowOf n r) c - runMaxR xr wr b (n + 1) c)

def runAccR (b : Fin 16) : ℕ → Fin 128 → Fin 32 → ℝ
  | 0, _, _ => 0
  | n + 1, c, e => Real.exp (runMaxR xr wr b n c - runMaxR xr wr b (n + 1) c) * runAccR b n c e
      + ∑ r : Fin 2048, Real.exp (kR xr wr b (rowOf n r) c - runMaxR xr wr b (n + 1) c)
          * vR xr wr b (rowOf n r) (hcol c e)

theorem runSum_coe (b : Fin 16) (n : ℕ) (c : Fin 128) :
    runSum (cx xr) (cw wr) b n c = (runSumR xr wr b n c : EReal) := by
  induction n with
  | zero => rw [runSum, runSumR, EReal.coe_zero]
  | succ n ih =>
    rw [runSum, runSumR, ih, decay_coe]
    simp only [pw_coe]
    rw [coe_sum, ← EReal.coe_mul, ← EReal.coe_add]

theorem runAcc_coe (b : Fin 16) (n : ℕ) (c : Fin 128) (e : Fin 32) :
    runAcc (cx xr) (cw wr) b n c e = (runAccR xr wr b n c e : EReal) := by
  induction n with
  | zero => rw [runAcc, runAccR, EReal.coe_zero]
  | succ n ih =>
    rw [runAcc, runAccR, ih, decay_coe]
    simp only [pw_coe, vv_coe, ← EReal.coe_mul]
    rw [coe_sum, ← EReal.coe_add]

/-- After four tiles the running sum is the sum over the whole sequence, against the last maximum. -/
theorem runSumR_four (b : Fin 16) (c : Fin 128) :
    runSumR xr wr b 4 c = ∑ l, Real.exp (kR xr wr b l c - runMaxR xr wr b 4 c) := by
  rw [Sums.online_sum_one (fun j r => kR xr wr b (rowOf j r) c) (fun n => runMaxR xr wr b n c)
    (fun n => runSumR xr wr b n c) (by rw [runSumR]) (fun n => by rw [runSumR]) 4]
  exact sum_tiles fun l => Real.exp (kR xr wr b l c - runMaxR xr wr b 4 c)

theorem runAccR_four (b : Fin 16) (c : Fin 128) (e : Fin 32) :
    runAccR xr wr b 4 c e
      = ∑ l, Real.exp (kR xr wr b l c - runMaxR xr wr b 4 c) * vR xr wr b l (hcol c e) := by
  rw [Sums.online_sum (fun j r => kR xr wr b (rowOf j r) c)
    (fun j r => vR xr wr b (rowOf j r) (hcol c e)) (fun n => runMaxR xr wr b n c)
    (fun n => runAccR xr wr b n c e) (by rw [runAccR]) (fun n => by rw [runAccR]) 4]
  exact sum_tiles fun l =>
    Real.exp (kR xr wr b l c - runMaxR xr wr b 4 c) * vR xr wr b l (hcol c e)

theorem runSumR_four_pos (b : Fin 16) (c : Fin 128) : 0 < runSumR xr wr b 4 c := by
  rw [runSumR_four]
  exact Sums.sum_exp_pos _ _

def ctxOnlineR (b : Fin 16) (c : Fin 128) (e : Fin 32) : ℝ :=
  runAccR xr wr b 4 c e / runSumR xr wr b 4 c

theorem ctxOnline_coe (b : Fin 16) (c : Fin 128) (e : Fin 32) :
    ctxOnline (cx xr) (cw wr) b c e = (ctxOnlineR xr wr b c e : EReal) := by
  rw [ctxOnline, runAcc_coe, runSum_coe, Ideal.div_coe (runSumR_four_pos xr wr b c).ne',
    ← EReal.coe_mul, mul_one_div, ctxOnlineR]

def wbOnlineR (b : Fin 16) (c : Fin 128) (D : Fin 256) : ℝ :=
  ∑ e : Fin 32, ctxOnlineR xr wr b c e * wor (hcol c e) D

theorem wbOnline_coe (b : Fin 16) (c : Fin 128) (D : Fin 256) :
    wbOnline (cx xr) (cw wr) (cwo wor) b c D = (wbOnlineR xr wr wor b c D : EReal) := by
  simp only [wbOnline, ctxOnline_coe, cwo, wbOnlineR, ← EReal.coe_mul]
  exact coe_sum _ _

def outOnlineR (b : Fin 16) (l : Fin 8192) (D : Fin 256) : ℝ :=
  (∑ c : Fin 128, qR xr wr b l c * wbOnlineR xr wr wor b c D) + bor D

theorem outOnline_coe (b : Fin 16) (l : Fin 8192) (D : Fin 256) :
    outOnline (cx xr) (cw wr) (cwo wor) (cbo bor) b l D
      = (outOnlineR xr wr wor bor b l D : EReal) := by
  simp only [outOnline, qv_coe, wbOnline_coe, cbo, outOnlineR, ← EReal.coe_mul]
  rw [coe_sum, ← EReal.coe_add]

/-! ### The direct value -/

def expKR (b : Fin 16) (l : Fin 8192) (c : Fin 128) : ℝ :=
  Real.exp (kR xr wr b l c - seqMaxR xr wr b c)

theorem expK_coe (b : Fin 16) (l : Fin 8192) (c : Fin 128) :
    expK (cx xr) (cw wr) b l c = (expKR xr wr b l c : EReal) := by
  rw [expK, kv_coe, seqMax_coe, ← EReal.coe_sub, Ideal.exp_coe, expKR]

def seqSumR (b : Fin 16) (c : Fin 128) : ℝ := ∑ l : Fin 8192, expKR xr wr b l c

theorem seqSum_coe (b : Fin 16) (c : Fin 128) :
    seqSum (cx xr) (cw wr) b c = (seqSumR xr wr b c : EReal) := by
  rw [seqSum, zero_add]
  simp only [expK_coe]
  exact coe_sum _ _

theorem seqSumR_pos (b : Fin 16) (c : Fin 128) : 0 < seqSumR xr wr b c :=
  Sums.sum_exp_pos (fun l => kR xr wr b l c) (seqMaxR xr wr b c)

def softKR (b : Fin 16) (l : Fin 8192) (c : Fin 128) : ℝ :=
  expKR xr wr b l c / seqSumR xr wr b c

theorem softK_coe (b : Fin 16) (l : Fin 8192) (c : Fin 128) :
    softK (cx xr) (cw wr) b l c = (softKR xr wr b l c : EReal) := by
  rw [softK, expK_coe, seqSum_coe, Ideal.div_coe (seqSumR_pos xr wr b c).ne',
    ← EReal.coe_mul, mul_one_div, softKR]

def ctxDirectR (b : Fin 16) (h : Fin 4) (d e : Fin 32) : ℝ :=
  ∑ l : Fin 8192, softKR xr wr b l (hch h d) * vR xr wr b l (hch h e)

theorem ctxDirect_coe (b : Fin 16) (h : Fin 4) (d e : Fin 32) :
    ctxDirect (cx xr) (cw wr) b h d e = (ctxDirectR xr wr b h d e : EReal) := by
  simp only [ctxDirect, softK_coe, vv_coe, ctxDirectR, ← EReal.coe_mul]
  exact coe_sum _ _

def headOutR (b : Fin 16) (h : Fin 4) (l : Fin 8192) (e : Fin 32) : ℝ :=
  ∑ d : Fin 32, qR xr wr b l (hch h d) * ctxDirectR xr wr b h d e

theorem headOut_coe (b : Fin 16) (h : Fin 4) (l : Fin 8192) (e : Fin 32) :
    headOut (cx xr) (cw wr) b h l e = (headOutR xr wr b h l e : EReal) := by
  simp only [headOut, qv_coe, ctxDirect_coe, headOutR, ← EReal.coe_mul]
  exact coe_sum _ _

def outDirectR (b : Fin 16) (l : Fin 8192) (D : Fin 256) : ℝ :=
  (∑ f : Fin 128, headOutR xr wr b ⟨f.val / 32, by omega⟩ l
      ⟨f.val % 32, Nat.mod_lt _ (by norm_num)⟩ * wor f D) + bor D

theorem outDirect_coe (b : Fin 16) (l : Fin 8192) (D : Fin 256) :
    outDirect (cx xr) (cw wr) (cwo wor) (cbo bor) b l D
      = (outDirectR xr wr wor bor b l D : EReal) := by
  simp only [outDirect, headOut_coe, cwo, cbo, outDirectR, ← EReal.coe_mul]
  rw [coe_sum, ← EReal.coe_add]

end Cert.LinAttn

end
-- ==== Proof.AttnAlgebra.lean ====
/-
  The online pass and the textbook value of the linear attention agree on real-valued arrays.

  Over reals, after the four tiles the running sum and the running accumulator are the sums over the
  whole sequence of `exp (k - M)` and of `exp (k - M) * v`, where `M` is the last running maximum;
  their quotient does not depend on `M`, so it is the softmax-weighted sum of the direct value
  (whose shift is the maximum over the sequence). The rest is a re-indexing of the 128 channels
  head by head and an exchange of two finite sums.
-/
import proofs.«425081_j79276506350102_3_alg».proof.Proof.AttnSpec
import proofs.«425081_j79276506350102_3_alg».proof.Proof.AttnAlgebra.Sums
import proofs.«425081_j79276506350102_3_alg».proof.Proof.AttnAlgebra.Coe

noncomputable section

namespace Cert.LinAttn

open Idealize.ShloMosaic Finset

variable (xr : Fin 16 → Fin 8192 → Fin 256 → ℝ) (wr : Fin 256 → Fin 384 → ℝ)
  (wor : Fin 128 → Fin 256 → ℝ) (bor : Fin 256 → ℝ)

/-- The online context of channel `d` of head `h` is the direct context of that head. -/
theorem ctxOnlineR_hch (b : Fin 16) (h : Fin 4) (d e : Fin 32) :
    ctxOnlineR xr wr b (hch h d) e = ctxDirectR xr wr b h d e := by
  rw [ctxOnlineR, runAccR_four, runSumR_four, hcol_hch]
  simp only [ctxDirectR, softKR, expKR, seqSumR]
  exact Sums.softmax_shift (fun l => kR xr wr b l (hch h d)) (fun l => vR xr wr b l (hch h e))
    (runMaxR xr wr b 4 (hch h d)) (seqMaxR xr wr b (hch h d))

/-- The two results agree as real numbers. -/
theorem outOnlineR_eq (b : Fin 16) (l : Fin 8192) (D : Fin 256) :
    outOnlineR xr wr wor bor b l D = outDirectR xr wr wor bor b l D := by
  unfold outOnlineR outDirectR
  congr 1
  refine (sum_heads fun _ _ c => qR xr wr b l c * wbOnlineR xr wr wor b c D).trans ?_
  refine Eq.trans ?_ (sum_heads fun h e f => headOutR xr wr b h l e * wor f D).symm
  refine sum_congr rfl fun h _ => ?_
  simp only [wbOnlineR, headOutR, ctxOnlineR_hch, hcol_hch]
  exact Sums.sum_exchange (fun d => qR xr wr b l (hch h d)) (fun d e => ctxDirectR xr wr b h d e)
    (fun e => wor (hch h e) D)

/-- On real-valued arrays the online pass computes the textbook value. -/
theorem outOnline_eq_outDirect
    (x : Fin 16 → Fin 8192 → Fin 256 → EReal) (w : Fin 256 → Fin 384 → EReal)
    (wo : Fin 128 → Fin 256 → EReal) (bo : Fin 256 → EReal)
    (h : AllReal x w wo bo) (b : Fin 16) (l : Fin 8192) (D : Fin 256) :
    outOnline x w wo bo b l D = outDirect x w wo bo b l D := by
  obtain ⟨hx, hw, hwo, hbo⟩ := h
  choose xr hxr using hx
  choose wr hwr using hw
  choose wor hwor using hwo
  choose bor hbor using hbo
  obtain rfl : x = cx xr := funext fun b => funext fun l => funext fun d => hxr b l d
  obtain rfl : w = cw wr := funext fun d => funext fun f => hwr d f
  obtain rfl : wo = cwo wor := funext fun f => funext fun D => hwor f D
  obtain rfl : bo = cbo bor := funext fun D => hbor D
  rw [outOnline_coe, outDirect_coe, outOnlineR_eq]

end Cert.LinAttn

end
-- ==== Proof.Assembly.lean ====
/-
  The certificate's claim from its pieces. Given that the kernel as printed runs with its argument arrays
  unchanged, and that the idealized kernel runs to the online value of its argument arrays with them
  unchanged, every conjunct of the claim follows: the three frames are those runs with the results
  dropped (the reference's from its own run), the idealization rewrote no operation, and the idealized
  kernel and the idealized reference end with equal results because the reference's value is the direct
  attention value, the precondition makes every entry of the arguments a real number, and on real
  arguments the online value is the direct value.
-/
import proofs.«425081_j79276506350102_3_alg».proof.Defs
import proofs.«425081_j79276506350102_3_alg».proof.Proof.Gen.Kernel
import proofs.«425081_j79276506350102_3_alg».proof.Proof.Gen.KernelIdeal
import proofs.«425081_j79276506350102_3_alg».proof.Proof.Gen.ReferenceIdeal
import proofs.«425081_j79276506350102_3_alg».proof.Proof.Gen.Pre_finite_inputs
import proofs.«425081_j79276506350102_3_alg».proof.Proof.Gen.ReferenceIdeal.Run
import proofs.«425081_j79276506350102_3_alg».proof.Proof.Gen.ReferenceIdeal.Read
import proofs.«425081_j79276506350102_3_alg».proof.Proof.RefValue
import proofs.«425081_j79276506350102_3_alg».proof.Proof.FiniteInputs
import proofs.«425081_j79276506350102_3_alg».proof.Proof.AttnAlgebra
import proofs.«425081_j79276506350102_3_alg».proof.Proof.AttnArrays

noncomputable section

namespace Cert.Proof

open Idealize.ShloMosaic Idealize.SL.Sem

/-- The idealized kernel and the idealized reference, from memories agreeing on the arguments, end with
    equal results: the online value of the kernel's argument arrays. -/
theorem algebraic_of
    (hKI : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v3)
              = Cert.LinAttn.arrOnline (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m ρ m' ρ' hpre hagree
  refine ⟨fun c => Cert.LinAttn.arrOnline (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hKI m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq,
    (hagree c).1, (hagree c).2.1, (hagree c).2.2.1, (hagree c).2.2.2]
  show Cert.LinAttn.arrDirect _ _ _ _ = Cert.LinAttn.arrOnline _ _ _ _
  funext i
  exact (Cert.LinAttn.outOnline_eq_outDirect _ _ _ _
    (Cert.LinAttn.allReal_of_pre _ _ _ _ (hpre c)) _ _ _).symm

/-- The claim, from the two runs of the kernel. -/
theorem claim_of
    (hK : ∀ (m : (ℓ : Loc Cert.Kernel.nD Cert.Kernel.τ Cert.Kernel.sig) → Buf (Elt Bits) ℓ) (ρ : Dev Cert.Kernel.nD → PrngReg),
        θ_run (Cert.Kernel.defs (F := Bits)) (onTc (τ := Cert.Kernel.τ) (Cert.Kernel.main (F := Bits))) ⟨m, fun _ => 0, ρ⟩ (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)))
    (hKI : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v3)
              = Cert.LinAttn.arrOnline (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.Claim :=
  ⟨Cert.Kernel.Gen.facts, Cert.KernelIdeal.Gen.facts, Cert.ReferenceIdeal.Gen.facts, Cert.Pre_finite_inputs.Gen.facts,
    fun m ρ _ => hK m ρ,
    fun m ρ _ => (θ_run Cert.KernelIdeal.defs _ _).mono (fun _ h c => (h c).2) (hKI m ρ),
    fun m ρ _ => (θ_run Cert.ReferenceIdeal.defs _ _).mono (fun _ h c => (h c).2)
      (Cert.ReferenceIdeal.Value.run (F := Ideal) m ρ),
    trivial,
    algebraic_of hKI⟩

end Cert.Proof

end
-- ==== Proof.KI.Shared.lean ====
/-
  What the three cases of the kernel body share. The body branches twice on the second grid coordinate:
  at the first tile of a batch row it resets the running maximum, the running sum and the accumulator;
  at the last tile it also computes the context and writes the whole output block. A point is therefore
  in one of three cases: first tile (A), a middle tile (B), last tile (C). Here: the two conditions in
  closed form over the 64 grid points, where the output window is idle, the staging and scratch memrefs
  as the pipeline passes them, and the region invariant with the four scratch buffers spelled out.
-/
import proofs.«425081_j79276506350102_3_alg».proof.Proof.Gen.KernelIdeal.Frame
import proofs.«425081_j79276506350102_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition (the first tile of a batch row), from the grid coordinates. -/
abbrev cond0_0 (i : grid0.Coords) : Prop := (Scalar.cmpi .ne (Scalar.extui (Scalar.cmpi .eq (BitVec.ofNat 32 (i 1).val) 0#32)) 0#32) = 1#1
/-- It holds at the points congruent to 0 modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition (the last tile of a batch row). -/
abbrev cond0_1 (i : grid0.Coords) : Prop := k0_cond2 i = 1#1
/-- It holds at the points congruent to 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the body stores nothing into the output block, and the block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile the output window is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x256 .f32 := win0_4.stage (cfg0.slots t 4)
abbrev hs0_4 (t : Fin cfg0.N) : (ms0_4 t).IsWhole := hstage0_4 ((cfg0.slots t 4).cast nbuf0_4)
/-- The four scratch operands: the running maximum, the running sum, the accumulator, the cached queries. -/
abbrev scM0_0 : Memref sig .tc .vmem S1x128 .f32 := Memref.whole cc0_scratch0
abbrev scM0_1 : Memref sig .tc .vmem S1x128 .f32 := Memref.whole cc0_scratch1
abbrev scM0_2 : Memref sig .tc .vmem S128x32 .f32 := Memref.whole cc0_scratch2
abbrev scM0_3 : Memref sig .tc .vmem S8192x128 .bf16 := Memref.whole cc0_scratch3
abbrev hscM0_3 : (scM0_3).IsWhole := Memref.isWhole_whole _
abbrev VS0_0 : View sig .tc .vmem S1x128 .f32 := scM0_0.view
abbrev VS0_1 : View sig .tc .vmem S1x128 .f32 := scM0_1.view
abbrev VS0_2 : View sig .tc .vmem S128x32 .f32 := scM0_2.view
abbrev VS0_3 : View sig .tc .vmem S8192x128 .bf16 := scM0_3.view
/-- One staging buffer of the output window, through which its contents are stated. -/
abbrev VO0_4 : View sig .tc .vmem S1x8192x256 .f32 := (Memref.whole cc0_stg4_0 : Memref sig .tc .vmem S1x8192x256 .f32).view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KI.RunA.lean ====
/-
  The body at the first tile of a batch row (case A): it resets the running maximum, the running sum and
  the accumulator, stores this tile's scaled queries into their slice of the query cache, and updates the
  three running quantities; the output block is left untouched. Stated on any whole memrefs, as a triple
  whose stored pieces are found by running the body.
-/
import proofs.«425081_j79276506350102_3_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in case A: from the inputs at their blocks, the output buffer at any contents (handed back as
    found), the three running buffers at anything and the query cache at any contents `xs3`, it runs to the
    continuation with the running buffers' stored pieces written and the cache's one tile `QT` stored at
    this tile's rows; none of the pieces depends on what the cache held. -/
noncomputable def kernelRun0_A (c : Dev nD) (i : grid0.Coords) (arg2 : Memref sig .tc .vmem S1x2048x256 .f32) (harg2 : arg2.IsWhole) (arg3 : Memref sig .tc .vmem S256x384 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x8192x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S8192x128 .bf16) (harg10 : arg10.IsWhole) (hc0 : cond0_0 i) (hc1 : ¬cond0_1 i)
    (x0 : Vec F S1x2048x256 .f32) (x1 : Vec F S256x384 .bf16) (x2 : Vec F S128x256 .bf16) (x3 : Vec F S1x256 .f32) :
    Σ' (LS0 : List (View.Piece (Elt F) S1x128 .f32)), Σ' (LS1 : List (View.Piece (Elt F) S1x128 .f32)), Σ' (LS2 : List (View.Piece (Elt F) S128x32 .f32)), { QT : Vec F S2048x128 .bf16 //
      ∀ (xs3 : Vec F S8192x128 .bf16) (xi4 : Vec F S1x8192x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) [⟨Rect.unit (s := S8192x128) (k0_off1 i) S2048x128.size (k0_off1_inb i), QT⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun xs3 xi4 E K => ?run⟩
  case run =>
    simp only [cc0__fused_kernel_eq_skeleton]; unfold cc0__fused_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexact HS3

end Cert.KernelIdeal.Body

end
-- ==== Proof.KI.RunB.lean ====
/-
  The body at a middle tile of a batch row (case B): no reset and no final projection. It stores this
  tile's scaled queries into their slice of the query cache and updates the running maximum, the running
  sum and the accumulator from what the previous tile left; the output block is left untouched.
-/
import proofs.«425081_j79276506350102_3_alg».proof.Proof.KI.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in case B: the three running buffers at what the point before left (`xs0`, `xs1`, `xs2`),
    the query cache at any contents; each handed back with its stored pieces written. -/
noncomputable def kernelRun0_B (c : Dev nD) (i : grid0.Coords) (arg2 : Memref sig .tc .vmem S1x2048x256 .f32) (harg2 : arg2.IsWhole) (arg3 : Memref sig .tc .vmem S256x384 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x8192x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S8192x128 .bf16) (harg10 : arg10.IsWhole) (hc0 : ¬cond0_0 i) (hc1 : ¬cond0_1 i)
    (x0 : Vec F S1x2048x256 .f32) (x1 : Vec F S256x384 .bf16) (x2 : Vec F S128x256 .bf16) (x3 : Vec F S1x256 .f32) (xs0 : Vec F S1x128 .f32) (xs1 : Vec F S1x128 .f32) (xs2 : Vec F S128x32 .f32) :
    Σ' (LS0 : List (View.Piece (Elt F) S1x128 .f32)), Σ' (LS1 : List (View.Piece (Elt F) S1x128 .f32)), Σ' (LS2 : List (View.Piece (Elt F) S128x32 .f32)), { QT : Vec F S2048x128 .bf16 //
      ∀ (xs3 : Vec F S8192x128 .bf16) (xi4 : Vec F S1x8192x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) [⟨Rect.unit (s := S8192x128) (k0_off1 i) S2048x128.size (k0_off1_inb i), QT⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun xs3 xi4 E K => ?run⟩
  case run =>
    simp only [cc0__fused_kernel_eq_skeleton]; unfold cc0__fused_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexact HS3

end Cert.KernelIdeal.Body

end
-- ==== Proof.KI.RunC.lean ====
/-
  The body at the last tile of a batch row (case C): after the tile's update of the running quantities it
  divides the accumulator by the running sum, folds the result into the output weights head by head, and
  writes the output block in four chunks of 2048 rows, each the cached queries of that chunk times the
  folded weights plus the bias. The output buffer ends wholly overwritten by those four stores.
-/
import proofs.«425081_j79276506350102_3_alg».proof.Proof.KI.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in case C: as a middle tile, and the output buffer (at anything before) ends with its four
    stored pieces written; only these depend on what the query cache held. The cache is handed back at
    some contents: the next point starts a new batch row and relies on none of it. -/
noncomputable def kernelRun0_C (c : Dev nD) (i : grid0.Coords) (arg2 : Memref sig .tc .vmem S1x2048x256 .f32) (harg2 : arg2.IsWhole) (arg3 : Memref sig .tc .vmem S256x384 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x8192x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S8192x128 .bf16) (harg10 : arg10.IsWhole) (hc0 : ¬cond0_0 i) (hc1 : cond0_1 i)
    (x0 : Vec F S1x2048x256 .f32) (x1 : Vec F S256x384 .bf16) (x2 : Vec F S128x256 .bf16) (x3 : Vec F S1x256 .f32) (xs0 : Vec F S1x128 .f32) (xs1 : Vec F S1x128 .f32) (xs2 : Vec F S128x32 .f32) :
    Σ' (LS0 : List (View.Piece (Elt F) S1x128 .f32)), Σ' (LS1 : List (View.Piece (Elt F) S1x128 .f32)), Σ' (LS2 : List (View.Piece (Elt F) S128x32 .f32)),
      (xs3 : Vec F S8192x128 .bf16) → { L4 : List (View.Piece (Elt F) S1x8192x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, fun xs3 => ⟨?_, fun E K => ?run⟩⟩
  case run =>
    simp only [cc0__fused_kernel_eq_skeleton]; unfold cc0__fused_kernel_skel
    simp only [k0_part2_eq_skeleton, k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _, _; isplitr; swap; · iexact HS3
    ipureintro; rfl

end Cert.KernelIdeal.Body

end
-- ==== Proof.CacheTiles.lean ====
/-
  A [8192, 128] buffer written one [2048, 128] row-tile at a time and read back tile by tile: a read of tile `j` after a
  store of the tile at row offset `2048 k` is the stored payload when `k = j` (the read rectangle is the store's own)
  and the earlier contents when `k ≠ j` (the two row ranges are disjoint); and there are contents with three prescribed
  tiles (three stores over arbitrary contents).
-/
import proofs.«425081_j79276506350102_3_alg».proof.Proof.Gen.KernelIdeal
import Idealize.ShloMosaic.Lib.Pipeline.FrameBody
import Idealize.ShloMosaic.Lib.Pipeline.Value
import Idealize.ShloMosaic.Lib.Exec.Geometry
import Idealize.ShloMosaic.Lib.Writes

noncomputable section

namespace Cert.KernelIdeal.Body

open Idealize.ShloMosaic Cert.KernelIdeal Cert.KernelIdeal.Gen

variable {F : FTy → Type} [FloatOps F]

/-! ## One store, one read, at row offsets given as numbers -/

/-- A read through the store's own rectangle is the stored payload. -/
theorem read_store_same {sig' : RefSig} {κ : Kind} {sp : Space} (v : View sig' κ sp S8192x128 .bf16) (f : v.ty.Contents (Elt F))
    (o o' : ℕ) (h : o' = o) (inb : ∀ a, (![o, 0] : Fin 2 → ℕ) a + S2048x128.size a ≤ S8192x128.size a)
    (inb' : ∀ a, (![o', 0] : Fin 2 → ℕ) a + S2048x128.size a ≤ S8192x128.size a) (QT : Vec F S2048x128 .bf16) :
    v.readAt (Elt F) (Rect.unit (s := S8192x128) ![o', 0] S2048x128.size inb').toLoadRect
        (v.writes (Elt F) f [⟨Rect.unit (s := S8192x128) ![o, 0] S2048x128.size inb, QT⟩]) = QT := by
  subst h
  exact (View.readAt_writes_of_cover v f [⟨Rect.unit (s := S8192x128) ![o', 0] S2048x128.size inb, QT⟩]
      (Rect.unit (s := S8192x128) ![o', 0] S2048x128.size inb').toLoadRect
      (fun j => ⟨_, List.mem_singleton.mpr rfl, LoadRect.idx_mem _ j⟩)).trans
    (View.readCov_cons_toLoadRect v (Rect.unit (s := S8192x128) ![o', 0] S2048x128.size inb) QT [])

/-- A read through a rectangle whose rows are all below or all above the store's is the earlier contents. -/
theorem read_store_apart {sig' : RefSig} {κ : Kind} {sp : Space} (v : View sig' κ sp S8192x128 .bf16) (f : v.ty.Contents (Elt F))
    (o o' : ℕ) (h : o + 2048 ≤ o' ∨ o' + 2048 ≤ o) (inb : ∀ a, (![o, 0] : Fin 2 → ℕ) a + S2048x128.size a ≤ S8192x128.size a)
    (inb' : ∀ a, (![o', 0] : Fin 2 → ℕ) a + S2048x128.size a ≤ S8192x128.size a) (QT : Vec F S2048x128 .bf16) :
    v.readAt (Elt F) (Rect.unit (s := S8192x128) ![o', 0] S2048x128.size inb').toLoadRect
        (v.writes (Elt F) f [⟨Rect.unit (s := S8192x128) ![o, 0] S2048x128.size inb, QT⟩])
      = v.readAt (Elt F) (Rect.unit (s := S8192x128) ![o', 0] S2048x128.size inb').toLoadRect f := by
  refine View.readAt_writes_of_forall_not_mem v f _ _ fun j p hp hmem => ?_
  rw [List.mem_singleton.mp hp] at hmem
  have hd : Disjoint (Rect.unit (s := S8192x128) ![o, 0] S2048x128.size inb).set
      (Rect.unit (s := S8192x128) ![o', 0] S2048x128.size inb').set :=
    Rect.unit_disjoint (0 : Fin 2) (by show o + 2048 ≤ o' ∨ o' + 2048 ≤ o; exact h)
  exact Finset.disjoint_left.mp hd hmem (LoadRect.idx_mem _ j)

/-! ## Tile `j` after a store of tile `k` -/

theorem tile0_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![0, 0] S2048x128.size inb_S8192x128_S2048x128_0_0).toLoadRect
        (M.view.writes (Elt F) f [⟨Rect.unit (s := S8192x128) off S2048x128.size inb, QT⟩])
      = if k.val = 0 then QT
        else M.view.readAt (Elt F) (Rect.unit (s := S8192x128) ![0, 0] S2048x128.size inb_S8192x128_S2048x128_0_0).toLoadRect f := by
  subst hoff
  by_cases hk : k.val = 0
  · rw [if_pos hk]
    exact read_store_same M.view f (2048 * k.val) 0 (by omega) inb _ QT
  · rw [if_neg hk]
    exact read_store_apart M.view f (2048 * k.val) 0 (by omega) inb _ QT

theorem tile1_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![2048, 0] S2048x128.size inb_S8192x128_S2048x128_2048_0).toLoadRect
        (M.view.writes (Elt F) f [⟨Rect.unit (s := S8192x128) off S2048x128.size inb, QT⟩])
      = if k.val = 1 then QT
        else M.view.readAt (Elt F) (Rect.unit (s := S8192x128) ![2048, 0] S2048x128.size inb_S8192x128_S2048x128_2048_0).toLoadRect f := by
  subst hoff
  by_cases hk : k.val = 1
  · rw [if_pos hk]
    exact read_store_same M.view f (2048 * k.val) 2048 (by omega) inb _ QT
  · rw [if_neg hk]
    exact read_store_apart M.view f (2048 * k.val) 2048 (by omega) inb _ QT

theorem tile2_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![4096, 0] S2048x128.size inb_S8192x128_S2048x128_4096_0).toLoadRect
        (M.view.writes (Elt F) f [⟨Rect.unit (s := S8192x128) off S2048x128.size inb, QT⟩])
      = if k.val = 2 then QT
        else M.view.readAt (Elt F) (Rect.unit (s := S8192x128) ![4096, 0] S2048x128.size inb_S8192x128_S2048x128_4096_0).toLoadRect f := by
  subst hoff
  by_cases hk : k.val = 2
  · rw [if_pos hk]
    exact read_store_same M.view f (2048 * k.val) 4096 (by omega) inb _ QT
  · rw [if_neg hk]
    exact read_store_apart M.view f (2048 * k.val) 4096 (by omega) inb _ QT

theorem tile3_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![6144, 0] S2048x128.size inb_S8192x128_S2048x128_6144_0).toLoadRect
        (M.view.writes (Elt F) f [⟨Rect.unit (s := S8192x128) off S2048x128.size inb, QT⟩])
      = if k.val = 3 then QT
        else M.view.readAt (Elt F) (Rect.unit (s := S8192x128) ![6144, 0] S2048x128.size inb_S8192x128_S2048x128_6144_0).toLoadRect f := by
  subst hoff
  by_cases hk : k.val = 3
  · rw [if_pos hk]
    exact read_store_same M.view f (2048 * k.val) 6144 (by omega) inb _ QT
  · rw [if_neg hk]
    exact read_store_apart M.view f (2048 * k.val) 6144 (by omega) inb _ QT

/-! ## Contents with three prescribed tiles -/

/-- Over any contents, three stores through pairwise disjoint rectangles leave contents that read back the three payloads. -/
theorem exists_three {sig' : RefSig} {κ : Kind} {sp : Space} {s : Shape} {e : EltTy} (v : View sig' κ sp s e) (r0 r1 r2 : Rect s)
    (w0 : r0.shape.Idx → Elt F e) (w1 : r1.shape.Idx → Elt F e) (w2 : r2.shape.Idx → Elt F e)
    (d01 : Disjoint r0.set r1.set) (d02 : Disjoint r0.set r2.set) (d12 : Disjoint r1.set r2.set) :
    ∃ f : v.ty.Contents (Elt F), v.readAt (Elt F) r0.toLoadRect f = w0 ∧ v.readAt (Elt F) r1.toLoadRect f = w1
      ∧ v.readAt (Elt F) r2.toLoadRect f = w2 :=
  ⟨v.writes (Elt F) v.junk [⟨r0, w0⟩, ⟨r1, w1⟩, ⟨r2, w2⟩],
    View.readCov_cons_toLoadRect v r0 w0 _,
    (View.readCov_cons_of_disjoint v ⟨r0, w0⟩ _ r1.toLoadRect d01).trans (View.readCov_cons_toLoadRect v r1 w1 _),
    (View.readCov_cons_of_disjoint v ⟨r0, w0⟩ _ r2.toLoadRect d02).trans
      ((View.readCov_cons_of_disjoint v ⟨r1, w1⟩ _ r2.toLoadRect d12).trans (View.readCov_cons_toLoadRect v r2 w2 _))⟩

theorem exists_tiles (M : Memref sig .tc .vmem S8192x128 .bf16) (T0 T1 T2 : Vec F S2048x128 .bf16) :
    ∃ f : M.view.ty.Contents (Elt F),
      M.view.readAt (Elt F) (Rect.unit (s := S8192x128) ![0, 0] S2048x128.size inb_S8192x128_S2048x128_0_0).toLoadRect f = T0
      ∧ M.view.readAt (Elt F) (Rect.unit (s := S8192x128) ![2048, 0] S2048x128.size inb_S8192x128_S2048x128_2048_0).toLoadRect f = T1
      ∧ M.view.readAt (Elt F) (Rect.unit (s := S8192x128) ![4096, 0] S2048x128.size inb_S8192x128_S2048x128_4096_0).toLoadRect f = T2 :=
  exists_three M.view (Rect.unit (s := S8192x128) ![0, 0] S2048x128.size inb_S8192x128_S2048x128_0_0) (Rect.unit (s := S8192x128) ![2048, 0] S2048x128.size inb_S8192x128_S2048x128_2048_0) (Rect.unit (s := S8192x128) ![4096, 0] S2048x128.size inb_S8192x128_S2048x128_4096_0) T0 T1 T2
    (Rect.unit_disjoint (0 : Fin 2) (Or.inl (by show (0 : ℕ) + 2048 ≤ 2048; omega)))
    (Rect.unit_disjoint (0 : Fin 2) (Or.inl (by show (0 : ℕ) + 2048 ≤ 4096; omega)))
    (Rect.unit_disjoint (0 : Fin 2) (Or.inl (by show (2048 : ℕ) + 2048 ≤ 4096; omega)))

end Cert.KernelIdeal.Body

end
-- ==== Proof.KI.FrameDefs.lean ====
/-
  What the running buffers hold after each grid point, what the query cache is known to hold, and what the
  last tile of a batch row leaves in the output block — the proof data of the frame, stated through the
  pieces the three cases' runs found.

  The three running buffers (maximum, sum, accumulator) are wholly overwritten at every point, so their
  contents after a point are the stored pieces read back, a function of the point's input blocks and of
  what the point before left (nothing, at the first tile of a batch row). The query cache is written one
  2048-row tile per point; what is known of it after tile k of a batch row is that its first k + 1 tiles
  are the tiles stored so far. The output block is written at the last tile only.
-/
import proofs.«425081_j79276506350102_3_alg».proof.Proof.KI.RunC
import proofs.«425081_j79276506350102_3_alg».proof.Proof.CacheTiles

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
noncomputable def junkVec {S : Shape} {e : EltTy} : S.Idx → Elt F e :=
  fun _ => Classical.choice ((inferInstance : ∀ e, Nonempty (Elt F e)) e)

/-- The three running buffers' contents: maximum, sum, accumulator. -/
abbrev St (F : FTy → Type) [FloatOps F] : Type := Vec F S1x128 .f32 × Vec F S1x128 .f32 × Vec F S128x32 .f32

/-- The case-A run at point `t`, on the memrefs and input blocks the pipeline passes there. -/
noncomputable abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
/-- The case-B run at point `t` over what the point before left. -/
noncomputable abbrev runB (c : Dev nD) (t : Fin cfg0.N) (h0 : ¬t.val % 4 = 0) (h1 : ¬t.val % 4 = 3) (s : St F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) s.1 s.2.1 s.2.2
/-- The case-C run at point `t` over what the point before left. -/
noncomputable abbrev runC (c : Dev nD) (t : Fin cfg0.N) (h0 : ¬t.val % 4 = 0) (h1 : t.val % 4 = 3) (s : St F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) s.1 s.2.1 s.2.2

/-- Pieces read back over junk, buffer by buffer. -/
noncomputable abbrev rd0 (L : List (View.Piece (Elt F) S1x128 .f32)) : Vec F S1x128 .f32 := VS0_0.read (Elt F) (VS0_0.writes (Elt F) VS0_0.junk L)
noncomputable abbrev rd1 (L : List (View.Piece (Elt F) S1x128 .f32)) : Vec F S1x128 .f32 := VS0_1.read (Elt F) (VS0_1.writes (Elt F) VS0_1.junk L)
noncomputable abbrev rd2 (L : List (View.Piece (Elt F) S128x32 .f32)) : Vec F S128x32 .f32 := VS0_2.read (Elt F) (VS0_2.writes (Elt F) VS0_2.junk L)
noncomputable abbrev rd4 (L : List (View.Piece (Elt F) S1x8192x256 .f32)) : Vec F S1x8192x256 .f32 := VO0_4.read (Elt F) (VO0_4.writes (Elt F) VO0_4.junk L)

/-- What each case leaves in the three running buffers. -/
noncomputable def stepA (c : Dev nD) (t : Fin cfg0.N) (h0 : t.val % 4 = 0) (h1 : ¬t.val % 4 = 3) : St F :=
  (rd0 (runA m c t h0 h1).1, rd1 (runA m c t h0 h1).2.1, rd2 (runA m c t h0 h1).2.2.1)
noncomputable def stepB (c : Dev nD) (t : Fin cfg0.N) (h0 : ¬t.val % 4 = 0) (h1 : ¬t.val % 4 = 3) (s : St F) : St F :=
  (rd0 (runB m c t h0 h1 s).1, rd1 (runB m c t h0 h1 s).2.1, rd2 (runB m c t h0 h1 s).2.2.1)
noncomputable def stepC (c : Dev nD) (t : Fin cfg0.N) (h0 : ¬t.val % 4 = 0) (h1 : t.val % 4 = 3) (s : St F) : St F :=
  (rd0 (runC m c t h0 h1 s).1, rd1 (runC m c t h0 h1 s).2.1, rd2 (runC m c t h0 h1 s).2.2.1)

/-! ## The stored pieces cover their buffers -/

theorem scoverA_0 (c : Dev nD) (t : Fin cfg0.N) (h0 : t.val % 4 = 0) (h1 : ¬t.val % 4 = 3) (y : S1x128.Idx) : ∃ pc ∈ (runA m c t h0 h1).1, y ∈ pc.1.set :=
  View.cover_of_tiledL (runA m c t h0 h1).1 S1x128.size (by sl_kernel_rfl) y
theorem scoverA_1 (c : Dev nD) (t : Fin cfg0.N) (h0 : t.val % 4 = 0) (h1 : ¬t.val % 4 = 3) (y : S1x128.Idx) : ∃ pc ∈ (runA m c t h0 h1).2.1, y ∈ pc.1.set :=
  View.cover_of_tiledL (runA m c t h0 h1).2.1 S1x128.size (by sl_kernel_rfl) y
theorem scoverA_2 (c : Dev nD) (t : Fin cfg0.N) (h0 : t.val % 4 = 0) (h1 : ¬t.val % 4 = 3) (y : S128x32.Idx) : ∃ pc ∈ (runA m c t h0 h1).2.2.1, y ∈ pc.1.set :=
  View.cover_of_wholeMem (runA m c t h0 h1).2.2.1 (by sl_whole_mem) y
theorem scoverB_0 (c : Dev nD) (t : Fin cfg0.N) (h0 : ¬t.val % 4 = 0) (h1 : ¬t.val % 4 = 3) (s : St F) (y : S1x128.Idx) : ∃ pc ∈ (runB m c t h0 h1 s).1, y ∈ pc.1.set :=
  View.cover_of_tiledL (runB m c t h0 h1 s).1 S1x128.size (by sl_kernel_rfl) y
theorem scoverB_1 (c : Dev nD) (t : Fin cfg0.N) (h0 : ¬t.val % 4 = 0) (h1 : ¬t.val % 4 = 3) (s : St F) (y : S1x128.Idx) : ∃ pc ∈ (runB m c t h0 h1 s).2.1, y ∈ pc.1.set :=
  View.cover_of_tiledL (runB m c t h0 h1 s).2.1 S1x128.size (by sl_kernel_rfl) y
theorem scoverB_2 (c : Dev nD) (t : Fin cfg0.N) (h0 : ¬t.val % 4 = 0) (h1 : ¬t.val % 4 = 3) (s : St F) (y : S128x32.Idx) : ∃ pc ∈ (runB m c t h0 h1 s).2.2.1, y ∈ pc.1.set :=
  View.cover_of_tiledL (runB m c t h0 h1 s).2.2.1 S32x32.size (by sl_kernel_rfl) y
theorem scoverC_0 (c : Dev nD) (t : Fin cfg0.N) (h0 : ¬t.val % 4 = 0) (h1 : t.val % 4 = 3) (s : St F) (y : S1x128.Idx) : ∃ pc ∈ (runC m c t h0 h1 s).1, y ∈ pc.1.set :=
  View.cover_of_tiledL (runC m c t h0 h1 s).1 S1x128.size (by sl_kernel_rfl) y
theorem scoverC_1 (c : Dev nD) (t : Fin cfg0.N) (h0 : ¬t.val % 4 = 0) (h1 : t.val % 4 = 3) (s : St F) (y : S1x128.Idx) : ∃ pc ∈ (runC m c t h0 h1 s).2.1, y ∈ pc.1.set :=
  View.cover_of_tiledL (runC m c t h0 h1 s).2.1 S1x128.size (by sl_kernel_rfl) y
theorem scoverC_2 (c : Dev nD) (t : Fin cfg0.N) (h0 : ¬t.val % 4 = 0) (h1 : t.val % 4 = 3) (s : St F) (y : S128x32.Idx) : ∃ pc ∈ (runC m c t h0 h1 s).2.2.1, y ∈ pc.1.set :=
  View.cover_of_tiledL (runC m c t h0 h1 s).2.2.1 S32x32.size (by sl_kernel_rfl) y
/-- The four chunk stores of the last tile cover the output block. -/
theorem coverC_4 (c : Dev nD) (t : Fin cfg0.N) (h0 : ¬t.val % 4 = 0) (h1 : t.val % 4 = 3) (s : St F) (d : Vec F S8192x128 .bf16) (y : S1x8192x256.Idx) :
    ∃ pc ∈ ((runC m c t h0 h1 s).2.2.2 d).1, y ∈ pc.1.set :=
  View.cover_of_tiledL ((runC m c t h0 h1 s).2.2.2 d).1 S1x2048x256.size (by sl_kernel_rfl) y

/-! ## The running buffers after each point -/

/-- What the three running buffers hold after the body at position `n`: the case the point is in, over what the
    point before left (nothing of it at the first tile of a batch row). -/
noncomputable def outsAt0 (c : Dev nD) : (n : ℕ) → n < cfg0.N → St F
  | 0, hn => stepA m c ⟨0, hn⟩ (Nat.zero_mod _) (by simp)
  | n + 1, hn =>
    if h0 : (n + 1) % 4 = 0 then stepA m c ⟨n + 1, hn⟩ h0 (by show ¬(n + 1) % 4 = 3; omega)
    else if h1 : (n + 1) % 4 = 3 then stepC m c ⟨n + 1, hn⟩ h0 h1 (outsAt0 c n (Nat.lt_of_succ_lt hn))
    else stepB m c ⟨n + 1, hn⟩ h0 h1 (outsAt0 c n (Nat.lt_of_succ_lt hn))

/-- What the point before `t` left (used only where `t` is not the first point). -/
noncomputable abbrev prevSt (c : Dev nD) (t : Fin cfg0.N) : St F :=
  outsAt0 m c (t.val - 1) (Nat.lt_of_le_of_lt (Nat.sub_le _ _) t.isLt)

theorem outsAt0_A (c : Dev nD) (t : Fin cfg0.N) (h0 : t.val % 4 = 0) (h1 : ¬t.val % 4 = 3) :
    outsAt0 m c t.val t.isLt = stepA m c t h0 h1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 m c t.val t.isLt = stepB m c t h0 h1 (prevSt m c t) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stepC m c t h0 h1 (prevSt m c t) := by
  obtain ⟨n, hn⟩ := t
  cases n with
  | zero => exact absurd (Nat.zero_mod _) h0
  | succ n => exact (dif_neg h0).trans ((dif_pos h1).trans rfl)

/-! ## The query cache -/

/-- The tile of scaled queries the point `t` stores into the cache (a first or a middle tile). -/
noncomputable def qtileAt (c : Dev nD) (t : Fin cfg0.N) : Vec F S2048x128 .bf16 :=
  if h0 : t.val % 4 = 0 then (runA m c t h0 (by omega)).2.2.2.1
  else if h1 : t.val % 4 = 3 then junkVec
  else (runB m c t h0 h1 (prevSt m c t)).2.2.2.1

/-- The same at a position given as a number (junk past the grid). -/
noncomputable def qtileN (c : Dev nD) (k : ℕ) : Vec F S2048x128 .bf16 :=
  if h : k < cfg0.N then qtileAt m c ⟨k, h⟩ else junkVec

/-- The three tile rectangles of the cache the last tile of a batch row reads back. -/
abbrev rq0 : Rect S8192x128 := Rect.unit (s := S8192x128) ![0, 0] S2048x128.size inb_S8192x128_S2048x128_0_0
abbrev rq1 : Rect S8192x128 := Rect.unit (s := S8192x128) ![2048, 0] S2048x128.size inb_S8192x128_S2048x128_2048_0
abbrev rq2 : Rect S8192x128 := Rect.unit (s := S8192x128) ![4096, 0] S2048x128.size inb_S8192x128_S2048x128_4096_0

/-- What is known of the cache's contents `d` after position `n`: within a batch row, the tiles stored so far
    (those of the row's first `n % 4 + 1` points); after the row's last point, nothing. -/
def QInv (c : Dev nD) (n : ℕ) (d : Vec F S8192x128 .bf16) : Prop :=
  n % 4 ≠ 3 →
    VS0_3.readAt (Elt F) rq0.toLoadRect (hscM0_3.unread d) = qtileN m c (4 * (n / 4))
    ∧ (1 ≤ n % 4 → VS0_3.readAt (Elt F) rq1.toLoadRect (hscM0_3.unread d) = qtileN m c (4 * (n / 4) + 1))
    ∧ (2 ≤ n % 4 → VS0_3.readAt (Elt F) rq2.toLoadRect (hscM0_3.unread d) = qtileN m c (4 * (n / 4) + 2))

/-- The three tiles a last-tile point `t` finds in the cache. -/
def Tiles3 (c : Dev nD) (t : Fin cfg0.N) (d : Vec F S8192x128 .bf16) : Prop :=
  VS0_3.readAt (Elt F) rq0.toLoadRect (hscM0_3.unread d) = qtileN m c (4 * (t.val / 4))
  ∧ VS0_3.readAt (Elt F) rq1.toLoadRect (hscM0_3.unread d) = qtileN m c (4 * (t.val / 4) + 1)
  ∧ VS0_3.readAt (Elt F) rq2.toLoadRect (hscM0_3.unread d) = qtileN m c (4 * (t.val / 4) + 2)

theorem exists_tiles3 (c : Dev nD) (t : Fin cfg0.N) : ∃ d : Vec F S8192x128 .bf16, Tiles3 m c t d := by
  obtain ⟨f, h0, h1, h2⟩ := exists_tiles (F := F) scM0_3 (qtileN m c (4 * (t.val / 4))) (qtileN m c (4 * (t.val / 4) + 1)) (qtileN m c (4 * (t.val / 4) + 2))
  refine ⟨VS0_3.read (Elt F) f, ?_⟩
  have e : hscM0_3.unread (VS0_3.read (Elt F) f) = f := (hscM0_3.eq_unread rfl).symm
  unfold Tiles3
  rw [e]
  exact ⟨h0, h1, h2⟩

/-- Some cache contents with those three tiles: the reference contents the output block is stated over. -/
noncomputable def qsel (c : Dev nD) (t : Fin cfg0.N) : Vec F S8192x128 .bf16 := Classical.choose (exists_tiles3 m c t)
theorem qsel_spec (c : Dev nD) (t : Fin cfg0.N) : Tiles3 m c t (qsel m c t) := Classical.choose_spec (exists_tiles3 m c t)

/-! ## The output block -/

/-- What the last tile of a batch row leaves in the output block when the cache held `d`. -/
noncomputable def out4 (c : Dev nD) (t : Fin cfg0.N) (h0 : ¬t.val % 4 = 0) (h1 : t.val % 4 = 3) (d : Vec F S8192x128 .bf16) : Vec F S1x8192x256 .f32 :=
  rd4 ((runC m c t h0 h1 (prevSt m c t)).2.2.2 d).1

/-- The output block after point `t` (named at the last tile of a batch row only; elsewhere the window is idle). -/
noncomputable def outAt (c : Dev nD) (t : Fin cfg0.N) : Vec F S1x8192x256 .f32 :=
  if h1 : t.val % 4 = 3 then out4 m c t (by omega) h1 (qsel m c t) else junkVec

end Cert.KernelIdeal.Body

end
-- ==== Proof.KI.StateValue.Rows.lean ====
/-
  Stores and loads of a [128, 32] array 32 rows at a time, over the canonical contents a list of stores
  leaves: under the last store its payload, off it the earlier stores; a load of rows that only a store of
  the whole array has touched reads those rows of what that store wrote.
-/
import proofs.«425081_j79276506350102_3_alg».proof.Proof.KI.Shared
import proofs.«425081_j79276506350102_3_alg».proof.Proof.AttnSpec
import Idealize.ShloMosaic.Lib.Tactic
import Idealize.ShloMosaic.Lib.ValueIdx
import Idealize.ShloMosaic.Lib.Pipeline.Value
import Idealize.ShloMosaic.Lib.Pipeline.FrameBody

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.LinAttn (hch)

/-! ## Rows of a [128, 32] array stored and loaded 32 at a time -/

theorem hz2 : (![0, 0] : Fin 2 → ℕ) = fun _ => 0 := by funext a; fin_cases a <;> rfl
theorem hz3 : (![0, 0, 0] : Fin 3 → ℕ) = fun _ => 0 := by funext a; fin_cases a <;> rfl

/-- Through a whole memref, what was laid down to read `X` reads `X`. -/
theorem read_unread_whole {sig' : RefSig} {κ : Kind} {Val : EltTy → Type} (b : Ref sig' κ) (h : (Memref.whole b).IsWhole) (X : _) :
    View.read Val (View.whole b) (h.unread X) = X := h.read_unread X

section Rows

variable {Val : EltTy → Type} [∀ e, Nonempty (Val e)] {e : EltTy}

/-- The index of the rectangle of rows `o ..` at `(r, e')` is `(o + r, e')`. -/
theorem idx_rows (o : ℕ) (inb : ∀ a, (![o, 0] : Fin 2 → ℕ) a + S32x32.size a ≤ S128x32.size a) (R : Fin 128) (r e' : Fin 32)
    (hR : R.val = o + r.val) :
    (Rect.unit (s := S128x32) ![o, 0] S32x32.size inb).idx (ix2 r e') = ix2 R e' := by
  funext a; apply Fin.ext
  match a with
  | ⟨0, _⟩ => show o + 1 * r.val = R.val; omega
  | ⟨1, _⟩ => show 0 + 1 * e'.val = e'.val; omega

/-- Under a last store of rows `o ..`, the contents at `(o + r, e')` are its payload at `(r, e')`. -/
theorem canon_rows_here (o : ℕ) (inb : ∀ a, (![o, 0] : Fin 2 → ℕ) a + S32x32.size a ≤ S128x32.size a)
    (w : S32x32.Idx → Val e) (L : List (View.Piece Val S128x32 e)) (R : Fin 128) (r e' : Fin 32) (hR : R.val = o + r.val) :
    View.canon ((⟨Rect.unit (s := S128x32) ![o, 0] S32x32.size inb, w⟩ : View.Piece Val S128x32 e) :: L) (ix2 R e') = w (ix2 r e') := by
  rw [← idx_rows o inb R r e' hR]
  exact View.canon_cons_emb (Rect.unit (s := S128x32) ![o, 0] S32x32.size inb) w L (ix2 r e')

/-- Off the rows `o ..` of the last store, the contents are those of the earlier stores. -/
theorem canon_rows_skip (o : ℕ) (inb : ∀ a, (![o, 0] : Fin 2 → ℕ) a + S32x32.size a ≤ S128x32.size a)
    (w : S32x32.Idx → Val e) (L : List (View.Piece Val S128x32 e)) (y : S128x32.Idx) (hy : (y 0).val < o ∨ o + 32 ≤ (y 0).val) :
    View.canon ((⟨Rect.unit (s := S128x32) ![o, 0] S32x32.size inb, w⟩ : View.Piece Val S128x32 e) :: L) y = View.canon L y := by
  refine View.canon_cons_of_not_mem _ L fun hm => ?_
  have h := (Rect.mem_set_unit (s := S128x32) (off := ![o, 0]) (size := S32x32.size) (inb := inb)).mp hm 0
  have h' : o ≤ (y 0).val ∧ (y 0).val < o + 32 := h
  omega

end Rows

section RowsLoaded

variable {Val : EltTy → Type} [∀ e, Nonempty (Val e)] {e : EltTy} {sig' : RefSig} {κ : Kind} {sp : Space}

/-- A load of rows `o ..` after a store of the whole array reads those rows of what was stored, -/
theorem readCov_rows_w0 (v : View sig' κ sp S128x32 e)
    (iW : ∀ a, (![0, 0] : Fin 2 → ℕ) a + S128x32.size a ≤ S128x32.size a) (w : S128x32.Idx → Val e)
    (o : ℕ) (inb : ∀ a, (![o, 0] : Fin 2 → ℕ) a + S32x32.size a ≤ S128x32.size a) :
    v.readCov [(⟨Rect.unit (s := S128x32) ![0, 0] S128x32.size iW, w⟩ : View.Piece Val S128x32 e)]
        (Rect.unit (s := S128x32) ![o, 0] S32x32.size inb).toLoadRect
      = View.ld w (Rect.unit (s := S128x32) ![o, 0] S32x32.size inb) := by
  rw [View.readCov_eq_canon', View.canon_unit_zero hz2]

/-- and also when rows above them were stored since: one such store, -/
theorem readCov_rows_w1 (v : View sig' κ sp S128x32 e)
    (o1 : ℕ) (i1 : ∀ a, (![o1, 0] : Fin 2 → ℕ) a + S32x32.size a ≤ S128x32.size a) (w1 : S32x32.Idx → Val e)
    (iW : ∀ a, (![0, 0] : Fin 2 → ℕ) a + S128x32.size a ≤ S128x32.size a) (w : S128x32.Idx → Val e)
    (o : ℕ) (inb : ∀ a, (![o, 0] : Fin 2 → ℕ) a + S32x32.size a ≤ S128x32.size a) (h1 : o1 + 32 ≤ o) :
    v.readCov [(⟨Rect.unit (s := S128x32) ![o1, 0] S32x32.size i1, w1⟩ : View.Piece Val S128x32 e),
          ⟨Rect.unit (s := S128x32) ![0, 0] S128x32.size iW, w⟩]
        (Rect.unit (s := S128x32) ![o, 0] S32x32.size inb).toLoadRect
      = View.ld w (Rect.unit (s := S128x32) ![o, 0] S32x32.size inb) := by
  rw [View.readCov_eq_canon']
  funext x
  have hx : o ≤ (((Rect.unit (s := S128x32) ![o, 0] S32x32.size inb).idx x) 0).val := by
    show o ≤ o + 1 * (x 0).val; omega
  exact (canon_rows_skip o1 i1 w1 _ _ (Or.inr (by omega))).trans
    (congrFun (View.canon_unit_zero hz2 iW w) _)

/-- two, -/
theorem readCov_rows_w2 (v : View sig' κ sp S128x32 e)
    (o2 : ℕ) (i2 : ∀ a, (![o2, 0] : Fin 2 → ℕ) a + S32x32.size a ≤ S128x32.size a) (w2 : S32x32.Idx → Val e)
    (o1 : ℕ) (i1 : ∀ a, (![o1, 0] : Fin 2 → ℕ) a + S32x32.size a ≤ S128x32.size a) (w1 : S32x32.Idx → Val e)
    (iW : ∀ a, (![0, 0] : Fin 2 → ℕ) a + S128x32.size a ≤ S128x32.size a) (w : S128x32.Idx → Val e)
    (o : ℕ) (inb : ∀ a, (![o, 0] : Fin 2 → ℕ) a + S32x32.size a ≤ S128x32.size a) (h2 : o2 + 32 ≤ o) (h1 : o1 + 32 ≤ o) :
    v.readCov [(⟨Rect.unit (s := S128x32) ![o2, 0] S32x32.size i2, w2⟩ : View.Piece Val S128x32 e),
          ⟨Rect.unit (s := S128x32) ![o1, 0] S32x32.size i1, w1⟩,
          ⟨Rect.unit (s := S128x32) ![0, 0] S128x32.size iW, w⟩]
        (Rect.unit (s := S128x32) ![o, 0] S32x32.size inb).toLoadRect
      = View.ld w (Rect.unit (s := S128x32) ![o, 0] S32x32.size inb) := by
  rw [View.readCov_eq_canon']
  funext x
  have hx : o ≤ (((Rect.unit (s := S128x32) ![o, 0] S32x32.size inb).idx x) 0).val := by
    show o ≤ o + 1 * (x 0).val; omega
  exact (canon_rows_skip o2 i2 w2 _ _ (Or.inr (by omega))).trans
    ((canon_rows_skip o1 i1 w1 _ _ (Or.inr (by omega))).trans
      (congrFun (View.canon_unit_zero hz2 iW w) _))

/-- or three. -/
theorem readCov_rows_w3 (v : View sig' κ sp S128x32 e)
    (o3 : ℕ) (i3 : ∀ a, (![o3, 0] : Fin 2 → ℕ) a + S32x32.size a ≤ S128x32.size a) (w3 : S32x32.Idx → Val e)
    (o2 : ℕ) (i2 : ∀ a, (![o2, 0] : Fin 2 → ℕ) a + S32x32.size a ≤ S128x32.size a) (w2 : S32x32.Idx → Val e)
    (o1 : ℕ) (i1 : ∀ a, (![o1, 0] : Fin 2 → ℕ) a + S32x32.size a ≤ S128x32.size a) (w1 : S32x32.Idx → Val e)
    (iW : ∀ a, (![0, 0] : Fin 2 → ℕ) a + S128x32.size a ≤ S128x32.size a) (w : S128x32.Idx → Val e)
    (o : ℕ) (inb : ∀ a, (![o, 0] : Fin 2 → ℕ) a + S32x32.size a ≤ S128x32.size a)
    (h3 : o3 + 32 ≤ o) (h2 : o2 + 32 ≤ o) (h1 : o1 + 32 ≤ o) :
    v.readCov [(⟨Rect.unit (s := S128x32) ![o3, 0] S32x32.size i3, w3⟩ : View.Piece Val S128x32 e),
          ⟨Rect.unit (s := S128x32) ![o2, 0] S32x32.size i2, w2⟩,
          ⟨Rect.unit (s := S128x32) ![o1, 0] S32x32.size i1, w1⟩,
          ⟨Rect.unit (s := S128x32) ![0, 0] S128x32.size iW, w⟩]
        (Rect.unit (s := S128x32) ![o, 0] S32x32.size inb).toLoadRect
      = View.ld w (Rect.unit (s := S128x32) ![o, 0] S32x32.size inb) := by
  rw [View.readCov_eq_canon']
  funext x
  have hx : o ≤ (((Rect.unit (s := S128x32) ![o, 0] S32x32.size inb).idx x) 0).val := by
    show o ≤ o + 1 * (x 0).val; omega
  exact (canon_rows_skip o3 i3 w3 _ _ (Or.inr (by omega))).trans
    ((canon_rows_skip o2 i2 w2 _ _ (Or.inr (by omega))).trans
      ((canon_rows_skip o1 i1 w1 _ _ (Or.inr (by omega))).trans
        (congrFun (View.canon_unit_zero hz2 iW w) _)))

end RowsLoaded

end Cert.KernelIdeal.Body

end
-- ==== Proof.KI.StateValue.StepA.lean ====
/-
  What the body at the first tile of a batch row (after the reset) leaves in the three running buffers, as the payloads of the kernel's stores applied to the
  point's input blocks and to what it found in the buffers: the stored pieces read back, the loads of the
  whole buffers replaced by their contents.
-/
import proofs.«425081_j79276506350102_3_alg».proof.Proof.KI.FrameDefs
import proofs.«425081_j79276506350102_3_alg».proof.Proof.KI.StateValue.Rows
import proofs.«425081_j79276506350102_3_alg».proof.Proof.AttnSpec
import Idealize.ShloMosaic.Lib.Tactic
import Idealize.ShloMosaic.Lib.ValueIdx
import Idealize.ShloMosaic.Lib.Pipeline.Value
import Idealize.ShloMosaic.Lib.Pipeline.FrameBody

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.LinAttn (hch)

variable {F : FTy → Type} [FloatOps F]

variable (m : (ℓ : Loc nD τ sig) → Buf (Elt F) ℓ)

/-! ## Case A -/

theorem stepA_0 (c : Dev nD) (t : Fin cfg0.N) (h0 : t.val % 4 = 0) (h1 : ¬t.val % 4 = 3) :
    (stepA m c t h0 h1).1 = k0_pay1 (k0_pay16 (iblk m c 0 t) (iblk m c 1 t) k0_pay10) := by
  unfold stepA rd0
  show VS0_0.read (Elt F) (VS0_0.writes (Elt F) VS0_0.junk (runA m c t h0 h1).1) = _
  rw [View.read_writes_eq_canon _ _ _ (scoverA_0 m c t h0 h1)]
  unfold runA kernelRun0_A
  dsimp only
  sl_unfold_words
  rw [View.canon_cons_unit_zero hz2]
  simp only [View.readAt_eq_ld, Memref.IsWhole.read_unread, read_unread_whole, View.ld_unit_zero (S := S1x2048x256) hz3,
    View.ld_unit_zero (S := S256x384) hz2, View.ld_unit_zero (S := S1x128) hz2, View.readCov_unit_zero (S := S1x128) _ hz2]

theorem stepA_1 (c : Dev nD) (t : Fin cfg0.N) (h0 : t.val % 4 = 0) (h1 : ¬t.val % 4 = 3) :
    (stepA m c t h0 h1).2.1 = k0_pay2 (k0_pay19 (iblk m c 0 t) (iblk m c 1 t) k0_pay10 k0_pay11) := by
  unfold stepA rd1
  show VS0_1.read (Elt F) (VS0_1.writes (Elt F) VS0_1.junk (runA m c t h0 h1).2.1) = _
  rw [View.read_writes_eq_canon _ _ _ (scoverA_1 m c t h0 h1)]
  unfold runA kernelRun0_A
  dsimp only
  sl_unfold_words
  rw [View.canon_cons_unit_zero hz2]
  simp only [View.readAt_eq_ld, Memref.IsWhole.read_unread, read_unread_whole, View.ld_unit_zero (S := S1x2048x256) hz3,
    View.ld_unit_zero (S := S256x384) hz2, View.ld_unit_zero (S := S1x128) hz2, View.readCov_unit_zero (S := S1x128) _ hz2]

theorem stepA_2_0 (c : Dev nD) (t : Fin cfg0.N) (h0 : t.val % 4 = 0) (h1 : ¬t.val % 4 = 3) (r e : Fin 32) :
    (stepA m c t h0 h1).2.2 (ix2 (hch 0 r) e)
      = k0_pay22 (k0_pay17 (iblk m c 0 t) (iblk m c 1 t) k0_pay10) (k0_pay20 (iblk m c 0 t) (iblk m c 1 t) k0_pay10)
          (View.ld k0_pay12 (Rect.unit (s := S128x32) ![0, 0] S32x32.size inb_S128x32_S32x32_0_0)) (ix2 r e) := by
  unfold stepA rd2
  show VS0_2.read (Elt F) (VS0_2.writes (Elt F) VS0_2.junk (runA m c t h0 h1).2.2.1) _ = _
  rw [View.read_writes_eq_canon _ _ _ (scoverA_2 m c t h0 h1)]
  unfold runA kernelRun0_A
  dsimp only
  sl_unfold_words
  refine (canon_rows_skip 96 _ _ _ _ (Or.inl (by show (hch 0 r).val < 96; have hr : (hch 0 r).val = 0 + r.val := rfl; omega))).trans ?_
  refine (canon_rows_skip 64 _ _ _ _ (Or.inl (by show (hch 0 r).val < 64; have hr : (hch 0 r).val = 0 + r.val := rfl; omega))).trans ?_
  refine (canon_rows_skip 32 _ _ _ _ (Or.inl (by show (hch 0 r).val < 32; have hr : (hch 0 r).val = 0 + r.val := rfl; omega))).trans ?_
  refine (canon_rows_here 0 _ _ _ (hch 0 r) r e rfl).trans ?_
  rw [readCov_rows_w0]
  simp only [View.readAt_eq_ld, Memref.IsWhole.read_unread, read_unread_whole, View.ld_unit_zero (S := S1x2048x256) hz3,
    View.ld_unit_zero (S := S256x384) hz2, View.ld_unit_zero (S := S1x128) hz2, View.readCov_unit_zero (S := S1x128) _ hz2]

theorem stepA_2_1 (c : Dev nD) (t : Fin cfg0.N) (h0 : t.val % 4 = 0) (h1 : ¬t.val % 4 = 3) (r e : Fin 32) :
    (stepA m c t h0 h1).2.2 (ix2 (hch 1 r) e)
      = k0_pay23 (k0_pay17 (iblk m c 0 t) (iblk m c 1 t) k0_pay10) (k0_pay20 (iblk m c 0 t) (iblk m c 1 t) k0_pay10)
          (View.ld k0_pay12 (Rect.unit (s := S128x32) ![32, 0] S32x32.size inb_S128x32_S32x32_32_0)) (ix2 r e) := by
  unfold stepA rd2
  show VS0_2.read (Elt F) (VS0_2.writes (Elt F) VS0_2.junk (runA m c t h0 h1).2.2.1) _ = _
  rw [View.read_writes_eq_canon _ _ _ (scoverA_2 m c t h0 h1)]
  unfold runA kernelRun0_A
  dsimp only
  sl_unfold_words
  refine (canon_rows_skip 96 _ _ _ _ (Or.inl (by show (hch 1 r).val < 96; have hr : (hch 1 r).val = 32 + r.val := rfl; omega))).trans ?_
  refine (canon_rows_skip 64 _ _ _ _ (Or.inl (by show (hch 1 r).val < 64; have hr : (hch 1 r).val = 32 + r.val := rfl; omega))).trans ?_
  refine (canon_rows_here 32 _ _ _ (hch 1 r) r e rfl).trans ?_
  rw [readCov_rows_w1 _ 0 _ _ _ _ 32 _ (by norm_num)]
  simp only [View.readAt_eq_ld, Memref.IsWhole.read_unread, read_unread_whole, View.ld_unit_zero (S := S1x2048x256) hz3,
    View.ld_unit_zero (S := S256x384) hz2, View.ld_unit_zero (S := S1x128) hz2, View.readCov_unit_zero (S := S1x128) _ hz2]

theorem stepA_2_2 (c : Dev nD) (t : Fin cfg0.N) (h0 : t.val % 4 = 0) (h1 : ¬t.val % 4 = 3) (r e : Fin 32) :
    (stepA m c t h0 h1).2.2 (ix2 (hch 2 r) e)
      = k0_pay24 (k0_pay17 (iblk m c 0 t) (iblk m c 1 t) k0_pay10) (k0_pay20 (iblk m c 0 t) (iblk m c 1 t) k0_pay10)
          (View.ld k0_pay12 (Rect.unit (s := S128x32) ![64, 0] S32x32.size inb_S128x32_S32x32_64_0)) (ix2 r e) := by
  unfold stepA rd2
  show VS0_2.read (Elt F) (VS0_2.writes (Elt F) VS0_2.junk (runA m c t h0 h1).2.2.1) _ = _
  rw [View.read_writes_eq_canon _ _ _ (scoverA_2 m c t h0 h1)]
  unfold runA kernelRun0_A
  dsimp only
  sl_unfold_words
  refine (canon_rows_skip 96 _ _ _ _ (Or.inl (by show (hch 2 r).val < 96; have hr : (hch 2 r).val = 64 + r.val := rfl; omega))).trans ?_
  refine (canon_rows_here 64 _ _ _ (hch 2 r) r e rfl).trans ?_
  rw [readCov_rows_w2 _ 32 _ _ 0 _ _ _ _ 64 _ (by norm_num) (by norm_num)]
  simp only [View.readAt_eq_ld, Memref.IsWhole.read_unread, read_unread_whole, View.ld_unit_zero (S := S1x2048x256) hz3,
    View.ld_unit_zero (S := S256x384) hz2, View.ld_unit_zero (S := S1x128) hz2, View.readCov_unit_zero (S := S1x128) _ hz2]

theorem stepA_2_3 (c : Dev nD) (t : Fin cfg0.N) (h0 : t.val % 4 = 0) (h1 : ¬t.val % 4 = 3) (r e : Fin 32) :
    (stepA m c t h0 h1).2.2 (ix2 (hch 3 r) e)
      = k0_pay25 (k0_pay17 (iblk m c 0 t) (iblk m c 1 t) k0_pay10) (k0_pay20 (iblk m c 0 t) (iblk m c 1 t) k0_pay10)
          (View.ld k0_pay12 (Rect.unit (s := S128x32) ![96, 0] S32x32.size inb_S128x32_S32x32_96_0)) (ix2 r e) := by
  unfold stepA rd2
  show VS0_2.read (Elt F) (VS0_2.writes (Elt F) VS0_2.junk (runA m c t h0 h1).2.2.1) _ = _
  rw [View.read_writes_eq_canon _ _ _ (scoverA_2 m c t h0 h1)]
  unfold runA kernelRun0_A
  dsimp only
  sl_unfold_words
  refine (canon_rows_here 96 _ _ _ (hch 3 r) r e rfl).trans ?_
  rw [readCov_rows_w3 _ 64 _ _ 32 _ _ 0 _ _ _ _ 96 _ (by norm_num) (by norm_num) (by norm_num)]
  simp only [View.readAt_eq_ld, Memref.IsWhole.read_unread, read_unread_whole, View.ld_unit_zero (S := S1x2048x256) hz3,
    View.ld_unit_zero (S := S256x384) hz2, View.ld_unit_zero (S := S1x128) hz2, View.readCov_unit_zero (S := S1x128) _ hz2]

end Cert.KernelIdeal.Body

end
-- ==== Proof.KI.StateValue.StepB.lean ====
/-
  What the body at a middle tile of a batch row leaves in the three running buffers, as the payloads of the kernel's stores applied to the
  point's input blocks and to what it found in the buffers: the stored pieces read back, the loads of the
  whole buffers replaced by their contents.
-/
import proofs.«425081_j79276506350102_3_alg».proof.Proof.KI.FrameDefs
import proofs.«425081_j79276506350102_3_alg».proof.Proof.KI.StateValue.Rows
import proofs.«425081_j79276506350102_3_alg».proof.Proof.AttnSpec
import Idealize.ShloMosaic.Lib.Tactic
import Idealize.ShloMosaic.Lib.ValueIdx
import Idealize.ShloMosaic.Lib.Pipeline.Value
import Idealize.ShloMosaic.Lib.Pipeline.FrameBody

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.LinAttn (hch)

variable {F : FTy → Type} [FloatOps F]

variable (m : (ℓ : Loc nD τ sig) → Buf (Elt F) ℓ)

/-! ## Case B -/

theorem stepB_0 (c : Dev nD) (t : Fin cfg0.N) (h0 : ¬t.val % 4 = 0) (h1 : ¬t.val % 4 = 3) (s : St F) :
    (stepB m c t h0 h1 s).1 = k0_pay1 (k0_pay16 (iblk m c 0 t) (iblk m c 1 t) s.1) := by
  unfold stepB rd0
  show VS0_0.read (Elt F) (VS0_0.writes (Elt F) VS0_0.junk (runB m c t h0 h1 s).1) = _
  rw [View.read_writes_eq_canon _ _ _ (scoverB_0 m c t h0 h1 s)]
  unfold runB kernelRun0_B
  dsimp only
  sl_unfold_words
  rw [View.canon_unit_zero hz2]
  simp only [View.readAt_eq_ld, Memref.IsWhole.read_unread, read_unread_whole, View.ld_unit_zero (S := S1x2048x256) hz3,
    View.ld_unit_zero (S := S256x384) hz2, View.ld_unit_zero (S := S1x128) hz2]

theorem stepB_1 (c : Dev nD) (t : Fin cfg0.N) (h0 : ¬t.val % 4 = 0) (h1 : ¬t.val % 4 = 3) (s : St F) :
    (stepB m c t h0 h1 s).2.1 = k0_pay2 (k0_pay19 (iblk m c 0 t) (iblk m c 1 t) s.1 s.2.1) := by
  unfold stepB rd1
  show VS0_1.read (Elt F) (VS0_1.writes (Elt F) VS0_1.junk (runB m c t h0 h1 s).2.1) = _
  rw [View.read_writes_eq_canon _ _ _ (scoverB_1 m c t h0 h1 s)]
  unfold runB kernelRun0_B
  dsimp only
  sl_unfold_words
  rw [View.canon_unit_zero hz2]
  simp only [View.readAt_eq_ld, Memref.IsWhole.read_unread, read_unread_whole, View.ld_unit_zero (S := S1x2048x256) hz3,
    View.ld_unit_zero (S := S256x384) hz2, View.ld_unit_zero (S := S1x128) hz2]

theorem stepB_2_0 (c : Dev nD) (t : Fin cfg0.N) (h0 : ¬t.val % 4 = 0) (h1 : ¬t.val % 4 = 3) (s : St F) (r e : Fin 32) :
    (stepB m c t h0 h1 s).2.2 (ix2 (hch 0 r) e)
      = k0_pay22 (k0_pay17 (iblk m c 0 t) (iblk m c 1 t) s.1) (k0_pay20 (iblk m c 0 t) (iblk m c 1 t) s.1)
          (View.ld s.2.2 (Rect.unit (s := S128x32) ![0, 0] S32x32.size inb_S128x32_S32x32_0_0)) (ix2 r e) := by
  unfold stepB rd2
  show VS0_2.read (Elt F) (VS0_2.writes (Elt F) VS0_2.junk (runB m c t h0 h1 s).2.2.1) _ = _
  rw [View.read_writes_eq_canon _ _ _ (scoverB_2 m c t h0 h1 s)]
  unfold runB kernelRun0_B
  dsimp only
  sl_unfold_words
  refine (canon_rows_skip 96 _ _ _ _ (Or.inl (by show (hch 0 r).val < 96; have hr : (hch 0 r).val = 0 + r.val := rfl; omega))).trans ?_
  refine (canon_rows_skip 64 _ _ _ _ (Or.inl (by show (hch 0 r).val < 64; have hr : (hch 0 r).val = 0 + r.val := rfl; omega))).trans ?_
  refine (canon_rows_skip 32 _ _ _ _ (Or.inl (by show (hch 0 r).val < 32; have hr : (hch 0 r).val = 0 + r.val := rfl; omega))).trans ?_
  refine (canon_rows_here 0 _ _ _ (hch 0 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

theorem stepB_2_1 (c : Dev nD) (t : Fin cfg0.N) (h0 : ¬t.val % 4 = 0) (h1 : ¬t.val % 4 = 3) (s : St F) (r e : Fin 32) :
    (stepB m c t h0 h1 s).2.2 (ix2 (hch 1 r) e)
      = k0_pay23 (k0_pay17 (iblk m c 0 t) (iblk m c 1 t) s.1) (k0_pay20 (iblk m c 0 t) (iblk m c 1 t) s.1)
          (View.ld s.2.2 (Rect.unit (s := S128x32) ![32, 0] S32x32.size inb_S128x32_S32x32_32_0)) (ix2 r e) := by
  unfold stepB rd2
  show VS0_2.read (Elt F) (VS0_2.writes (Elt F) VS0_2.junk (runB m c t h0 h1 s).2.2.1) _ = _
  rw [View.read_writes_eq_canon _ _ _ (scoverB_2 m c t h0 h1 s)]
  unfold runB kernelRun0_B
  dsimp only
  sl_unfold_words
  refine (canon_rows_skip 96 _ _ _ _ (Or.inl (by show (hch 1 r).val < 96; have hr : (hch 1 r).val = 32 + r.val := rfl; omega))).trans ?_
  refine (canon_rows_skip 64 _ _ _ _ (Or.inl (by show (hch 1 r).val < 64; have hr : (hch 1 r).val = 32 + r.val := rfl; omega))).trans ?_
  refine (canon_rows_here 32 _ _ _ (hch 1 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

theorem stepB_2_2 (c : Dev nD) (t : Fin cfg0.N) (h0 : ¬t.val % 4 = 0) (h1 : ¬t.val % 4 = 3) (s : St F) (r e : Fin 32) :
    (stepB m c t h0 h1 s).2.2 (ix2 (hch 2 r) e)
      = k0_pay24 (k0_pay17 (iblk m c 0 t) (iblk m c 1 t) s.1) (k0_pay20 (iblk m c 0 t) (iblk m c 1 t) s.1)
          (View.ld s.2.2 (Rect.unit (s := S128x32) ![64, 0] S32x32.size inb_S128x32_S32x32_64_0)) (ix2 r e) := by
  unfold stepB rd2
  show VS0_2.read (Elt F) (VS0_2.writes (Elt F) VS0_2.junk (runB m c t h0 h1 s).2.2.1) _ = _
  rw [View.read_writes_eq_canon _ _ _ (scoverB_2 m c t h0 h1 s)]
  unfold runB kernelRun0_B
  dsimp only
  sl_unfold_words
  refine (canon_rows_skip 96 _ _ _ _ (Or.inl (by show (hch 2 r).val < 96; have hr : (hch 2 r).val = 64 + r.val := rfl; omega))).trans ?_
  refine (canon_rows_here 64 _ _ _ (hch 2 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

theorem stepB_2_3 (c : Dev nD) (t : Fin cfg0.N) (h0 : ¬t.val % 4 = 0) (h1 : ¬t.val % 4 = 3) (s : St F) (r e : Fin 32) :
    (stepB m c t h0 h1 s).2.2 (ix2 (hch 3 r) e)
      = k0_pay25 (k0_pay17 (iblk m c 0 t) (iblk m c 1 t) s.1) (k0_pay20 (iblk m c 0 t) (iblk m c 1 t) s.1)
          (View.ld s.2.2 (Rect.unit (s := S128x32) ![96, 0] S32x32.size inb_S128x32_S32x32_96_0)) (ix2 r e) := by
  unfold stepB rd2
  show VS0_2.read (Elt F) (VS0_2.writes (Elt F) VS0_2.junk (runB m c t h0 h1 s).2.2.1) _ = _
  rw [View.read_writes_eq_canon _ _ _ (scoverB_2 m c t h0 h1 s)]
  unfold runB kernelRun0_B
  dsimp only
  sl_unfold_words
  refine (canon_rows_here 96 _ _ _ (hch 3 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

end Cert.KernelIdeal.Body

end
-- ==== Proof.KI.StateValue.StepC.lean ====
/-
  What the body at the last tile of a batch row leaves in the three running buffers, as the payloads of the kernel's stores applied to the
  point's input blocks and to what it found in the buffers: the stored pieces read back, the loads of the
  whole buffers replaced by their contents.
-/
import proofs.«425081_j79276506350102_3_alg».proof.Proof.KI.FrameDefs
import proofs.«425081_j79276506350102_3_alg».proof.Proof.KI.StateValue.Rows
import proofs.«425081_j79276506350102_3_alg».proof.Proof.AttnSpec
import Idealize.ShloMosaic.Lib.Tactic
import Idealize.ShloMosaic.Lib.ValueIdx
import Idealize.ShloMosaic.Lib.Pipeline.Value
import Idealize.ShloMosaic.Lib.Pipeline.FrameBody

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.LinAttn (hch)

variable {F : FTy → Type} [FloatOps F]

variable (m : (ℓ : Loc nD τ sig) → Buf (Elt F) ℓ)

/-! ## Case C -/

theorem stepC_0 (c : Dev nD) (t : Fin cfg0.N) (h0 : ¬t.val % 4 = 0) (h1 : t.val % 4 = 3) (s : St F) :
    (stepC m c t h0 h1 s).1 = k0_pay1 (k0_pay16 (iblk m c 0 t) (iblk m c 1 t) s.1) := by
  unfold stepC rd0
  show VS0_0.read (Elt F) (VS0_0.writes (Elt F) VS0_0.junk (runC m c t h0 h1 s).1) = _
  rw [View.read_writes_eq_canon _ _ _ (scoverC_0 m c t h0 h1 s)]
  unfold runC kernelRun0_C
  dsimp only
  sl_unfold_words
  rw [View.canon_unit_zero hz2]
  simp only [View.readAt_eq_ld, Memref.IsWhole.read_unread, read_unread_whole, View.ld_unit_zero (S := S1x2048x256) hz3,
    View.ld_unit_zero (S := S256x384) hz2, View.ld_unit_zero (S := S1x128) hz2]

theorem stepC_1 (c : Dev nD) (t : Fin cfg0.N) (h0 : ¬t.val % 4 = 0) (h1 : t.val % 4 = 3) (s : St F) :
    (stepC m c t h0 h1 s).2.1 = k0_pay2 (k0_pay19 (iblk m c 0 t) (iblk m c 1 t) s.1 s.2.1) := by
  unfold stepC rd1
  show VS0_1.read (Elt F) (VS0_1.writes (Elt F) VS0_1.junk (runC m c t h0 h1 s).2.1) = _
  rw [View.read_writes_eq_canon _ _ _ (scoverC_1 m c t h0 h1 s)]
  unfold runC kernelRun0_C
  dsimp only
  sl_unfold_words
  rw [View.canon_unit_zero hz2]
  simp only [View.readAt_eq_ld, Memref.IsWhole.read_unread, read_unread_whole, View.ld_unit_zero (S := S1x2048x256) hz3,
    View.ld_unit_zero (S := S256x384) hz2, View.ld_unit_zero (S := S1x128) hz2]

theorem stepC_2_0 (c : Dev nD) (t : Fin cfg0.N) (h0 : ¬t.val % 4 = 0) (h1 : t.val % 4 = 3) (s : St F) (r e : Fin 32) :
    (stepC m c t h0 h1 s).2.2 (ix2 (hch 0 r) e)
      = k0_pay22 (k0_pay17 (iblk m c 0 t) (iblk m c 1 t) s.1) (k0_pay20 (iblk m c 0 t) (iblk m c 1 t) s.1)
          (View.ld s.2.2 (Rect.unit (s := S128x32) ![0, 0] S32x32.size inb_S128x32_S32x32_0_0)) (ix2 r e) := by
  unfold stepC rd2
  show VS0_2.read (Elt F) (VS0_2.writes (Elt F) VS0_2.junk (runC m c t h0 h1 s).2.2.1) _ = _
  rw [View.read_writes_eq_canon _ _ _ (scoverC_2 m c t h0 h1 s)]
  unfold runC kernelRun0_C
  dsimp only
  sl_unfold_words
  refine (canon_rows_skip 96 _ _ _ _ (Or.inl (by show (hch 0 r).val < 96; have hr : (hch 0 r).val = 0 + r.val := rfl; omega))).trans ?_
  refine (canon_rows_skip 64 _ _ _ _ (Or.inl (by show (hch 0 r).val < 64; have hr : (hch 0 r).val = 0 + r.val := rfl; omega))).trans ?_
  refine (canon_rows_skip 32 _ _ _ _ (Or.inl (by show (hch 0 r).val < 32; have hr : (hch 0 r).val = 0 + r.val := rfl; omega))).trans ?_
  refine (canon_rows_here 0 _ _ _ (hch 0 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

theorem stepC_2_1 (c : Dev nD) (t : Fin cfg0.N) (h0 : ¬t.val % 4 = 0) (h1 : t.val % 4 = 3) (s : St F) (r e : Fin 32) :
    (stepC m c t h0 h1 s).2.2 (ix2 (hch 1 r) e)
      = k0_pay23 (k0_pay17 (iblk m c 0 t) (iblk m c 1 t) s.1) (k0_pay20 (iblk m c 0 t) (iblk m c 1 t) s.1)
          (View.ld s.2.2 (Rect.unit (s := S128x32) ![32, 0] S32x32.size inb_S128x32_S32x32_32_0)) (ix2 r e) := by
  unfold stepC rd2
  show VS0_2.read (Elt F) (VS0_2.writes (Elt F) VS0_2.junk (runC m c t h0 h1 s).2.2.1) _ = _
  rw [View.read_writes_eq_canon _ _ _ (scoverC_2 m c t h0 h1 s)]
  unfold runC kernelRun0_C
  dsimp only
  sl_unfold_words
  refine (canon_rows_skip 96 _ _ _ _ (Or.inl (by show (hch 1 r).val < 96; have hr : (hch 1 r).val = 32 + r.val := rfl; omega))).trans ?_
  refine (canon_rows_skip 64 _ _ _ _ (Or.inl (by show (hch 1 r).val < 64; have hr : (hch 1 r).val = 32 + r.val := rfl; omega))).trans ?_
  refine (canon_rows_here 32 _ _ _ (hch 1 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

theorem stepC_2_2 (c : Dev nD) (t : Fin cfg0.N) (h0 : ¬t.val % 4 = 0) (h1 : t.val % 4 = 3) (s : St F) (r e : Fin 32) :
    (stepC m c t h0 h1 s).2.2 (ix2 (hch 2 r) e)
      = k0_pay24 (k0_pay17 (iblk m c 0 t) (iblk m c 1 t) s.1) (k0_pay20 (iblk m c 0 t) (iblk m c 1 t) s.1)
          (View.ld s.2.2 (Rect.unit (s := S128x32) ![64, 0] S32x32.size inb_S128x32_S32x32_64_0)) (ix2 r e) := by
  unfold stepC rd2
  show VS0_2.read (Elt F) (VS0_2.writes (Elt F) VS0_2.junk (runC m c t h0 h1 s).2.2.1) _ = _
  rw [View.read_writes_eq_canon _ _ _ (scoverC_2 m c t h0 h1 s)]
  unfold runC kernelRun0_C
  dsimp only
  sl_unfold_words
  refine (canon_rows_skip 96 _ _ _ _ (Or.inl (by show (hch 2 r).val < 96; have hr : (hch 2 r).val = 64 + r.val := rfl; omega))).trans ?_
  refine (canon_rows_here 64 _ _ _ (hch 2 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

theorem stepC_2_3 (c : Dev nD) (t : Fin cfg0.N) (h0 : ¬t.val % 4 = 0) (h1 : t.val % 4 = 3) (s : St F) (r e : Fin 32) :
    (stepC m c t h0 h1 s).2.2 (ix2 (hch 3 r) e)
      = k0_pay25 (k0_pay17 (iblk m c 0 t) (iblk m c 1 t) s.1) (k0_pay20 (iblk m c 0 t) (iblk m c 1 t) s.1)
          (View.ld s.2.2 (Rect.unit (s := S128x32) ![96, 0] S32x32.size inb_S128x32_S32x32_96_0)) (ix2 r e) := by
  unfold stepC rd2
  show VS0_2.read (Elt F) (VS0_2.writes (Elt F) VS0_2.junk (runC m c t h0 h1 s).2.2.1) _ = _
  rw [View.read_writes_eq_canon _ _ _ (scoverC_2 m c t h0 h1 s)]
  unfold runC kernelRun0_C
  dsimp only
  sl_unfold_words
  refine (canon_rows_here 96 _ _ _ (hch 3 r) r e rfl).trans ?_
  simp only [View.readAt_eq_ld, Memref.IsWhole.read_unread, read_unread_whole, View.ld_unit_zero (S := S1x2048x256) hz3,
    View.ld_unit_zero (S := S256x384) hz2, View.ld_unit_zero (S := S1x128) hz2]

end Cert.KernelIdeal.Body

end
-- ==== Proof.PayTile.lean ====
import proofs.«425081_j79276506350102_3_alg».proof.Proof.Gen.KernelIdeal.Skeleton
import proofs.«425081_j79276506350102_3_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Idealize.ShloMosaic Idealize.ShloMosaic.ValueIdx Cert.KernelIdeal Cert.KernelIdeal.Gen Cert.LinAttn

/-! ## The fused projection: rows times the q/k/v weight -/

theorem lhs_proj_0 (i : S2048x384.Idx) (q : dot_S2048x256_S256x384_S2048x384_1_0_0_1_n_n.contr.Idx) :
    (dot_S2048x256_S256x384_S2048x384_1_0_0_1_n_n.lhsIdx i q 0).val = (i 0).val := by
  unfold DotDims.lhsIdx
  rw [dif_neg (show ¬(0 : Fin S2048x256.rank) ∈ dot_S2048x256_S256x384_S2048x384_1_0_0_1_n_n.lhsBatch by decide), dif_pos (show (0 : Fin S2048x256.rank) ∈ dot_S2048x256_S256x384_S2048x384_1_0_0_1_n_n.lhsNonContracting by decide)]
  rfl
theorem lhs_proj_1 (i : S2048x384.Idx) (q : dot_S2048x256_S256x384_S2048x384_1_0_0_1_n_n.contr.Idx) :
    (dot_S2048x256_S256x384_S2048x384_1_0_0_1_n_n.lhsIdx i q 1).val = (q ⟨0, by decide⟩).val :=
  dot_S2048x256_S256x384_S2048x384_1_0_0_1_n_n.lhsIdx_val_of_single rfl i q
theorem rhs_proj_0 (i : S2048x384.Idx) (q : dot_S2048x256_S256x384_S2048x384_1_0_0_1_n_n.contr.Idx) :
    (dot_S2048x256_S256x384_S2048x384_1_0_0_1_n_n.rhsIdx i q 0).val = (q ⟨0, by decide⟩).val :=
  dot_S2048x256_S256x384_S2048x384_1_0_0_1_n_n.rhsIdx_val_of_single rfl i q
theorem rhs_proj_1 (i : S2048x384.Idx) (q : dot_S2048x256_S256x384_S2048x384_1_0_0_1_n_n.contr.Idx) :
    (dot_S2048x256_S256x384_S2048x384_1_0_0_1_n_n.rhsIdx i q 1).val = (i 1).val := by
  unfold DotDims.rhsIdx
  rw [dif_neg (show ¬(1 : Fin S256x384.rank) ∈ dot_S2048x256_S256x384_S2048x384_1_0_0_1_n_n.rhsBatch by decide), dif_pos (show (1 : Fin S256x384.rank) ∈ dot_S2048x256_S256x384_S2048x384_1_0_0_1_n_n.rhsNonContracting by decide)]
  rfl

/-- The matmul of the projection into the zero accumulator, read at row `r` and column `f`. -/
theorem matmul_proj_at (a : FVec Ideal S2048x256 .bf16) (b : FVec Ideal S256x384 .bf16) (r : Fin 2048) (f : Fin 384) :
    FloatOps.matmul dot_S2048x256_S256x384_S2048x384_1_0_0_1_n_n none a b (constant S2048x384 .f32 0x00000000#32) (ix2 r f)
      = ∑ d : Fin 256, a (ix2 r d) * b (ix2 d f) := by
  rw [Ideal.matmul_constant_zero_apply, ← Equiv.sum_comp (contrEquiv1 dot_S2048x256_S256x384_S2048x384_1_0_0_1_n_n 256 rfl rfl).symm]
  refine Finset.sum_congr rfl fun k _ => ?_
  have hk := contrEquiv1_symm_val dot_S2048x256_S256x384_S2048x384_1_0_0_1_n_n 256 rfl rfl k
  have el : dot_S2048x256_S256x384_S2048x384_1_0_0_1_n_n.lhsIdx (ix2 r f) ((contrEquiv1 dot_S2048x256_S256x384_S2048x384_1_0_0_1_n_n 256 rfl rfl).symm k) = ix2 r k := funext fun a => Fin.ext (by
    match a with
    | ⟨0, _⟩ => exact lhs_proj_0 _ _
    | ⟨1, _⟩ => exact (lhs_proj_1 _ _).trans hk)
  have er : dot_S2048x256_S256x384_S2048x384_1_0_0_1_n_n.rhsIdx (ix2 r f) ((contrEquiv1 dot_S2048x256_S256x384_S2048x384_1_0_0_1_n_n 256 rfl rfl).symm k) = ix2 k f := funext fun a => Fin.ext (by
    match a with
    | ⟨0, _⟩ => exact (rhs_proj_0 _ _).trans hk
    | ⟨1, _⟩ => exact rhs_proj_1 _ _)
  rw [el, er]

variable (x0 : Vec Ideal S1x2048x256 .f32) (x1 : Vec Ideal S256x384 .bf16) (m0 l0 : Vec Ideal S1x128 .f32)

theorem pay13_at (r : Fin 2048) (f : Fin 384) :
    k0_pay13 x0 x1 (ix2 r f) = ∑ d : Fin 256, x0 (ix3 0 r d) * x1 (ix2 d f) := by
  unfold k0_pay13
  refine (matmul_proj_at _ _ r f).trans ?_
  refine Finset.sum_congr rfl fun d _ => ?_
  rw [truncf_apply, shapeCast_1ab_ab_apply, shapeCast_self]

/-! ## The slices of the projection -/

theorem pay14_at (r : Fin 2048) (c : Fin 128) :
    k0_pay14 x0 x1 (ix2 r c) = ∑ d : Fin 256, x0 (ix3 0 r d) * x1 (ix2 d (kcol c)) := by
  unfold k0_pay14
  refine (slice2_axis1_apply 128 (k0_pay13 x0 x1) slices_S2048x384_o0_128_S2048x128 r c (kcol c) rfl).trans ?_
  exact pay13_at x0 x1 r (kcol c)

theorem pay15_at (r : Fin 2048) (c : Fin 128) :
    k0_pay15 x0 x1 (ix2 r c) = (∑ d : Fin 256, x0 (ix3 0 r d) * x1 (ix2 d (qcol c))) * scale := by
  unfold k0_pay15
  rw [shapeCast_self, truncf_apply, mulf_apply, broadcast_apply]
  rw [slice2_axis1_apply 0 (k0_pay13 x0 x1) slices_S2048x384_o0_0_S2048x128 r c (qcol c) (Nat.zero_add _).symm]
  rw [pay13_at x0 x1 r (qcol c)]
  rfl

/-! ## The reductions over the rows of a tile -/

/-- The index of a `[2048, 128]` tile that drops to column `c` with row coordinate `k` inserted is `(k, c)`. -/
theorem lift_rows (h : S2048x128.Reduces [0] S128) (c : Fin 128) (k : Fin (S2048x128.size 0)) :
    h.lift (ix1 c) k = ix2 (⟨k.val, k.isLt⟩ : Fin 2048) c := by
  funext a; apply Fin.ext
  match a with
  | ⟨0, _⟩ => rfl
  | ⟨1, _⟩ => rfl

/-- The maximum over the rows, from minus infinity, at column `c`. -/
theorem colMax_at (src : FVec Ideal S2048x128 .f32) (h : S2048x128.Reduces [0] S128) (hφ : FKind.Formats .f32)
    (hacc : (0xFF800000#32 : BitVec FTy.f32.bits) = FKind.maximumf.neutral .f32 hφ) (c : Fin 128) :
    multiReduction (F := Ideal) .maximumf [0] S128 src 0xFF800000#32 h hφ hacc (ix1 c)
      = (Finset.univ : Finset (Fin 2048)).fold max negInf (fun r => src (ix2 r c)) := by
  refine (Ideal.multiReduction_maximumf_single src _ h hφ hacc (ix1 c)).trans ?_
  have hf : (src ∘ h.lift (ix1 c)) = fun r : Fin 2048 => src (ix2 r c) := funext fun k => congrArg src (lift_rows h c k)
  exact congrArg (fun f => Finset.fold max (Ideal.ofBits .f32 0xFF800000#32) f (Finset.univ : Finset (Fin 2048))) hf

/-- The sum over the rows at column `c`. -/
theorem colSum_at (src : FVec Ideal S2048x128 .f32) (h : S2048x128.Reduces [0] S128) (hφ : FKind.Formats .f32)
    (hacc : (0x00000000#32 : BitVec FTy.f32.bits) = FKind.add.neutral .f32 hφ) (c : Fin 128) :
    multiReduction (F := Ideal) .add [0] S128 src 0x00000000#32 h hφ hacc (ix1 c) = ∑ r : Fin 2048, src (ix2 r c) := by
  refine (Ideal.multiReduction_add_single src _ h hφ hacc (ix1 c)).trans ?_
  exact Finset.sum_congr rfl fun k _ => congrArg src (lift_rows h c k)

theorem pay16_at (c : Fin 128) :
    k0_pay16 x0 x1 m0 (ix2 0 c)
      = max (m0 (ix2 0 c)) ((Finset.univ : Finset (Fin 2048)).fold max negInf (fun r => k0_pay14 x0 x1 (ix2 r c))) := by
  unfold k0_pay16
  rw [maximumf_apply, shapeCast_a_1a_apply]
  exact congrArg (max (m0 (ix2 0 c))) (colMax_at (k0_pay14 x0 x1) _ _ _ c)

theorem pay17_at (c : Fin 128) :
    k0_pay17 x0 x1 m0 (ix2 0 c) = Ideal.exp (m0 (ix2 0 c) - k0_pay16 x0 x1 m0 (ix2 0 c)) := by
  unfold k0_pay17
  rfl

theorem pay18_at (r : Fin 2048) (c : Fin 128) :
    k0_pay18 x0 x1 m0 (ix2 r c) = Ideal.exp (k0_pay14 x0 x1 (ix2 r c) - k0_pay16 x0 x1 m0 (ix2 0 c)) := by
  unfold k0_pay18
  show Ideal.exp (k0_pay14 x0 x1 (ix2 r c)
    - broadcastTo S2048x128 (k0_pay16 x0 x1 m0) broadcasts_S1x128_S2048x128 (ix2 r c)) = _
  rw [broadcastTo_1b_ab_apply]

theorem pay19_at (c : Fin 128) :
    k0_pay19 x0 x1 m0 l0 (ix2 0 c)
      = k0_pay17 x0 x1 m0 (ix2 0 c) * l0 (ix2 0 c) + ∑ r : Fin 2048, k0_pay18 x0 x1 m0 (ix2 r c) := by
  unfold k0_pay19
  rw [addf_apply, mulf_apply, shapeCast_a_1a_apply]
  exact congrArg (k0_pay17 x0 x1 m0 (ix2 0 c) * l0 (ix2 0 c) + ·) (colSum_at (k0_pay18 x0 x1 m0) _ _ _ c)

/-! ## The weights applied to the values: the contraction over the rows of a tile -/

theorem lhs_ctx_0 (i : S128x128.Idx) (q : dot_S2048x128_S2048x128_S128x128_0_0_1_1_n_n.contr.Idx) :
    (dot_S2048x128_S2048x128_S128x128_0_0_1_1_n_n.lhsIdx i q 0).val = (q ⟨0, by decide⟩).val :=
  dot_S2048x128_S2048x128_S128x128_0_0_1_1_n_n.lhsIdx_val_of_single rfl i q
theorem lhs_ctx_1 (i : S128x128.Idx) (q : dot_S2048x128_S2048x128_S128x128_0_0_1_1_n_n.contr.Idx) :
    (dot_S2048x128_S2048x128_S128x128_0_0_1_1_n_n.lhsIdx i q 1).val = (i 0).val := by
  unfold DotDims.lhsIdx
  rw [dif_neg (show ¬(1 : Fin S2048x128.rank) ∈ dot_S2048x128_S2048x128_S128x128_0_0_1_1_n_n.lhsBatch by decide), dif_pos (show (1 : Fin S2048x128.rank) ∈ dot_S2048x128_S2048x128_S128x128_0_0_1_1_n_n.lhsNonContracting by decide)]
  rfl
theorem rhs_ctx_0 (i : S128x128.Idx) (q : dot_S2048x128_S2048x128_S128x128_0_0_1_1_n_n.contr.Idx) :
    (dot_S2048x128_S2048x128_S128x128_0_0_1_1_n_n.rhsIdx i q 0).val = (q ⟨0, by decide⟩).val :=
  dot_S2048x128_S2048x128_S128x128_0_0_1_1_n_n.rhsIdx_val_of_single rfl i q
theorem rhs_ctx_1 (i : S128x128.Idx) (q : dot_S2048x128_S2048x128_S128x128_0_0_1_1_n_n.contr.Idx) :
    (dot_S2048x128_S2048x128_S128x128_0_0_1_1_n_n.rhsIdx i q 1).val = (i 1).val := by
  unfold DotDims.rhsIdx
  rw [dif_neg (show ¬(1 : Fin S2048x128.rank) ∈ dot_S2048x128_S2048x128_S128x128_0_0_1_1_n_n.rhsBatch by decide), dif_pos (show (1 : Fin S2048x128.rank) ∈ dot_S2048x128_S2048x128_S128x128_0_0_1_1_n_n.rhsNonContracting by decide)]
  rfl

/-- The matmul contracting the row axis of both operands into the zero accumulator, read at `(c, c')`. -/
theorem matmul_ctx_at (a b : FVec Ideal S2048x128 .bf16) (c c' : Fin 128) :
    FloatOps.matmul dot_S2048x128_S2048x128_S128x128_0_0_1_1_n_n none a b (constant S128x128 .f32 0x00000000#32) (ix2 c c')
      = ∑ r : Fin 2048, a (ix2 r c) * b (ix2 r c') := by
  rw [Ideal.matmul_constant_zero_apply, ← Equiv.sum_comp (contrEquiv1 dot_S2048x128_S2048x128_S128x128_0_0_1_1_n_n 2048 rfl rfl).symm]
  refine Finset.sum_congr rfl fun k _ => ?_
  have hk := contrEquiv1_symm_val dot_S2048x128_S2048x128_S128x128_0_0_1_1_n_n 2048 rfl rfl k
  have el : dot_S2048x128_S2048x128_S128x128_0_0_1_1_n_n.lhsIdx (ix2 c c') ((contrEquiv1 dot_S2048x128_S2048x128_S128x128_0_0_1_1_n_n 2048 rfl rfl).symm k) = ix2 k c := funext fun a => Fin.ext (by
    match a with
    | ⟨0, _⟩ => exact (lhs_ctx_0 _ _).trans hk
    | ⟨1, _⟩ => exact lhs_ctx_1 _ _)
  have er : dot_S2048x128_S2048x128_S128x128_0_0_1_1_n_n.rhsIdx (ix2 c c') ((contrEquiv1 dot_S2048x128_S2048x128_S128x128_0_0_1_1_n_n 2048 rfl rfl).symm k) = ix2 k c' := funext fun a => Fin.ext (by
    match a with
    | ⟨0, _⟩ => exact (rhs_ctx_0 _ _).trans hk
    | ⟨1, _⟩ => exact rhs_ctx_1 _ _)
  rw [el, er]

theorem pay20_at (c c' : Fin 128) :
    k0_pay20 x0 x1 m0 (ix2 c c')
      = ∑ r : Fin 2048, k0_pay18 x0 x1 m0 (ix2 r c) * (∑ d : Fin 256, x0 (ix3 0 r d) * x1 (ix2 d (vcol c'))) := by
  unfold k0_pay20
  refine (matmul_ctx_at _ _ c c').trans ?_
  refine Finset.sum_congr rfl fun r _ => ?_
  rw [truncf_apply, truncf_apply]
  rw [slice2_axis1_apply 256 (k0_pay13 x0 x1) slices_S2048x384_o0_256_S2048x128 r c' (vcol c') rfl]
  rw [pay13_at x0 x1 r (vcol c')]

/-! ## The accumulator's update, head by head -/

/-- A matrix cut along both axes reads, at `(i, j)`, the source at `(o0 + i, o1 + j)`. -/
theorem slice2_apply {α : Type} {n0 n1 k0 k1 : Nat} (o0 o1 : Nat) (X : (⟨2, ![n0, n1]⟩ : Shape).Idx → α)
    (h : (⟨2, ![n0, n1]⟩ : Shape).Slices ![o0, o1] ⟨2, ![k0, k1]⟩)
    (i : Fin k0) (j : Fin k1) (p : Fin n0) (q : Fin n1) (hp : p.val = o0 + i.val) (hq : q.val = o1 + j.val) :
    extractStridedSlice ⟨2, ![k0, k1]⟩ ![o0, o1] X h (ix2 i j) = X (ix2 p q) :=
  extractStridedSlice_apply _ _ _ _ _ (fun ax => by
    match ax with
    | ⟨0, _⟩ => exact hp
    | ⟨1, _⟩ => exact hq)

/-- One column broadcast over many: an `[a, 1]` array broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The update of one head's `32 × 32` block of the accumulator: rows `o ..` of the transposed decay times the block, plus
    the diagonal block at `(o, o)` of the tile's contribution. -/
theorem head_at (o : Nat) (v27 : FVec Ideal S1x128 .f32) (v37 : FVec Ideal S128x128 .f32) (a : Vec Ideal S32x32 .f32)
    (h1 : S128x1.Slices ![o, 0] S32x1) (h2 : S128x128.Slices ![o, o] S32x32) (r e : Fin 32) (R E : Fin 128)
    (hR : R.val = o + r.val) (hE : E.val = o + e.val) :
    shapeCast S32x32 (addf (mulf (broadcastTo S32x32 (extractStridedSlice S32x1 ![o, 0] (k0_pay21 v27) h1) broadcasts_S32x1_S32x32) a)
        (extractStridedSlice S32x32 ![o, o] v37 h2)) shapeCasts_S32x32_S32x32 (ix2 r e)
      = v27 (ix2 0 R) * a (ix2 r e) + v37 (ix2 R E) := by
  rw [shapeCast_self, addf_apply, mulf_apply, broadcastTo_a1_ab_apply]
  rw [slice2_apply o 0 (k0_pay21 v27) h1 r (0 : Fin 1) R (0 : Fin 1) hR rfl]
  rw [slice2_apply o o v37 h2 r e R E hR hE]
  unfold k0_pay21
  rw [transpose_ix2_apply]

theorem pay22_at (v27 : FVec Ideal S1x128 .f32) (v37 : FVec Ideal S128x128 .f32) (a : Vec Ideal S32x32 .f32) (r e : Fin 32) :
    k0_pay22 v27 v37 a (ix2 r e) = v27 (ix2 0 (hch 0 r)) * a (ix2 r e) + v37 (ix2 (hch 0 r) (hch 0 e)) := by
  unfold k0_pay22
  exact head_at 0 v27 v37 a _ _ r e (hch 0 r) (hch 0 e) rfl rfl

theorem pay23_at (v27 : FVec Ideal S1x128 .f32) (v37 : FVec Ideal S128x128 .f32) (a : Vec Ideal S32x32 .f32) (r e : Fin 32) :
    k0_pay23 v27 v37 a (ix2 r e) = v27 (ix2 0 (hch 1 r)) * a (ix2 r e) + v37 (ix2 (hch 1 r) (hch 1 e)) := by
  unfold k0_pay23
  exact head_at 32 v27 v37 a _ _ r e (hch 1 r) (hch 1 e) rfl rfl

theorem pay24_at (v27 : FVec Ideal S1x128 .f32) (v37 : FVec Ideal S128x128 .f32) (a : Vec Ideal S32x32 .f32) (r e : Fin 32) :
    k0_pay24 v27 v37 a (ix2 r e) = v27 (ix2 0 (hch 2 r)) * a (ix2 r e) + v37 (ix2 (hch 2 r) (hch 2 e)) := by
  unfold k0_pay24
  exact head_at 64 v27 v37 a _ _ r e (hch 2 r) (hch 2 e) rfl rfl

theorem pay25_at (v27 : FVec Ideal S1x128 .f32) (v37 : FVec Ideal S128x128 .f32) (a : Vec Ideal S32x32 .f32) (r e : Fin 32) :
    k0_pay25 v27 v37 a (ix2 r e) = v27 (ix2 0 (hch 3 r)) * a (ix2 r e) + v37 (ix2 (hch 3 r) (hch 3 e)) := by
  unfold k0_pay25
  exact head_at 96 v27 v37 a _ _ r e (hch 3 r) (hch 3 e) rfl rfl

/-! ## The stored running values and the initial values -/

theorem pay1_eq (v : FVec Ideal S1x128 .f32) : k0_pay1 v = v := by
  unfold k0_pay1
  exact shapeCast_self v _

theorem pay2_eq (v : FVec Ideal S1x128 .f32) : k0_pay2 v = v := by
  unfold k0_pay2
  exact shapeCast_self v _

theorem pay10_at (c : Fin 128) : k0_pay10 (F := Ideal) (ix2 0 c) = negInit := by
  unfold k0_pay10
  rw [shapeCast_self]
  rfl

theorem pay11_at (c : Fin 128) : k0_pay11 (F := Ideal) (ix2 0 c) = 0 := by
  unfold k0_pay11
  rw [shapeCast_self]
  exact Ideal.ofBits_zero_f32

theorem pay12_at (c : Fin 128) (e : Fin 32) : k0_pay12 (F := Ideal) (ix2 c e) = 0 := by
  unfold k0_pay12
  rw [shapeCast_self]
  exact Ideal.ofBits_zero_f32

end Cert.KernelIdeal.PayAt

end
-- ==== Proof.KI.StateValue.Values.lean ====
/-
  One tile of the online pass on the extended reals: if the running maximum, running sum and accumulator
  handed to the tile's payloads are the specification's running quantities after `j` tiles of batch row
  `b`, and the input block holds the rows of tile `j` of that batch row, the payloads are the running
  quantities after `j + 1` tiles.
-/
import proofs.«425081_j79276506350102_3_alg».proof.Proof.PayTile
import proofs.«425081_j79276506350102_3_alg».proof.Proof.AttnSpec

noncomputable section

namespace Cert.KernelIdeal.TileValue

open Idealize.ShloMosaic Idealize.ShloMosaic.ValueIdx Cert.KernelIdeal Cert.KernelIdeal.Gen Cert.LinAttn
open Cert.KernelIdeal.PayAt

theorem hcol_hch_eq (h : Fin 4) (d e : Fin 32) : hcol (hch h d) e = hch h e :=
  Fin.ext (show (32 * h.val + d.val) / 32 * 32 + e.val = 32 * h.val + e.val by omega)

variable (X : Fin 16 → Fin 8192 → Fin 256 → EReal) (W : Fin 256 → Fin 384 → EReal)
variable (x0 : Vec Ideal S1x2048x256 .f32) (x1 : Vec Ideal S256x384 .bf16) (m0 l0 : Vec Ideal S1x128 .f32)
variable (b : Fin 16) (j : ℕ)

/-- The keys of the tile. -/
theorem keys_at (hx : ∀ (r : Fin 2048) (d : Fin 256), x0 (ix3 0 r d) = X b (rowOf j r) d)
    (hw : ∀ (d : Fin 256) (f : Fin 384), x1 (ix2 d f) = W d f) (r : Fin 2048) (ch : Fin 128) :
    k0_pay14 x0 x1 (ix2 r ch) = kv X W b (rowOf j r) ch := by
  rw [pay14_at]
  simp only [hx, hw]
  rfl

/-- The new running maximum. -/
theorem newMax_at (hx : ∀ (r : Fin 2048) (d : Fin 256), x0 (ix3 0 r d) = X b (rowOf j r) d)
    (hw : ∀ (d : Fin 256) (f : Fin 384), x1 (ix2 d f) = W d f)
    (hm : ∀ ch : Fin 128, m0 (ix2 0 ch) = runMax X W b j ch) (ch : Fin 128) :
    k0_pay16 x0 x1 m0 (ix2 0 ch) = runMax X W b (j + 1) ch := by
  rw [pay16_at, hm]
  simp only [keys_at X W x0 x1 b j hx hw]
  rfl

/-- The rescaling factor. -/
theorem decay_at (hx : ∀ (r : Fin 2048) (d : Fin 256), x0 (ix3 0 r d) = X b (rowOf j r) d)
    (hw : ∀ (d : Fin 256) (f : Fin 384), x1 (ix2 d f) = W d f)
    (hm : ∀ ch : Fin 128, m0 (ix2 0 ch) = runMax X W b j ch) (ch : Fin 128) :
    k0_pay17 x0 x1 m0 (ix2 0 ch) = decay X W b j ch := by
  rw [pay17_at, newMax_at X W x0 x1 m0 b j hx hw hm, hm]
  rfl

/-- The weights of the tile's rows. -/
theorem pw_at (hx : ∀ (r : Fin 2048) (d : Fin 256), x0 (ix3 0 r d) = X b (rowOf j r) d)
    (hw : ∀ (d : Fin 256) (f : Fin 384), x1 (ix2 d f) = W d f)
    (hm : ∀ ch : Fin 128, m0 (ix2 0 ch) = runMax X W b j ch) (r : Fin 2048) (ch : Fin 128) :
    k0_pay18 x0 x1 m0 (ix2 r ch) = pw X W b j r ch := by
  rw [pay18_at, keys_at X W x0 x1 b j hx hw, newMax_at X W x0 x1 m0 b j hx hw hm]
  rfl

/-- The new running sum. -/
theorem newSum_at (hx : ∀ (r : Fin 2048) (d : Fin 256), x0 (ix3 0 r d) = X b (rowOf j r) d)
    (hw : ∀ (d : Fin 256) (f : Fin 384), x1 (ix2 d f) = W d f)
    (hm : ∀ ch : Fin 128, m0 (ix2 0 ch) = runMax X W b j ch)
    (hl : ∀ ch : Fin 128, l0 (ix2 0 ch) = runSum X W b j ch) (ch : Fin 128) :
    k0_pay19 x0 x1 m0 l0 (ix2 0 ch) = runSum X W b (j + 1) ch := by
  rw [pay19_at, decay_at X W x0 x1 m0 b j hx hw hm, hl]
  simp only [pw_at X W x0 x1 m0 b j hx hw hm]
  rfl

/-- The tile's contribution to the accumulator. -/
theorem pv_at (hx : ∀ (r : Fin 2048) (d : Fin 256), x0 (ix3 0 r d) = X b (rowOf j r) d)
    (hw : ∀ (d : Fin 256) (f : Fin 384), x1 (ix2 d f) = W d f)
    (hm : ∀ ch : Fin 128, m0 (ix2 0 ch) = runMax X W b j ch) (ch ch' : Fin 128) :
    k0_pay20 x0 x1 m0 (ix2 ch ch') = ∑ r : Fin 2048, pw X W b j r ch * vv X W b (rowOf j r) ch' := by
  rw [pay20_at]
  simp only [pw_at X W x0 x1 m0 b j hx hw hm, hx, hw]
  rfl

/-- The new accumulator from the update `decay * old + contribution` at channel `hch h r`. -/
theorem newAcc_of (hx : ∀ (r : Fin 2048) (d : Fin 256), x0 (ix3 0 r d) = X b (rowOf j r) d)
    (hw : ∀ (d : Fin 256) (f : Fin 384), x1 (ix2 d f) = W d f)
    (hm : ∀ ch : Fin 128, m0 (ix2 0 ch) = runMax X W b j ch) (h : Fin 4) (r e : Fin 32) (a : EReal)
    (ha : a = runAcc X W b j (hch h r) e) :
    k0_pay17 x0 x1 m0 (ix2 0 (hch h r)) * a + k0_pay20 x0 x1 m0 (ix2 (hch h r) (hch h e))
      = runAcc X W b (j + 1) (hch h r) e := by
  rw [decay_at X W x0 x1 m0 b j hx hw hm, pv_at X W x0 x1 m0 b j hx hw hm, ha]
  have hr : runAcc X W b (j + 1) (hch h r) e = decay X W b j (hch h r) * runAcc X W b j (hch h r) e
      + ∑ r' : Fin 2048, pw X W b j r' (hch h r) * vv X W b (rowOf j r') (hcol (hch h r) e) := rfl
  rw [hr, hcol_hch_eq]

end Cert.KernelIdeal.TileValue

end
-- ==== Proof.Blocks.lean ====
/-
  The windows' blocks of the one pallas_call, read at an index, and the output array from its last-tile points.

  The grid is 16 x 4: point t = 4 b + j works on batch row b = t / 4 and sequence tile j = t % 4. Window 0 hands the
  point rows 2048 j .. 2048 j + 2047 of batch row b of the input; windows 1 to 3 hand every point the whole fused
  weight, output weight and bias, as three host operations before the region left them: two changes of float format
  (the identity on extended reals) and the bias laid out as one row. Window 4, the output, holds the whole
  [1, 8192, 256] slab of batch row b and is written back exactly at the last tile of each row (t % 4 = 3); those
  sixteen slabs tile the [16, 8192, 256] array, so if every such point wrote its slab of one function G, the array
  ends as G.
-/
import proofs.«425081_j79276506350102_3_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.Blocks

open Idealize.ShloMosaic Idealize.ShloMosaic.ValueIdx Cert.KernelIdeal Cert.KernelIdeal.Gen
open Idealize.ShloMosaic.TcCoe Idealize.SL.Sem

variable (m : (ℓ : Loc nD τ sig) → Buf (Elt Ideal) ℓ) (c : Dev nD)

/-- The grid has 64 points. -/
theorem lt64 (t : Fin cfg0.N) : t.val < 64 := lt_of_lt_of_eq t.isLt N_0

/-- Window 0's block index at point t: batch row t / 4, tile t % 4, the whole last axis. -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The input block of point t. -/
abbrev xblk (t : Fin cfg0.N) : Vec Ideal S1x2048x256 .f32 := iblk m c 0 t

/-- It is rows 2048 (t % 4) .. of batch row t / 4 of the input. -/
theorem xblk_at (t : Fin cfg0.N) (r : Fin 2048) (d : Fin 256) :
    xblk m c t (ix3 0 r d) = m ((c : Thread nD τ).loc main_arg0)
      (ix3 ⟨t.val / 4, by have := lt64 t; omega⟩ ⟨2048 * (t.val % 4) + r.val, by have := r.isLt; omega⟩ d) := by
  obtain ⟨h0, h1, h2⟩ := idx0 t
  show iblk m c 0 t (ix3 0 r d) = _
  unfold iblk
  rw [View.read_apply]
  show V m c main_arg0 _ = _
  rw [V_main_arg0]
  congr 1
  funext a
  apply Fin.ext
  match a with
  | ⟨0, _⟩ => show win0_0.index t (0 : Fin 3) * 1 + 1 * 0 = t.val / 4; omega
  | ⟨1, _⟩ => show win0_0.index t (1 : Fin 3) * 2048 + 1 * r.val = 2048 * (t.val % 4) + r.val; omega
  | ⟨2, _⟩ => show win0_0.index t (2 : Fin 3) * 256 + 1 * d.val = d.val; omega

/-- Windows 1 to 3 hold one block, the whole array, at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The fused weight as the region finds it: the argument, its format narrowed (the identity on extended reals). -/
theorem V_main_v0 : @Eq (S256x384.Idx → EReal) (V m c main_v0)
    (truncf (F := Ideal) .bf16 (m ((c : Thread nD τ).loc main_arg1) : FVec Ideal S256x384 .f32) bitsLt_bf16_f32) := by
  dsimp only [Gen.V, Gen.hostOps0]; after_results <;> rfl

/-- The output weight as the region finds it, likewise. -/
theorem V_main_v1 : @Eq (S128x256.Idx → EReal) (V m c main_v1)
    (truncf (F := Ideal) .bf16 (m ((c : Thread nD τ).loc main_arg2) : FVec Ideal S128x256 .f32) bitsLt_bf16_f32) := by
  dsimp only [Gen.V, Gen.hostOps0]; after_results <;> rfl

/-- The bias as the region finds it: the [256] argument laid out as one row. -/
theorem V_main_v2 : (V m c main_v2 : S1x256.Idx → EReal)
    = shapeCast S1x256 (m ((c : Thread nD τ).loc main_arg3) : S256.Idx → EReal) shapeCasts_S256_S1x256 := by
  dsimp only [Gen.V, Gen.hostOps0]; after_results <;> rfl

/-- The fused weight, output weight and bias blocks of point t. -/
abbrev wblk (t : Fin cfg0.N) : Vec Ideal S256x384 .bf16 := iblk m c 1 t
abbrev woblk (t : Fin cfg0.N) : Vec Ideal S128x256 .bf16 := iblk m c 2 t
abbrev bblk (t : Fin cfg0.N) : Vec Ideal S1x256 .f32 := iblk m c 3 t

/-- The fused weight block is the argument. -/
theorem wblk_at (t : Fin cfg0.N) (d : Fin 256) (f : Fin 384) :
    wblk m c t (ix2 d f) = m ((c : Thread nD τ).loc main_arg1) (ix2 d f) := by
  obtain ⟨h0, h1⟩ := idx1 t
  show iblk m c 1 t (ix2 d f) = _
  unfold iblk
  rw [View.read_apply]
  show (V m c main_v0 : S256x384.Idx → EReal) _ = _
  rw [V_main_v0]
  refine (truncf_apply (φ := .f32) (ψ := .bf16) _ bitsLt_bf16_f32 _).trans ?_
  congr 1
  funext a
  apply Fin.ext
  match a with
  | ⟨0, _⟩ => show win0_1.index t (0 : Fin 2) * 256 + 1 * d.val = d.val; omega
  | ⟨1, _⟩ => show win0_1.index t (1 : Fin 2) * 384 + 1 * f.val = f.val; omega

/-- The output weight block is the argument. -/
theorem woblk_at (t : Fin cfg0.N) (f : Fin 128) (D : Fin 256) :
    woblk m c t (ix2 f D) = m ((c : Thread nD τ).loc main_arg2) (ix2 f D) := by
  obtain ⟨h0, h1⟩ := idx2 t
  show iblk m c 2 t (ix2 f D) = _
  unfold iblk
  rw [View.read_apply]
  show (V m c main_v1 : S128x256.Idx → EReal) _ = _
  rw [V_main_v1]
  refine (truncf_apply (φ := .f32) (ψ := .bf16) _ bitsLt_bf16_f32 _).trans ?_
  congr 1
  funext a
  apply Fin.ext
  match a with
  | ⟨0, _⟩ => show win0_2.index t (0 : Fin 2) * 128 + 1 * f.val = f.val; omega
  | ⟨1, _⟩ => show win0_2.index t (1 : Fin 2) * 256 + 1 * D.val = D.val; omega

/-- The bias block's one row is the argument. -/
theorem bblk_at (t : Fin cfg0.N) (D : Fin 256) :
    bblk m c t (ix2 0 D) = m ((c : Thread nD τ).loc main_arg3) (ix1 D) := by
  obtain ⟨h0, h1⟩ := idx3 t
  show iblk m c 3 t (ix2 0 D) = _
  unfold iblk
  rw [View.read_apply]
  show (V m c main_v2 : S1x256.Idx → EReal) _ = _
  rw [V_main_v2]
  have e : (((cfg0.win 3).blk t).view.emb (ix2 (0 : Fin 1) D) : S1x256.Idx) = ix2 (0 : Fin 1) D := by
    funext a
    apply Fin.ext
    match a with
    | ⟨0, _⟩ => show win0_3.index t (0 : Fin 2) * 1 + 1 * 0 = 0; omega
    | ⟨1, _⟩ => show win0_3.index t (1 : Fin 2) * 256 + 1 * D.val = D.val; omega
  rw [e]
  exact shapeCast_a_1a_apply _ _ 0 D

/-! ## The output array -/

/-- Window 4's block index at point t: the slab of batch row t / 4, whole on the other two axes. -/
theorem idx4 : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-- An index of the output array is in point t's block iff each coordinate is in the block's range on its axis. -/
theorem mem_blk4 (t : Fin cfg0.N) (i : S16x8192x256.Idx) :
    i ∈ ((cfg0.win 4).blk t).view.set ↔ ∀ a : Fin 3, win0_4.index t a * S1x8192x256.size a ≤ (i a).val
      ∧ (i a).val < win0_4.index t a * S1x8192x256.size a + S1x8192x256.size a := by
  show i ∈ ((View.whole main_v3).slice (win0_4.rect t)).set ↔ _
  rw [View.set_slice_whole, Rect.mem_set_unit]
  exact Iff.rfl

/-- The last-tile point of batch row b. -/
def lastPt (b : Fin 16) : Fin cfg0.N :=
  ⟨4 * b.val + 3, lt_of_lt_of_eq (show 4 * b.val + 3 < 64 by have := b.isLt; omega) N_0.symm⟩

/-- If every last-tile point leaves in the output window the slab of its batch row of one function G, the output
    array ends as G. -/
theorem final_of_last (dat : Pipeline.Dat τ (Elt Ideal) Unit ℕ (UR sig nD τ) ℕ cfg0 c) (G : S16x8192x256.Idx → EReal)
    (h : ∀ t : Fin cfg0.N, t.val % 4 = 3 → ∀ (l : Fin 8192) (D : Fin 256),
      (dat.after 4 t : S1x8192x256.Idx → EReal) (ix3 0 l D) = G (ix3 ⟨t.val / 4, by have := lt64 t; omega⟩ l D)) :
    dat.arrAt 4 cfg0.N = G := by
  refine dat.arrAt_eq_of_cover 4 G (fun t hf => ?_) (fun i => ?_)
  · have ht : t.val % 4 = 3 := (flush0_4 t).mp hf
    obtain ⟨h0, h1, h2⟩ := idx4 t
    show (cfg0.win 4).cut (grid0.coords t) (dat.after 4 t) = _
    funext y
    obtain ⟨u, l, D, rfl⟩ : ∃ (u : Fin 1) (l : Fin 8192) (D : Fin 256), y = (ix3 u l D : S1x8192x256.Idx) :=
      ⟨y 0, y 1, y 2, eq_ix3 (n0 := 1) (n1 := 8192) (n2 := 256) y⟩
    obtain rfl : u = 0 := Subsingleton.elim _ _
    rw [View.read_apply]
    have e1 : (cfg0.win 4).xinj (grid0.coords t) (ix3 (0 : Fin 1) l D : S1x8192x256.Idx) = (ix3 (0 : Fin 1) l D : S1x8192x256.Idx) := by
      funext a
      apply Fin.ext
      match a with
      | ⟨0, _⟩ => rfl
      | ⟨1, _⟩ => rfl
      | ⟨2, _⟩ => rfl
    show (dat.after 4 t : S1x8192x256.Idx → EReal) ((cfg0.win 4).xinj (grid0.coords t) (ix3 (0 : Fin 1) l D : S1x8192x256.Idx)) = _
    rw [e1]
    refine (h t ht l D).trans ?_
    show G _ = G _
    congr 1
    funext a
    apply Fin.ext
    match a with
    | ⟨0, _⟩ => show t.val / 4 = win0_4.index t (0 : Fin 3) * 1 + 1 * 0; omega
    | ⟨1, _⟩ => show l.val = win0_4.index t (1 : Fin 3) * 8192 + 1 * l.val; omega
    | ⟨2, _⟩ => show D.val = win0_4.index t (2 : Fin 3) * 256 + 1 * D.val; omega
  · have hi0 : (i 0).val < 16 := (i 0).isLt
    have hi1 : (i 1).val < 8192 := (i 1).isLt
    have hi2 : (i 2).val < 256 := (i 2).isLt
    refine ⟨lastPt (i 0), (flush0_4 _).mpr (by show (4 * (i 0).val + 3) % 4 = 3; omega), ?_⟩
    rw [mem_blk4]
    obtain ⟨h0, h1, h2⟩ := idx4 (lastPt (i 0))
    have h0' : win0_4.index (lastPt (i 0)) (0 : Fin 3) = (4 * (i 0).val + 3) / 4 := h0
    intro a
    match a with
    | ⟨0, _⟩ =>
      show win0_4.index _ (0 : Fin 3) * 1 ≤ (i 0).val ∧ (i 0).val < win0_4.index _ (0 : Fin 3) * 1 + 1
      omega
    | ⟨1, _⟩ =>
      show win0_4.index _ (1 : Fin 3) * 8192 ≤ (i 1).val ∧ (i 1).val < win0_4.index _ (1 : Fin 3) * 8192 + 8192
      omega
    | ⟨2, _⟩ =>
      show win0_4.index _ (2 : Fin 3) * 256 ≤ (i 2).val ∧ (i 2).val < win0_4.index _ (2 : Fin 3) * 256 + 256
      omega

end Cert.KernelIdeal.Blocks

end
-- ==== Proof.KI.StateValue.lean ====
/-
  The three running buffers after each grid point are the specification's running quantities: after point
  `t = 4 b + j` the maximum, the sum and the accumulator of batch row `b` after `j + 1` tiles. By induction
  on the point: a first tile starts from the reset values, which are the quantities after no tile; every tile
  takes the quantities after `j` tiles to those after `j + 1`.
-/
import proofs.«425081_j79276506350102_3_alg».proof.Proof.KI.StateValue.StepA
import proofs.«425081_j79276506350102_3_alg».proof.Proof.KI.StateValue.StepB
import proofs.«425081_j79276506350102_3_alg».proof.Proof.KI.StateValue.StepC
import proofs.«425081_j79276506350102_3_alg».proof.Proof.KI.StateValue.Values
import proofs.«425081_j79276506350102_3_alg».proof.Proof.Blocks
import proofs.«425081_j79276506350102_3_alg».proof.Proof.AttnArrays

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen Cert.KernelIdeal.Blocks Cert.KernelIdeal.PayAt Cert.KernelIdeal.TileValue
open Cert.LinAttn

variable (m : (ℓ : Loc nD τ sig) → Buf (Elt Ideal) ℓ) (c : Dev nD)

/-- The input array and the fused weight by coordinates. -/
abbrev XA : Fin 16 → Fin 8192 → Fin 256 → EReal :=
  cur3 (n0 := 16) (n1 := 8192) (n2 := 256) (m ((c : Thread nD τ).loc main_arg0))
abbrev WA : Fin 256 → Fin 384 → EReal :=
  cur2 (n0 := 256) (n1 := 384) (m ((c : Thread nD τ).loc main_arg1))

/-- The input block of point `t` holds the rows of tile `t % 4` of batch row `t / 4`. -/
theorem xblk_rows (t : Fin cfg0.N) (b : Fin 16) (hb : b.val = t.val / 4) (r : Fin 2048) (d : Fin 256) :
    xblk m c t (ix3 0 r d) = XA m c b (rowOf (t.val % 4) r) d := by
  refine (xblk_at m c t r d).trans ?_
  have key : ∀ (b' : Fin 16) (l' : Fin 8192), b' = b → l' = rowOf (t.val % 4) r →
      m ((c : Thread nD τ).loc main_arg0) (ix3 b' l' d) = XA m c b (rowOf (t.val % 4) r) d := by
    rintro _ _ rfl rfl
    rfl
  exact key _ _ (Fin.ext hb.symm)
    (Fin.ext (show 2048 * (t.val % 4) + r.val = (2048 * (t.val % 4) + r.val) % 8192 by have := r.isLt; omega))

/-- The weight block of every point is the fused weight. -/
theorem wblk_all (t : Fin cfg0.N) (d : Fin 256) (f : Fin 384) : wblk m c t (ix2 d f) = WA m c d f :=
  wblk_at m c t d f

/-- The three buffers hold the running quantities of batch row `b` after `j` tiles. -/
def Inv (s : St Ideal) (b : Fin 16) (j : ℕ) : Prop :=
  (∀ ch : Fin 128, s.1 (ix2 0 ch) = runMax (XA m c) (WA m c) b j ch)
    ∧ (∀ ch : Fin 128, s.2.1 (ix2 0 ch) = runSum (XA m c) (WA m c) b j ch)
    ∧ (∀ (ch : Fin 128) (e : Fin 32), s.2.2 (ix2 ch e) = runAcc (XA m c) (WA m c) b j ch e)

/-- Every channel is a channel of one of the four heads. -/
theorem exists_hch4 (ch : Fin 128) :
    (∃ r, ch = hch 0 r) ∨ (∃ r, ch = hch 1 r) ∨ (∃ r, ch = hch 2 r) ∨ (∃ r, ch = hch 3 r) := by
  have hlt : ch.val < 128 := ch.isLt
  rcases (by omega : ch.val < 32 ∨ (32 ≤ ch.val ∧ ch.val < 64) ∨ (64 ≤ ch.val ∧ ch.val < 96) ∨ 96 ≤ ch.val) with h | h | h | h
  · exact Or.inl ⟨⟨ch.val, h⟩, Fin.ext (show ch.val = 32 * 0 + ch.val by omega)⟩
  · exact Or.inr (Or.inl ⟨⟨ch.val - 32, by omega⟩, Fin.ext (show ch.val = 32 * 1 + (ch.val - 32) by omega)⟩)
  · exact Or.inr (Or.inr (Or.inl ⟨⟨ch.val - 64, by omega⟩, Fin.ext (show ch.val = 32 * 2 + (ch.val - 64) by omega)⟩))
  · exact Or.inr (Or.inr (Or.inr ⟨⟨ch.val - 96, by omega⟩, Fin.ext (show ch.val = 32 * 3 + (ch.val - 96) by omega)⟩))

/-- One tile: buffers that are the stores' payloads over buffers holding the quantities after `t % 4` tiles
    hold the quantities after one tile more. -/
theorem tile_inv (t : Fin cfg0.N) (b : Fin 16) (hb : b.val = t.val / 4) (s s' : St Ideal)
    (hs : Inv m c s b (t.val % 4))
    (e0 : s'.1 = k0_pay1 (k0_pay16 (xblk m c t) (wblk m c t) s.1))
    (e1 : s'.2.1 = k0_pay2 (k0_pay19 (xblk m c t) (wblk m c t) s.1 s.2.1))
    (e20 : ∀ r e : Fin 32, s'.2.2 (ix2 (hch 0 r) e)
      = k0_pay22 (k0_pay17 (xblk m c t) (wblk m c t) s.1) (k0_pay20 (xblk m c t) (wblk m c t) s.1)
          (View.ld s.2.2 (Rect.unit (s := S128x32) ![0, 0] S32x32.size inb_S128x32_S32x32_0_0)) (ix2 r e))
    (e21 : ∀ r e : Fin 32, s'.2.2 (ix2 (hch 1 r) e)
      = k0_pay23 (k0_pay17 (xblk m c t) (wblk m c t) s.1) (k0_pay20 (xblk m c t) (wblk m c t) s.1)
          (View.ld s.2.2 (Rect.unit (s := S128x32) ![32, 0] S32x32.size inb_S128x32_S32x32_32_0)) (ix2 r e))
    (e22 : ∀ r e : Fin 32, s'.2.2 (ix2 (hch 2 r) e)
      = k0_pay24 (k0_pay17 (xblk m c t) (wblk m c t) s.1) (k0_pay20 (xblk m c t) (wblk m c t) s.1)
          (View.ld s.2.2 (Rect.unit (s := S128x32) ![64, 0] S32x32.size inb_S128x32_S32x32_64_0)) (ix2 r e))
    (e23 : ∀ r e : Fin 32, s'.2.2 (ix2 (hch 3 r) e)
      = k0_pay25 (k0_pay17 (xblk m c t) (wblk m c t) s.1) (k0_pay20 (xblk m c t) (wblk m c t) s.1)
          (View.ld s.2.2 (Rect.unit (s := S128x32) ![96, 0] S32x32.size inb_S128x32_S32x32_96_0)) (ix2 r e)) :
    Inv m c s' b (t.val % 4 + 1) := by
  obtain ⟨hm, hl, hA⟩ := hs
  have hx := xblk_rows m c t b hb
  have hw := wblk_all m c t
  refine ⟨fun ch => ?_, fun ch => ?_, fun ch e => ?_⟩
  · rw [e0, pay1_eq]
    exact newMax_at (XA m c) (WA m c) (xblk m c t) (wblk m c t) s.1 b (t.val % 4) hx hw hm ch
  · rw [e1, pay2_eq]
    exact newSum_at (XA m c) (WA m c) (xblk m c t) (wblk m c t) s.1 s.2.1 b (t.val % 4) hx hw hm hl ch
  · rcases exists_hch4 ch with ⟨r, rfl⟩ | ⟨r, rfl⟩ | ⟨r, rfl⟩ | ⟨r, rfl⟩
    · rw [e20 r e, pay22_at]
      refine newAcc_of (XA m c) (WA m c) (xblk m c t) (wblk m c t) s.1 b (t.val % 4) hx hw hm 0 r e _ ?_
      show s.2.2 ((Rect.unit (s := S128x32) ![0, 0] S32x32.size inb_S128x32_S32x32_0_0).idx (ix2 r e)) = _
      rw [idx_rows 0 _ (hch 0 r) r e rfl]
      exact hA _ _
    · rw [e21 r e, pay23_at]
      refine newAcc_of (XA m c) (WA m c) (xblk m c t) (wblk m c t) s.1 b (t.val % 4) hx hw hm 1 r e _ ?_
      show s.2.2 ((Rect.unit (s := S128x32) ![32, 0] S32x32.size inb_S128x32_S32x32_32_0).idx (ix2 r e)) = _
      rw [idx_rows 32 _ (hch 1 r) r e rfl]
      exact hA _ _
    · rw [e22 r e, pay24_at]
      refine newAcc_of (XA m c) (WA m c) (xblk m c t) (wblk m c t) s.1 b (t.val % 4) hx hw hm 2 r e _ ?_
      show s.2.2 ((Rect.unit (s := S128x32) ![64, 0] S32x32.size inb_S128x32_S32x32_64_0).idx (ix2 r e)) = _
      rw [idx_rows 64 _ (hch 2 r) r e rfl]
      exact hA _ _
    · rw [e23 r e, pay25_at]
      refine newAcc_of (XA m c) (WA m c) (xblk m c t) (wblk m c t) s.1 b (t.val % 4) hx hw hm 3 r e _ ?_
      show s.2.2 ((Rect.unit (s := S128x32) ![96, 0] S32x32.size inb_S128x32_S32x32_96_0).idx (ix2 r e)) = _
      rw [idx_rows 96 _ (hch 3 r) r e rfl]
      exact hA _ _

/-- The reset values are the running quantities after no tile. -/
theorem reset_inv (b : Fin 16) : Inv m c (k0_pay10 (F := Ideal), k0_pay11 (F := Ideal), k0_pay12 (F := Ideal)) b 0 :=
  ⟨fun ch => pay10_at ch, fun ch => pay11_at ch, fun ch e => pay12_at ch e⟩

theorem stepA_inv (t : Fin cfg0.N) (h0 : t.val % 4 = 0) (h1 : ¬t.val % 4 = 3) (b : Fin 16) (hb : b.val = t.val / 4) :
    Inv m c (stepA m c t h0 h1) b (t.val % 4 + 1) := by
  have hs : Inv m c (k0_pay10 (F := Ideal), k0_pay11 (F := Ideal), k0_pay12 (F := Ideal)) b (t.val % 4) := by
    rw [h0]
    exact reset_inv m c b
  exact tile_inv m c t b hb _ (stepA m c t h0 h1) hs (stepA_0 m c t h0 h1) (stepA_1 m c t h0 h1)
    (stepA_2_0 m c t h0 h1) (stepA_2_1 m c t h0 h1) (stepA_2_2 m c t h0 h1) (stepA_2_3 m c t h0 h1)

theorem stepB_inv (t : Fin cfg0.N) (h0 : ¬t.val % 4 = 0) (h1 : ¬t.val % 4 = 3) (s : St Ideal) (b : Fin 16)
    (hb : b.val = t.val / 4) (hs : Inv m c s b (t.val % 4)) :
    Inv m c (stepB m c t h0 h1 s) b (t.val % 4 + 1) :=
  tile_inv m c t b hb s (stepB m c t h0 h1 s) hs (stepB_0 m c t h0 h1 s) (stepB_1 m c t h0 h1 s)
    (stepB_2_0 m c t h0 h1 s) (stepB_2_1 m c t h0 h1 s) (stepB_2_2 m c t h0 h1 s) (stepB_2_3 m c t h0 h1 s)

theorem stepC_inv (t : Fin cfg0.N) (h0 : ¬t.val % 4 = 0) (h1 : t.val % 4 = 3) (s : St Ideal) (b : Fin 16)
    (hb : b.val = t.val / 4) (hs : Inv m c s b (t.val % 4)) :
    Inv m c (stepC m c t h0 h1 s) b (t.val % 4 + 1) :=
  tile_inv m c t b hb s (stepC m c t h0 h1 s) hs (stepC_0 m c t h0 h1 s) (stepC_1 m c t h0 h1 s)
    (stepC_2_0 m c t h0 h1 s) (stepC_2_1 m c t h0 h1 s) (stepC_2_2 m c t h0 h1 s) (stepC_2_3 m c t h0 h1 s)

/-- After the point at position `n` the buffers hold the quantities of batch row `n / 4` after `n % 4 + 1` tiles. -/
theorem outsAt0_inv (n : ℕ) : ∀ (hn : n < cfg0.N) (b : Fin 16), b.val = n / 4 →
    Inv m c (outsAt0 m c n hn) b (n % 4 + 1) := by
  induction n with
  | zero =>
    intro hn b hb
    have h1 : ¬(0 : ℕ) % 4 = 3 := by decide
    have e : outsAt0 m c 0 hn = stepA m c ⟨0, hn⟩ (Nat.zero_mod _) h1 :=
      outsAt0_A m c ⟨0, hn⟩ (Nat.zero_mod _) h1
    rw [e]
    exact stepA_inv m c ⟨0, hn⟩ (Nat.zero_mod _) h1 b hb
  | succ k ih =>
    intro hn b hb
    by_cases h0 : (k + 1) % 4 = 0
    · have h1 : ¬(k + 1) % 4 = 3 := by omega
      have e : outsAt0 m c (k + 1) hn = stepA m c ⟨k + 1, hn⟩ h0 h1 := outsAt0_A m c ⟨k + 1, hn⟩ h0 h1
      rw [e]
      exact stepA_inv m c ⟨k + 1, hn⟩ h0 h1 b hb
    · have ihk : Inv m c (prevSt m c ⟨k + 1, hn⟩) b ((k + 1) % 4) := by
        have h := ih (Nat.lt_of_succ_lt hn) b (by omega)
        have hj : k % 4 + 1 = (k + 1) % 4 := by omega
        rw [hj] at h
        exact h
      by_cases h1 : (k + 1) % 4 = 3
      · have e : outsAt0 m c (k + 1) hn = stepC m c ⟨k + 1, hn⟩ h0 h1 (prevSt m c ⟨k + 1, hn⟩) :=
          outsAt0_C m c ⟨k + 1, hn⟩ h0 h1
        rw [e]
        exact stepC_inv m c ⟨k + 1, hn⟩ h0 h1 _ b hb ihk
      · have e : outsAt0 m c (k + 1) hn = stepB m c ⟨k + 1, hn⟩ h0 h1 (prevSt m c ⟨k + 1, hn⟩) :=
          outsAt0_B m c ⟨k + 1, hn⟩ h0 h1
        rw [e]
        exact stepB_inv m c ⟨k + 1, hn⟩ h0 h1 _ b hb ihk

/-- The three running buffers after point `t` are the running maximum, running sum and accumulator of batch
    row `t / 4` after `t % 4 + 1` tiles. -/
theorem outsAt0_value (t : Fin cfg0.N) (ch : Fin 128) (e : Fin 32) :
    (outsAt0 m c t.val t.isLt).1 (ix2 0 ch)
        = runMax (cur3 (n0 := 16) (n1 := 8192) (n2 := 256) (m ((c : Thread nD τ).loc main_arg0)))
            (cur2 (n0 := 256) (n1 := 384) (m ((c : Thread nD τ).loc main_arg1)))
            ⟨t.val / 4, by have := lt64 t; omega⟩ (t.val % 4 + 1) ch
      ∧ (outsAt0 m c t.val t.isLt).2.1 (ix2 0 ch)
        = runSum (cur3 (n0 := 16) (n1 := 8192) (n2 := 256) (m ((c : Thread nD τ).loc main_arg0)))
            (cur2 (n0 := 256) (n1 := 384) (m ((c : Thread nD τ).loc main_arg1)))
            ⟨t.val / 4, by have := lt64 t; omega⟩ (t.val % 4 + 1) ch
      ∧ (outsAt0 m c t.val t.isLt).2.2 (ix2 ch e)
        = runAcc (cur3 (n0 := 16) (n1 := 8192) (n2 := 256) (m ((c : Thread nD τ).loc main_arg0)))
            (cur2 (n0 := 256) (n1 := 384) (m ((c : Thread nD τ).loc main_arg1)))
            ⟨t.val / 4, by have := lt64 t; omega⟩ (t.val % 4 + 1) ch e := by
  obtain ⟨h1, h2, h3⟩ := outsAt0_inv m c t.val t.isLt ⟨t.val / 4, by have := lt64 t; omega⟩ rfl
  exact ⟨h1 ch, h2 ch, h3 ch e⟩

end Cert.KernelIdeal.Body

end
-- ==== Proof.KI.OutCongr.lean ====
/-
  The output block the last tile of a batch row writes depends on the query cache only through the
  three tiles it reads back beside the one it has just stored: two cache contents with the same first
  three tiles give the same output block.
-/
import proofs.«425081_j79276506350102_3_alg».proof.Proof.KI.FrameDefs
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows the tile of a point start at: 2048 times the point's position in its batch row. -/
theorem k0_off1_at : ∀ t : Fin cfg0.N, k0_off1 (grid0.coords t) = ![2048 * (t.val % 4), 0] :=
  (by decide +kernel : ∀ t : Fin grid0.N, k0_off1 (grid0.coords t) = ![2048 * (t.val % 4), 0])

/-- The one piece the tile's store leaves in the cache: this tile's scaled queries at the tile's rows. -/
theorem cachePiece_eq (c : Dev nD) (t : Fin cfg0.N) :
    kernelRun0_C.sl.HS3_1 (F := F) c (grid0.coords t) (ms0_0 t) (hs0_0 t) (ms0_1 t) (hs0_1 t) (iblk m c 0 t) (iblk m c 1 t)
      = [⟨Rect.unit (s := S8192x128) (k0_off1 (grid0.coords t)) S2048x128.size (k0_off1_inb (grid0.coords t)),
          k0_pay15 (View.readAt (Elt F) (ms0_0 t).view (Rect.unit ![0, 0, 0] S1x2048x256.size inb_S1x2048x256_S1x2048x256_0_0_0).toLoadRect ((hs0_0 t).unread (iblk m c 0 t)))
            (View.readAt (Elt F) (ms0_1 t).view (Rect.unit ![0, 0] S256x384.size inb_S256x384_S256x384_0_0).toLoadRect ((hs0_1 t).unread (iblk m c 1 t)))⟩] := rfl

/-- The last tile's read of its own tile back from the cache does not depend on what the cache held. -/
theorem cacheRead3 (c : Dev nD) (t : Fin cfg0.N) (h1 : t.val % 4 = 3) (d d' : Vec F S8192x128 .bf16) :
    kernelRun0_C.sl.v132 (F := F) c (grid0.coords t) (ms0_0 t) (hs0_0 t) (ms0_1 t) (hs0_1 t) scM0_3 hscM0_3 (iblk m c 0 t) (iblk m c 1 t) d
      = kernelRun0_C.sl.v132 (F := F) c (grid0.coords t) (ms0_0 t) (hs0_0 t) (ms0_1 t) (hs0_1 t) scM0_3 hscM0_3 (iblk m c 0 t) (iblk m c 1 t) d' := by
  have hoff : k0_off1 (grid0.coords t) = ![2048 * (3 : Fin 4).val, 0] := by
    rw [k0_off1_at t, h1]; rfl
  unfold kernelRun0_C.sl.v132; rw [cachePiece_eq m c t]
  rw [tile3_after_store (F := F) scM0_3 (hscM0_3.unread d) (3 : Fin 4) _ hoff, tile3_after_store (F := F) scM0_3 (hscM0_3.unread d') (3 : Fin 4) _ hoff]
  rw [if_pos (show ((3 : Fin 4).val = 3) from rfl), if_pos (show ((3 : Fin 4).val = 3) from rfl)]

/-- Its reads of the three earlier tiles are the cache's tiles. -/
theorem cacheRead2 (c : Dev nD) (t : Fin cfg0.N) (h1 : t.val % 4 = 3) (d d' : Vec F S8192x128 .bf16)
    (e2 : VS0_3.readAt (Elt F) rq2.toLoadRect (hscM0_3.unread d) = VS0_3.readAt (Elt F) rq2.toLoadRect (hscM0_3.unread d')) :
    kernelRun0_C.sl.v125 (F := F) c (grid0.coords t) (ms0_0 t) (hs0_0 t) (ms0_1 t) (hs0_1 t) scM0_3 hscM0_3 (iblk m c 0 t) (iblk m c 1 t) d
      = kernelRun0_C.sl.v125 (F := F) c (grid0.coords t) (ms0_0 t) (hs0_0 t) (ms0_1 t) (hs0_1 t) scM0_3 hscM0_3 (iblk m c 0 t) (iblk m c 1 t) d' := by
  have hoff : k0_off1 (grid0.coords t) = ![2048 * (3 : Fin 4).val, 0] := by
    rw [k0_off1_at t, h1]; rfl
  unfold kernelRun0_C.sl.v125; rw [cachePiece_eq m c t]
  rw [tile2_after_store (F := F) scM0_3 (hscM0_3.unread d) (3 : Fin 4) _ hoff, tile2_after_store (F := F) scM0_3 (hscM0_3.unread d') (3 : Fin 4) _ hoff]
  rw [if_neg (show ¬((3 : Fin 4).val = 2) by decide), if_neg (show ¬((3 : Fin 4).val = 2) by decide)]
  exact e2

theorem cacheRead1 (c : Dev nD) (t : Fin cfg0.N) (h1 : t.val % 4 = 3) (d d' : Vec F S8192x128 .bf16) (s : St F)
    (e1 : VS0_3.readAt (Elt F) rq1.toLoadRect (hscM0_3.unread d) = VS0_3.readAt (Elt F) rq1.toLoadRect (hscM0_3.unread d')) :
    kernelRun0_C.sl.r_7 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 hscM0_3 (iblk m c 0 t) (iblk m c 1 t) (iblk m c 2 t) (iblk m c 3 t) s.1 s.2.1 s.2.2 d
      = kernelRun0_C.sl.r_7 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 hscM0_3 (iblk m c 0 t) (iblk m c 1 t) (iblk m c 2 t) (iblk m c 3 t) s.1 s.2.1 s.2.2 d' := by
  have hoff : k0_off1 (grid0.coords t) = ![2048 * (3 : Fin 4).val, 0] := by
    rw [k0_off1_at t, h1]; rfl
  unfold kernelRun0_C.sl.r_7; rw [cachePiece_eq m c t]
  refine congrArg (k0_pay9 _ _ _ _) ?_
  rw [tile1_after_store (F := F) scM0_3 (hscM0_3.unread d) (3 : Fin 4) _ hoff, tile1_after_store (F := F) scM0_3 (hscM0_3.unread d') (3 : Fin 4) _ hoff]
  rw [if_neg (show ¬((3 : Fin 4).val = 1) by decide), if_neg (show ¬((3 : Fin 4).val = 1) by decide)]
  exact e1

theorem cacheRead0 (c : Dev nD) (t : Fin cfg0.N) (h1 : t.val % 4 = 3) (d d' : Vec F S8192x128 .bf16)
    (e0 : VS0_3.readAt (Elt F) rq0.toLoadRect (hscM0_3.unread d) = VS0_3.readAt (Elt F) rq0.toLoadRect (hscM0_3.unread d')) :
    View.readAt (Elt F) scM0_3.view (Rect.unit (s := S8192x128) ![0, 0] S2048x128.size inb_S8192x128_S2048x128_0_0).toLoadRect
        (scM0_3.view.writes (Elt F) (hscM0_3.unread d) (kernelRun0_C.sl.HS3_1 (F := F) c (grid0.coords t) (ms0_0 t) (hs0_0 t) (ms0_1 t) (hs0_1 t) (iblk m c 0 t) (iblk m c 1 t)))
      = View.readAt (Elt F) scM0_3.view (Rect.unit (s := S8192x128) ![0, 0] S2048x128.size inb_S8192x128_S2048x128_0_0).toLoadRect
        (scM0_3.view.writes (Elt F) (hscM0_3.unread d') (kernelRun0_C.sl.HS3_1 (F := F) c (grid0.coords t) (ms0_0 t) (hs0_0 t) (ms0_1 t) (hs0_1 t) (iblk m c 0 t) (iblk m c 1 t))) := by
  have hoff : k0_off1 (grid0.coords t) = ![2048 * (3 : Fin 4).val, 0] := by
    rw [k0_off1_at t, h1]; rfl
  rw [cachePiece_eq m c t]
  rw [tile0_after_store (F := F) scM0_3 (hscM0_3.unread d) (3 : Fin 4) _ hoff, tile0_after_store (F := F) scM0_3 (hscM0_3.unread d') (3 : Fin 4) _ hoff]
  rw [if_neg (show ¬((3 : Fin 4).val = 0) by decide), if_neg (show ¬((3 : Fin 4).val = 0) by decide)]
  exact e0

/-- Two cache contents with the same first three tiles give the same output block. -/
theorem out4_congr (c : Dev nD) (t : Fin cfg0.N) (h0 : ¬t.val % 4 = 0) (h1 : t.val % 4 = 3) (d d' : Vec F S8192x128 .bf16)
    (e0 : VS0_3.readAt (Elt F) rq0.toLoadRect (hscM0_3.unread d) = VS0_3.readAt (Elt F) rq0.toLoadRect (hscM0_3.unread d'))
    (e1 : VS0_3.readAt (Elt F) rq1.toLoadRect (hscM0_3.unread d) = VS0_3.readAt (Elt F) rq1.toLoadRect (hscM0_3.unread d'))
    (e2 : VS0_3.readAt (Elt F) rq2.toLoadRect (hscM0_3.unread d) = VS0_3.readAt (Elt F) rq2.toLoadRect (hscM0_3.unread d')) :
    out4 m c t h0 h1 d = out4 m c t h0 h1 d' := by
  have k0 := cacheRead0 m c t h1 d d' e0
  dsimp only at k0
  unfold out4
  refine congrArg (fun L => rd4 L) ?_
  unfold runC kernelRun0_C; dsimp only
  rw [cacheRead3 m c t h1 d d', cacheRead2 m c t h1 d d' e2, cacheRead1 m c t h1 d d' (prevSt m c t) e1, k0]

end Cert.KernelIdeal.Body

end
-- ==== Proof.KI.TileValue.lean ====
/-
  The tiles of scaled queries the first and middle tiles of a batch row store into the query cache: each is the
  scaled-query payload of the point's input block and fused weight block, and at an index it is the scaled query
  of the specification at the point's batch row and the tile's row.
-/
import proofs.«425081_j79276506350102_3_alg».proof.Proof.KI.FrameDefs
import proofs.«425081_j79276506350102_3_alg».proof.Proof.PayTile
import proofs.«425081_j79276506350102_3_alg».proof.Proof.Blocks
import proofs.«425081_j79276506350102_3_alg».proof.Proof.AttnArrays
import Idealize.ShloMosaic.Lib.Tactic

set_option maxRecDepth 16384

noncomputable section

namespace Cert.KernelIdeal.Body

open Idealize.ShloMosaic Idealize.ShloMosaic.TcCoe Idealize.ShloMosaic.Tactic Idealize.ShloMosaic.ValueIdx
open Idealize.SL.Sem
open Cert.KernelIdeal Cert.KernelIdeal.Gen

/-! ## The stored tile is the scaled-query payload of the point's blocks -/

section AnyInstance
variable {F : FTy → Type} [FloatOps F]
variable (m : (ℓ : Loc nD τ sig) → Buf (Elt F) ℓ) (c : Dev nD)

private theorem zero2 : (![0, 0] : Fin 2 → ℕ) = fun _ => 0 := by funext a; fin_cases a <;> rfl
private theorem zero3 : (![0, 0, 0] : Fin 3 → ℕ) = fun _ => 0 := by funext a; fin_cases a <;> rfl

/-- At the first tile of a batch row. -/
theorem qtileAt_A (t : Fin cfg0.N) (h0 : t.val % 4 = 0) :
    qtileAt m c t = k0_pay15 (iblk m c 0 t) (iblk m c 1 t) := by
  unfold qtileAt
  rw [dif_pos h0]
  unfold runA kernelRun0_A
  dsimp only
  sl_unfold_words
  simp only [View.readAt_eq_ld, Memref.IsWhole.read_unread, View.ld_unit_zero (S := S1x2048x256) zero3,
    View.ld_unit_zero (S := S256x384) zero2]

/-- At a middle tile of a batch row. -/
theorem qtileAt_B (t : Fin cfg0.N) (h0 : ¬t.val % 4 = 0) (h1 : ¬t.val % 4 = 3) :
    qtileAt m c t = k0_pay15 (iblk m c 0 t) (iblk m c 1 t) := by
  unfold qtileAt
  rw [dif_neg h0, dif_neg h1]
  unfold runB kernelRun0_B
  dsimp only
  sl_unfold_words
  simp only [View.readAt_eq_ld, Memref.IsWhole.read_unread, View.ld_unit_zero (S := S1x2048x256) zero3,
    View.ld_unit_zero (S := S256x384) zero2]

end AnyInstance

/-! ## The stored tile at an index: the specification's scaled query -/

section AtIdeal
open Cert.LinAttn Cert.KernelIdeal.Blocks
variable (m : (ℓ : Loc nD τ sig) → Buf (Elt Ideal) ℓ) (c : Dev nD)

/-- The tile stored at position `k` (not the last tile of its batch row), at row `r` and channel `ch`, is the scaled
    query of batch row `k / 4` at sequence row `2048 (k % 4) + r`. -/
theorem qtileN_value (k : ℕ) (hk : k < 64) (hk3 : k % 4 ≠ 3) (r : Fin 2048) (ch : Fin 128) :
    qtileN m c k (ix2 r ch)
      = qv (cur3 (n0 := 16) (n1 := 8192) (n2 := 256) (m ((c : Thread nD τ).loc main_arg0)))
          (cur2 (n0 := 256) (n1 := 384) (m ((c : Thread nD τ).loc main_arg1)))
          ⟨k / 4, by omega⟩ ⟨2048 * (k % 4) + r.val, by have := r.isLt; omega⟩ ch := by
  have hkN : k < cfg0.N := lt_of_lt_of_eq hk N_0.symm
  unfold qtileN
  rw [dif_pos hkN]
  have e : qtileAt m c ⟨k, hkN⟩ = k0_pay15 (xblk m c ⟨k, hkN⟩) (wblk m c ⟨k, hkN⟩) := by
    by_cases h0 : k % 4 = 0
    · exact qtileAt_A m c ⟨k, hkN⟩ h0
    · exact qtileAt_B m c ⟨k, hkN⟩ h0 hk3
  rw [e, PayAt.pay15_at]
  unfold qv proj
  refine congrArg (· * scale) (Finset.sum_congr rfl fun d _ => ?_)
  rw [xblk_at, wblk_at]
  rfl

end AtIdeal

end Cert.KernelIdeal.Body

end
-- ==== Proof.PayFinal.lean ====
/-
  The payloads of the last grid step of a batch row, read at an index over the extended reals.

  At the last step the kernel divides the running 128 x 32 accumulator by the running sum (a [1, 128] row, turned into
  a column and spread over the 32 columns), folds the result into the output weights head by head (four 32 x 32 by
  32 x 256 products, laid one under the other), and applies the scaled queries of each 2048-row tile to the folded
  weights, adding the bias row. Read at one element these are finite sums:

  * the folded weights at (c, D): the sum over the 32 columns `e` of the head of channel `c` of
    (acc (c, e) / l4 c) * wout (32 (c / 32) + e, D)   (`pay6_at`);
  * a stored output tile at (r, D): the sum over the 128 channels `c` of q (r, c) * folded (c, D), plus bias D
    (`pay8_at`, `pay9_at`, and `pay4_at` / `pay5_at` over named folded weights and bias);
  * the shape casts that only add the leading unit axis, or none, read through (`pay3_at`, `pay7_eq`).

  A product into the zero accumulator is the sum over its one contracted axis; a narrowing of the float format is
  the identity on extended reals; a slice, a transpose, a broadcast and a concatenation each read one element of
  their operand.
-/
import proofs.«425081_j79276506350102_3_alg».proof.Proof.Gen.KernelIdeal.Skeleton
import proofs.«425081_j79276506350102_3_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Idealize.ShloMosaic Idealize.ShloMosaic.ValueIdx Cert.KernelIdeal Cert.KernelIdeal.Gen Cert.LinAttn

namespace Final

/-! ## The 2048 x 128 by 128 x 256 product read at an index -/

theorem lhs_big_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_big_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_big_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_big_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Into the zero accumulator the product at (r, D) is the sum over the 128 contracted channels. -/
theorem matmul_big_at (lhs : FVec Ideal S2048x128 .bf16) (rhs : FVec Ideal S128x256 .bf16) (r : Fin 2048) (D : Fin 256) :
    matmul dot_S2048x128_S128x256_S2048x256_1_0_0_1_n_n none lhs rhs (constant (F := Ideal) S2048x256 .f32 0x00000000#32) (ix2 r D)
      = ∑ c : Fin 128, lhs (ix2 r c) * rhs (ix2 c D) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 r D) ((contrEquiv1 dot_S2048x128_S128x256_S2048x256_1_0_0_1_n_n 128 rfl rfl).symm k) = ix2 r k := funext fun a => Fin.ext (by
    match a with
    | ⟨0, _⟩ => exact lhs_big_0 _ _
    | ⟨1, _⟩ => exact (lhs_big_1 _ _).trans hk)
  have er : dot_S2048x128_S128x256_S2048x256_1_0_0_1_n_n.rhsIdx (ix2 r D) ((contrEquiv1 dot_S2048x128_S128x256_S2048x256_1_0_0_1_n_n 128 rfl rfl).symm k) = ix2 k D := funext fun a => Fin.ext (by
    match a with
    | ⟨0, _⟩ => exact (rhs_big_0 _ _).trans hk
    | ⟨1, _⟩ => exact rhs_big_1 _ _)
  rw [el, er]

/-! ## The 32 x 32 by 32 x 256 product of one head read at an index -/

theorem lhs_head_0 (i : S32x256.Idx) (q : dot_S32x32_S32x256_S32x256_1_0_0_1_n_n.contr.Idx) :
    (dot_S32x32_S32x256_S32x256_1_0_0_1_n_n.lhsIdx i q 0).val = (i 0).val := by
  unfold DotDims.lhsIdx
  rw [dif_neg (show ¬(0 : Fin S32x32.rank) ∈ dot_S32x32_S32x256_S32x256_1_0_0_1_n_n.lhsBatch by decide), dif_pos (show (0 : Fin S32x32.rank) ∈ dot_S32x32_S32x256_S32x256_1_0_0_1_n_n.lhsNonContracting by decide)]
  rfl
theorem lhs_head_1 (i : S32x256.Idx) (q : dot_S32x32_S32x256_S32x256_1_0_0_1_n_n.contr.Idx) :
    (dot_S32x32_S32x256_S32x256_1_0_0_1_n_n.lhsIdx i q 1).val = (q ⟨0, by decide⟩).val :=
  dot_S32x32_S32x256_S32x256_1_0_0_1_n_n.lhsIdx_val_of_single rfl i q
theorem rhs_head_0 (i : S32x256.Idx) (q : dot_S32x32_S32x256_S32x256_1_0_0_1_n_n.contr.Idx) :
    (dot_S32x32_S32x256_S32x256_1_0_0_1_n_n.rhsIdx i q 0).val = (q ⟨0, by decide⟩).val :=
  dot_S32x32_S32x256_S32x256_1_0_0_1_n_n.rhsIdx_val_of_single rfl i q
theorem rhs_head_1 (i : S32x256.Idx) (q : dot_S32x32_S32x256_S32x256_1_0_0_1_n_n.contr.Idx) :
    (dot_S32x32_S32x256_S32x256_1_0_0_1_n_n.rhsIdx i q 1).val = (i 1).val := by
  unfold DotDims.rhsIdx
  rw [dif_neg (show ¬(1 : Fin S32x256.rank) ∈ dot_S32x32_S32x256_S32x256_1_0_0_1_n_n.rhsBatch by decide), dif_pos (show (1 : Fin S32x256.rank) ∈ dot_S32x32_S32x256_S32x256_1_0_0_1_n_n.rhsNonContracting by decide)]
  rfl

/-- Into the zero accumulator the head's product at (r, D) is the sum over its 32 columns. -/
theorem matmul_head_at (lhs : FVec Ideal S32x32 .bf16) (rhs : FVec Ideal S32x256 .bf16) (r : Fin 32) (D : Fin 256) :
    matmul dot_S32x32_S32x256_S32x256_1_0_0_1_n_n none lhs rhs (constant (F := Ideal) S32x256 .f32 0x00000000#32) (ix2 r D)
      = ∑ e : Fin 32, lhs (ix2 r e) * rhs (ix2 e D) := by
  simp only [matmul]
  rw [Ideal.matmul_constant_zero_apply, ← Equiv.sum_comp (contrEquiv1 dot_S32x32_S32x256_S32x256_1_0_0_1_n_n 32 rfl rfl).symm]
  refine Finset.sum_congr rfl fun k _ => ?_
  have hk := contrEquiv1_symm_val dot_S32x32_S32x256_S32x256_1_0_0_1_n_n 32 rfl rfl k
  have el : dot_S32x32_S32x256_S32x256_1_0_0_1_n_n.lhsIdx (ix2 r D) ((contrEquiv1 dot_S32x32_S32x256_S32x256_1_0_0_1_n_n 32 rfl rfl).symm k) = ix2 r k := funext fun a => Fin.ext (by
    match a with
    | ⟨0, _⟩ => exact lhs_head_0 _ _
    | ⟨1, _⟩ => exact (lhs_head_1 _ _).trans hk)
  have er : dot_S32x32_S32x256_S32x256_1_0_0_1_n_n.rhsIdx (ix2 r D) ((contrEquiv1 dot_S32x32_S32x256_S32x256_1_0_0_1_n_n 32 rfl rfl).symm k) = ix2 k D := funext fun a => Fin.ext (by
    match a with
    | ⟨0, _⟩ => exact (rhs_head_0 _ _).trans hk
    | ⟨1, _⟩ => exact rhs_head_1 _ _)
  rw [el, er]

/-! ## The context folded into the output weights, head by head -/

/-- The running sum's row, turned into a column and spread over the 32 columns: at (c, e) it is the row at c. -/
theorem sumcol_at (l4 : FVec Ideal S1x128 .f32) (ht : S1x128.Transposes [1, 0] S128x1) (hb : S128x1.Broadcasts S128x32)
    (c : Fin 128) (e : Fin 32) :
    broadcastTo S128x32 (transpose S128x1 [1, 0] l4 ht) hb (ix2 c e) = l4 (ix2 (0 : Fin 1) c) := by
  refine (broadcastTo_apply _ hb (ix2 c e) (ix2 c (0 : Fin 1)) fun ax => ?_).trans (transpose_ix2_apply l4 ht c (0 : Fin 1))
  match ax with
  | ⟨0, _⟩ => rfl
  | ⟨1, _⟩ => rfl

/-- The accumulator divided by that column. -/
theorem scaled_at (l4 : FVec Ideal S1x128 .f32) (acc : FVec Ideal S128x32 .f32) (ht : S1x128.Transposes [1, 0] S128x1)
    (hb : S128x1.Broadcasts S128x32) (c : Fin 128) (e : Fin 32) :
    divf acc (broadcastTo S128x32 (transpose S128x1 [1, 0] l4 ht) hb) (ix2 c e)
      = Ideal.div (acc (ix2 c e)) (l4 (ix2 (0 : Fin 1) c)) := by
  refine (divf_apply _ _ _).trans ?_
  rw [sumcol_at l4 ht hb c e]

/-- Column `e` of the head of channel `32 h + r` is channel `32 h + e`. -/
theorem hcol_hch (h : Fin 4) (r e : Fin 32) : hcol (hch h r) e = hch h e :=
  Fin.ext (by
    have := r.isLt
    show (32 * h.val + r.val) / 32 * 32 + e.val = 32 * h.val + e.val
    omega)

/-- Four 32-row pieces laid one under the other: row `32 h + r` of the whole is row `r` of piece `h`. -/
theorem concat4_at {α : Type} (x0 x1 x2 x3 : S32x256.Idx → α)
    (hc : Shape.Concatenates [S32x256, S32x256, S32x256, S32x256] S128x256 0) (r : Fin 32) (D : Fin 256) :
    concatenate S128x256 0 [⟨S32x256, x0⟩, ⟨S32x256, x1⟩, ⟨S32x256, x2⟩, ⟨S32x256, x3⟩] hc (ix2 (hch 0 r) D) = x0 (ix2 r D)
    ∧ concatenate S128x256 0 [⟨S32x256, x0⟩, ⟨S32x256, x1⟩, ⟨S32x256, x2⟩, ⟨S32x256, x3⟩] hc (ix2 (hch 1 r) D) = x1 (ix2 r D)
    ∧ concatenate S128x256 0 [⟨S32x256, x0⟩, ⟨S32x256, x1⟩, ⟨S32x256, x2⟩, ⟨S32x256, x3⟩] hc (ix2 (hch 2 r) D) = x2 (ix2 r D)
    ∧ concatenate S128x256 0 [⟨S32x256, x0⟩, ⟨S32x256, x1⟩, ⟨S32x256, x2⟩, ⟨S32x256, x3⟩] hc (ix2 (hch 3 r) D) = x3 (ix2 r D) := by
  have hi : ∀ (h : Fin 4) (b : Fin S32x256.rank), b.cast (rfl : S32x256.rank = S128x256.rank) ≠ (0 : Fin S128x256.rank) →
      ((ix2 r D : S32x256.Idx) b).val = ((ix2 (hch h r) D : S128x256.Idx) (b.cast rfl)).val := fun h b hb => by
    match b with
    | ⟨0, _⟩ => exact absurd rfl hb
    | ⟨1, _⟩ => rfl
  refine ⟨?_, ?_, ?_, ?_⟩
  · exact concatenate_apply_piece 0 [⟨S32x256, x0⟩, ⟨S32x256, x1⟩, ⟨S32x256, x2⟩, ⟨S32x256, x3⟩] hc _ 0 (by simp)
      S32x256 x0 rfl rfl 0 rfl (ix2 r D) (hi 0) (by simp [hch])
  · exact concatenate_apply_piece 0 [⟨S32x256, x0⟩, ⟨S32x256, x1⟩, ⟨S32x256, x2⟩, ⟨S32x256, x3⟩] hc _ 1 (by simp)
      S32x256 x1 rfl rfl 32 rfl (ix2 r D) (hi 1) (by simp [hch])
  · exact concatenate_apply_piece 0 [⟨S32x256, x0⟩, ⟨S32x256, x1⟩, ⟨S32x256, x2⟩, ⟨S32x256, x3⟩] hc _ 2 (by simp)
      S32x256 x2 rfl rfl 64 rfl (ix2 r D) (hi 2) (by simp [hch])
  · exact concatenate_apply_piece 0 [⟨S32x256, x0⟩, ⟨S32x256, x1⟩, ⟨S32x256, x2⟩, ⟨S32x256, x3⟩] hc _ 3 (by simp)
      S32x256 x3 rfl rfl 96 rfl (ix2 r D) (hi 3) (by simp [hch])

/-- One head's block read at (r, D): rows `o ..` of the accumulator over the running sum (narrowed, the identity
    here) times rows `o ..` of the output weights. With `c` the row `o + r` and `w e` the row `o + e`, it is the sum
    over the head's 32 columns of (acc (c, e) / l4 c) * wout (w e, D). -/
theorem head_rows_at (l4 : FVec Ideal S1x128 .f32) (acc : FVec Ideal S128x32 .f32) (wout : FVec Ideal S128x256 .bf16)
    (o : Nat) (ht : S1x128.Transposes [1, 0] S128x1) (hbr : S128x1.Broadcasts S128x32)
    (hsc : S128x256.ShapeCasts S128x256) (hX : S128x32.Slices ![o, 0] S32x32) (hW : S128x256.Slices ![o, 0] S32x256)
    (hb : FTy.bits .bf16 < FTy.bits .f32) (r : Fin 32) (D : Fin 256)
    (c : Fin 128) (hc : c.val = o + r.val) (w : Fin 32 → Fin 128) (hw : ∀ e, (w e).val = o + e.val) :
    matmul dot_S32x32_S32x256_S32x256_1_0_0_1_n_n none
        (truncf .bf16 (extractStridedSlice S32x32 ![o, 0]
          (divf acc (broadcastTo S128x32 (transpose S128x1 [1, 0] l4 ht) hbr)) hX) hb)
        (extractStridedSlice S32x256 ![o, 0] (shapeCast S128x256 wout hsc) hW)
        (constant (F := Ideal) S32x256 .f32 0x00000000#32) (ix2 r D)
      = ∑ e : Fin 32, Ideal.div (acc (ix2 c e)) (l4 (ix2 (0 : Fin 1) c)) * wout (ix2 (w e) D) := by
  refine (matmul_head_at _ _ r D).trans ?_
  refine Finset.sum_congr rfl fun e _ => ?_
  refine congrArg₂ (· * ·) ?_ ?_
  · refine (truncf_apply _ hb _).trans ?_
    refine (slice2_axis0_apply o _ hX r e c hc).trans ?_
    exact scaled_at l4 acc ht hbr c e
  · refine (slice2_axis0_apply o _ hW e D (w e) (hw e)).trans ?_
    exact congrFun (shapeCast_self wout hsc) _

end Final

open Final

variable (l4 : Vec Ideal S1x128 .f32) (acc : Vec Ideal S128x32 .f32) (wout : Vec Ideal S128x256 .bf16) (bias : Vec Ideal S1x256 .f32) (qc : Vec Ideal S2048x128 .bf16)

/-! ## The folded weights -/

/-- Row `32 h + r` of the folded weights: the sum over the 32 columns of head `h`. -/
theorem pay6_head (h : Fin 4) (r : Fin 32) (D : Fin 256) :
    k0_pay6 l4 acc wout (ix2 (hch h r) D)
      = ∑ e : Fin 32, Ideal.div (acc (ix2 (hch h r) e)) (l4 (ix2 (0 : Fin 1) (hch h r))) * wout (ix2 (hch h e) D) := by
  unfold k0_pay6
  refine (truncf_apply (φ := .f32) _ bitsLt_bf16_f32 _).trans ?_
  fin_cases h
  · exact ((concat4_at _ _ _ _ _ r D).1).trans
      (head_rows_at l4 acc wout 0 _ _ _ _ _ _ r D _ (by simp [hch]) (fun e => hch 0 e) (fun e => by simp [hch]))
  · exact ((concat4_at _ _ _ _ _ r D).2.1).trans
      (head_rows_at l4 acc wout 32 _ _ _ _ _ _ r D _ (by simp [hch]) (fun e => hch 1 e) (fun e => by simp [hch]))
  · exact ((concat4_at _ _ _ _ _ r D).2.2.1).trans
      (head_rows_at l4 acc wout 64 _ _ _ _ _ _ r D _ (by simp [hch]) (fun e => hch 2 e) (fun e => by simp [hch]))
  · exact ((concat4_at _ _ _ _ _ r D).2.2.2).trans
      (head_rows_at l4 acc wout 96 _ _ _ _ _ _ r D _ (by simp [hch]) (fun e => hch 3 e) (fun e => by simp [hch]))

/-- Row `c` of the folded weights, over the columns of the head `c` lies in. -/
theorem pay6_at (c : Fin 128) (D : Fin 256) : k0_pay6 l4 acc wout (ix2 c D) = ∑ e : Fin 32, Ideal.div (acc (ix2 c e)) (l4 (ix2 0 c)) * wout (ix2 (hcol c e) D) := by
  obtain ⟨h, r, rfl⟩ : ∃ (h : Fin 4) (r : Fin 32), c = hch h r :=
    ⟨⟨c.val / 32, by have := c.isLt; omega⟩, ⟨c.val % 32, Nat.mod_lt _ (by norm_num)⟩,
      Fin.ext (by show c.val = 32 * (c.val / 32) + c.val % 32; omega)⟩
  refine (pay6_head l4 acc wout h r D).trans ?_
  refine Finset.sum_congr rfl fun e _ => ?_
  rw [hcol_hch]

/-- The bias row's cast keeps its shape. -/
theorem pay7_eq (v : Vec Ideal S1x256 .f32) : k0_pay7 v = v := by
  unfold k0_pay7
  exact shapeCast_self v _

/-! ## The stored output tiles -/

/-- The first tile's output at (r, D): the scaled queries against the folded weights, plus the bias. -/
theorem pay8_at (r : Fin 2048) (D : Fin 256) : k0_pay8 l4 acc wout bias qc (ix3 0 r D) = (∑ c : Fin 128, qc (ix2 r c) * k0_pay6 l4 acc wout (ix2 c D)) + bias (ix2 0 D) := by
  unfold k0_pay8
  refine (shapeCast_ab_1ab_apply _ _ 0 r D).trans ?_
  refine (addf_apply _ _ _).trans ?_
  exact congrArg₂ (· + ·) (matmul_big_at qc (k0_pay6 l4 acc wout) r D)
    ((broadcastTo_1b_ab_apply (k0_pay7 bias) _ r D).trans (congrFun (pay7_eq bias) _))

/-- The second tile's output at (r, D), before the leading unit axis is added. -/
theorem pay9_at (r : Fin 2048) (D : Fin 256) : k0_pay9 l4 acc wout bias qc (ix2 r D) = (∑ c : Fin 128, qc (ix2 r c) * k0_pay6 l4 acc wout (ix2 c D)) + bias (ix2 0 D) := by
  unfold k0_pay9
  refine (addf_apply _ _ _).trans ?_
  exact congrArg₂ (· + ·) (matmul_big_at qc (k0_pay6 l4 acc wout) r D)
    ((broadcastTo_1b_ab_apply (k0_pay7 bias) _ r D).trans (congrFun (pay7_eq bias) _))

/-- Adding the leading unit axis to a tile reads it through. -/
theorem pay3_at (v : FVec Ideal S2048x256 .f32) (r : Fin 2048) (D : Fin 256) : k0_pay3 v (ix3 0 r D) = v (ix2 r D) := by
  unfold k0_pay3
  exact shapeCast_ab_1ab_apply v _ 0 r D

/-- The third tile's output at (r, D), over named folded weights and bias. -/
theorem pay4_at (v108 : FVec Ideal S128x256 .bf16) (v110 : FVec Ideal S1x256 .f32) (r : Fin 2048) (D : Fin 256) : k0_pay4 v108 v110 qc (ix3 0 r D) = (∑ c : Fin 128, qc (ix2 r c) * v108 (ix2 c D)) + v110 (ix2 0 D) := by
  unfold k0_pay4
  refine (shapeCast_ab_1ab_apply _ _ 0 r D).trans ?_
  refine (addf_apply _ _ _).trans ?_
  exact congrArg₂ (· + ·) (matmul_big_at qc v108 r D) (broadcastTo_1b_ab_apply v110 _ r D)

/-- The fourth tile's output at (r, D), likewise. -/
theorem pay5_at (v108 : FVec Ideal S128x256 .bf16) (v110 : FVec Ideal S1x256 .f32) (r : Fin 2048) (D : Fin 256) : k0_pay5 v108 v110 qc (ix3 0 r D) = (∑ c : Fin 128, qc (ix2 r c) * v108 (ix2 c D)) + v110 (ix2 0 D) := by
  unfold k0_pay5
  refine (shapeCast_ab_1ab_apply _ _ 0 r D).trans ?_
  refine (addf_apply _ _ _).trans ?_
  exact congrArg₂ (· + ·) (matmul_big_at qc v108 r D) (broadcastTo_1b_ab_apply v110 _ r D)

end Cert.KernelIdeal.PayAt

end
-- ==== Proof.KI.OutValue.lean ====
/-
  The output block the last tile of a batch row writes is the specification's online value.

  At the last tile the body has just stored its new running sum and accumulator and its own tile of scaled queries;
  it folds the context (accumulator over running sum) into the output weights and applies the four cached query
  tiles to the folded weights, adding the bias, one 2048-row tile of the output block per store. Read at an element:
  the stored tile j at (r, D) is the sum over the channels of the scaled query of row 2048 j + r times the folded
  weight at (channel, D), plus the bias at D — the online pass's value at that row, once the running sum and the
  accumulator after the point are the specification's after four tiles. The four stores tile the block.
-/
import proofs.«425081_j79276506350102_3_alg».proof.Proof.KI.FrameDefs
import proofs.«425081_j79276506350102_3_alg».proof.Proof.KI.OutCongr
import proofs.«425081_j79276506350102_3_alg».proof.Proof.KI.TileValue
import proofs.«425081_j79276506350102_3_alg».proof.Proof.PayTile
import proofs.«425081_j79276506350102_3_alg».proof.Proof.PayFinal
import proofs.«425081_j79276506350102_3_alg».proof.Proof.Blocks
import proofs.«425081_j79276506350102_3_alg».proof.Proof.AttnArrays
import Idealize.ShloMosaic.Lib.Tactic

set_option maxRecDepth 16384

noncomputable section

namespace Cert.KernelIdeal.Body

open Idealize.ShloMosaic Idealize.ShloMosaic.TcCoe Idealize.ShloMosaic.Tactic Idealize.ShloMosaic.ValueIdx
open Idealize.SL.Sem
open Cert.KernelIdeal Cert.KernelIdeal.Gen Cert.LinAttn Cert.KernelIdeal.Blocks

variable (m : (ℓ : Loc nD τ sig) → Buf (Elt Ideal) ℓ) (c : Dev nD)

private theorem zero2 : (![0, 0] : Fin 2 → ℕ) = fun _ => 0 := by funext a; fin_cases a <;> rfl
private theorem zero3 : (![0, 0, 0] : Fin 3 → ℕ) = fun _ => 0 := by funext a; fin_cases a <;> rfl

/-! ## What the last tile reads back of its own running sum and accumulator -/

/-- The running sum the point has just stored, read back whole, is the point's new running sum. -/
theorem sumRead_eq (t : Fin cfg0.N) (h0 : ¬t.val % 4 = 0) (h1 : t.val % 4 = 3) (s : St Ideal) :
    kernelRun0_C.sl.v84 (F := Ideal) c (ms0_0 t) (hs0_0 t) (ms0_1 t) (hs0_1 t) scM0_0 (Memref.isWhole_whole _) scM0_1 (Memref.isWhole_whole _) (iblk m c 0 t) (iblk m c 1 t) s.1 s.2.1 = (stepC m c t h0 h1 s).2.1 := by
  unfold kernelRun0_C.sl.v84 stepC rd1 runC kernelRun0_C
  dsimp only
  unfold View.readCov
  rw [View.readAt_eq_ld, View.ld_unit_zero (S := S1x128) zero2]

/-- The accumulator the point has just stored, read back whole, is the point's new accumulator. -/
theorem accRead_eq (t : Fin cfg0.N) (h0 : ¬t.val % 4 = 0) (h1 : t.val % 4 = 3) (s : St Ideal) :
    kernelRun0_C.sl.v86 (F := Ideal) c (ms0_0 t) (hs0_0 t) (ms0_1 t) (hs0_1 t) scM0_0 (Memref.isWhole_whole _) scM0_2 (Memref.isWhole_whole _) (iblk m c 0 t) (iblk m c 1 t) s.1 s.2.2 = (stepC m c t h0 h1 s).2.2 := by
  unfold kernelRun0_C.sl.v86 stepC rd2 runC kernelRun0_C
  dsimp only
  unfold View.readCov
  rw [View.readAt_eq_ld, View.ld_unit_zero (S := S128x32) zero2]

/-! ## What the last tile reads back of the query cache -/

private theorem off3 (t : Fin cfg0.N) (h1 : t.val % 4 = 3) : k0_off1 (grid0.coords t) = ![2048 * (3 : Fin 4).val, 0] := by
  rw [k0_off1_at t, h1]; rfl

/-- Its own tile: the scaled-query payload of the point's blocks, whatever the cache held. -/
theorem cacheRead3_value (t : Fin cfg0.N) (h1 : t.val % 4 = 3) (d : Vec Ideal S8192x128 .bf16) :
    kernelRun0_C.sl.v132 (F := Ideal) c (grid0.coords t) (ms0_0 t) (hs0_0 t) (ms0_1 t) (hs0_1 t) scM0_3 hscM0_3 (iblk m c 0 t) (iblk m c 1 t) d = k0_pay15 (xblk m c t) (wblk m c t) := by
  unfold kernelRun0_C.sl.v132; rw [cachePiece_eq m c t]
  rw [tile3_after_store (F := Ideal) scM0_3 (hscM0_3.unread d) (3 : Fin 4) _ (off3 t h1)]
  rw [if_pos (show ((3 : Fin 4).val = 3) from rfl)]
  simp only [View.readAt_eq_ld, Memref.IsWhole.read_unread, View.ld_unit_zero (S := S1x2048x256) zero3,
    View.ld_unit_zero (S := S256x384) zero2]

/-- The third tile of the batch row, over the reference contents of the cache. -/
theorem cacheRead2_value (t : Fin cfg0.N) (h1 : t.val % 4 = 3) :
    kernelRun0_C.sl.v125 (F := Ideal) c (grid0.coords t) (ms0_0 t) (hs0_0 t) (ms0_1 t) (hs0_1 t) scM0_3 hscM0_3 (iblk m c 0 t) (iblk m c 1 t) (qsel m c t) = qtileN m c (4 * (t.val / 4) + 2) := by
  unfold kernelRun0_C.sl.v125; rw [cachePiece_eq m c t]
  rw [tile2_after_store (F := Ideal) scM0_3 (hscM0_3.unread (qsel m c t)) (3 : Fin 4) _ (off3 t h1)]
  rw [if_neg (show ¬((3 : Fin 4).val = 2) by decide)]
  exact (qsel_spec m c t).2.2

/-- The second tile. -/
theorem cacheRead1_value (t : Fin cfg0.N) (h1 : t.val % 4 = 3) :
    View.readAt (Elt Ideal) scM0_3.view (Rect.unit (s := S8192x128) ![2048, 0] S2048x128.size inb_S8192x128_S2048x128_2048_0).toLoadRect
        (scM0_3.view.writes (Elt Ideal) (hscM0_3.unread (qsel m c t)) (kernelRun0_C.sl.HS3_1 (F := Ideal) c (grid0.coords t) (ms0_0 t) (hs0_0 t) (ms0_1 t) (hs0_1 t) (iblk m c 0 t) (iblk m c 1 t))) = qtileN m c (4 * (t.val / 4) + 1) := by
  rw [cachePiece_eq m c t]
  rw [tile1_after_store (F := Ideal) scM0_3 (hscM0_3.unread (qsel m c t)) (3 : Fin 4) _ (off3 t h1)]
  rw [if_neg (show ¬((3 : Fin 4).val = 1) by decide)]
  exact (qsel_spec m c t).2.1

/-- The first tile. -/
theorem cacheRead0_value (t : Fin cfg0.N) (h1 : t.val % 4 = 3) :
    View.readAt (Elt Ideal) scM0_3.view (Rect.unit (s := S8192x128) ![0, 0] S2048x128.size inb_S8192x128_S2048x128_0_0).toLoadRect
        (scM0_3.view.writes (Elt Ideal) (hscM0_3.unread (qsel m c t)) (kernelRun0_C.sl.HS3_1 (F := Ideal) c (grid0.coords t) (ms0_0 t) (hs0_0 t) (ms0_1 t) (hs0_1 t) (iblk m c 0 t) (iblk m c 1 t))) = qtileN m c (4 * (t.val / 4)) := by
  rw [cachePiece_eq m c t]
  rw [tile0_after_store (F := Ideal) scM0_3 (hscM0_3.unread (qsel m c t)) (3 : Fin 4) _ (off3 t h1)]
  rw [if_neg (show ¬((3 : Fin 4).val = 0) by decide)]
  exact (qsel_spec m c t).1

/-! ## The tiles' values: the specification's scaled queries -/

/-- An earlier tile of the batch row, at row `r` and channel `ch`. -/
theorem qtile_row (t : Fin cfg0.N) (j : ℕ) (hj : j < 3) (r : Fin 2048) (ch : Fin 128) (l : Fin 8192) (hl : l.val = 2048 * j + r.val) :
    qtileN m c (4 * (t.val / 4) + j) (ix2 r ch) = qv (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) l ch := by
  have ht := lt64 t
  refine (qtileN_value m c (4 * (t.val / 4) + j) (by omega) (by omega) r ch).trans ?_
  have e1 : (⟨(4 * (t.val / 4) + j) / 4, by omega⟩ : Fin 16) = (⟨t.val / 4, by have := lt64 t; omega⟩ : Fin 16) := Fin.ext (by show (4 * (t.val / 4) + j) / 4 = t.val / 4; omega)
  have e2 : (⟨2048 * ((4 * (t.val / 4) + j) % 4) + r.val, by have := r.isLt; omega⟩ : Fin 8192) = l :=
    Fin.ext (by show 2048 * ((4 * (t.val / 4) + j) % 4) + r.val = l.val; omega)
  exact congrArg₂ (fun a b => qv (cur3 (n0 := 16) (n1 := 8192) (n2 := 256) (m ((c : Thread nD τ).loc main_arg0))) (cur2 (n0 := 256) (n1 := 384) (m ((c : Thread nD τ).loc main_arg1))) a b ch) e1 e2

/-- The point's own tile, at row `r` and channel `ch`. -/
theorem qown_row (t : Fin cfg0.N) (h1 : t.val % 4 = 3) (r : Fin 2048) (ch : Fin 128) (l : Fin 8192) (hl : l.val = 2048 * 3 + r.val) :
    k0_pay15 (xblk m c t) (wblk m c t) (ix2 r ch) = qv (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) l ch := by
  rw [PayAt.pay15_at]
  unfold qv proj
  refine congrArg (· * scale) (Finset.sum_congr rfl fun d _ => ?_)
  rw [xblk_at, wblk_at]
  have e2 : (⟨2048 * (t.val % 4) + r.val, by have := r.isLt; omega⟩ : Fin 8192) = l :=
    Fin.ext (by show 2048 * (t.val % 4) + r.val = l.val; omega)
  rw [e2]
  rfl

/-! ## The specification's value from its parts -/

/-- The scaled queries of a row against the folded weights, plus the bias, is the online pass's value. -/
theorem out_of_parts (x : Fin 16 → Fin 8192 → Fin 256 → EReal) (w : Fin 256 → Fin 384 → EReal) (wo : Fin 128 → Fin 256 → EReal)
    (bo : Fin 256 → EReal) (b : Fin 16) (l : Fin 8192) (D : Fin 256) (qc fw : Fin 128 → EReal) (bias : EReal)
    (hq : ∀ ch, qc ch = qv x w b l ch) (hf : ∀ ch, fw ch = wbOnline x w wo b ch D) (hb : bias = bo D) :
    (∑ ch : Fin 128, qc ch * fw ch) + bias = outOnline x w wo bo b l D := by
  unfold outOnline
  rw [hb]
  exact congrArg (· + bo D) (Finset.sum_congr rfl fun ch _ => by rw [hq, hf])

/-! ## The folded weights and the bias at the last tile -/

/-- The folded weights the last tile computes from its new running sum and accumulator are the specification's. -/
theorem folded_value (hst : ∀ (t : Fin cfg0.N) (ch : Fin 128) (e : Fin 32),
      (outsAt0 m c t.val t.isLt).1 (ix2 0 ch) = runMax (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.1 (ix2 0 ch) = runSum (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.2 (ix2 ch e) = runAcc (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch e)
    (t : Fin cfg0.N) (h0 : ¬t.val % 4 = 0) (h1 : t.val % 4 = 3) (ch : Fin 128) (D : Fin 256) :
    k0_pay6 (kernelRun0_C.sl.v84 (F := Ideal) c (ms0_0 t) (hs0_0 t) (ms0_1 t) (hs0_1 t) scM0_0 (Memref.isWhole_whole _) scM0_1 (Memref.isWhole_whole _) (iblk m c 0 t) (iblk m c 1 t) (prevSt m c t).1 (prevSt m c t).2.1) (kernelRun0_C.sl.v86 (F := Ideal) c (ms0_0 t) (hs0_0 t) (ms0_1 t) (hs0_1 t) scM0_0 (Memref.isWhole_whole _) scM0_2 (Memref.isWhole_whole _) (iblk m c 0 t) (iblk m c 1 t) (prevSt m c t).1 (prevSt m c t).2.2) (View.readAt (Elt Ideal) (ms0_2 t).view (Rect.unit ![0, 0] S128x256.size inb_S128x256_S128x256_0_0).toLoadRect ((hs0_2 t).unread (iblk m c 2 t))) (ix2 ch D)
      = wbOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (⟨t.val / 4, by have := lt64 t; omega⟩ : Fin 16) ch D := by
  rw [sumRead_eq m c t h0 h1 (prevSt m c t), accRead_eq m c t h0 h1 (prevSt m c t), ← outsAt0_C m c t h0 h1]
  simp only [View.readAt_eq_ld, Memref.IsWhole.read_unread, View.ld_unit_zero (S := S128x256) zero2]
  rw [PayAt.pay6_at]
  unfold wbOnline ctxOnline
  refine Finset.sum_congr rfl fun e _ => ?_
  have hA := (hst t ch e).2.2
  have hL := (hst t ch e).2.1
  rw [h1] at hA hL
  exact congrArg₂ (· * ·) (congrArg₂ Ideal.div hA hL) (woblk_at m c t (hcol ch e) D)

/-- The bias row the last tile loads is the bias argument. -/
theorem bias_value (t : Fin cfg0.N) (D : Fin 256) :
    (View.readAt (Elt Ideal) (ms0_3 t).view (Rect.unit ![0, 0] S1x256.size inb_S1x256_S1x256_0_0).toLoadRect ((hs0_3 t).unread (iblk m c 3 t))) (ix2 0 D) = (cur1 (n0 := 256) (m ((c : Thread nD τ).loc main_arg3))) D := by
  have e : (ms0_3 t).view.read (Elt Ideal) ((hs0_3 t).unread (bblk m c t)) = bblk m c t := (hs0_3 t).read_unread _
  show View.ld ((ms0_3 t).view.read (Elt Ideal) ((hs0_3 t).unread (bblk m c t)))
    (Rect.unit (s := S1x256) ![0, 0] S1x256.size inb_S1x256_S1x256_0_0) (ix2 0 D) = _
  rw [e, View.ld_unit_zero (S := S1x256) zero2]
  exact bblk_at m c t D

/-! ## The four stored tiles of the output block -/

/-- The fourth tile (the point's own rows). -/
theorem piece3_value (hst : ∀ (t : Fin cfg0.N) (ch : Fin 128) (e : Fin 32),
      (outsAt0 m c t.val t.isLt).1 (ix2 0 ch) = runMax (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.1 (ix2 0 ch) = runSum (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.2 (ix2 ch e) = runAcc (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch e)
    (t : Fin cfg0.N) (h0 : ¬t.val % 4 = 0) (h1 : t.val % 4 = 3) (r : Fin 2048) (D : Fin 256) (l : Fin 8192) (hl : l.val = 2048 * 3 + r.val) :
    k0_pay5 (kernelRun0_C.sl.r_5 (F := Ideal) c (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (iblk m c 2 t) (prevSt m c t).1 (prevSt m c t).2.1 (prevSt m c t).2.2) (kernelRun0_C.sl.r_6 (F := Ideal) c (ms0_3 t) (hs0_3 t) (iblk m c 3 t)) (kernelRun0_C.sl.v132 (F := Ideal) c (grid0.coords t) (ms0_0 t) (hs0_0 t) (ms0_1 t) (hs0_1 t) scM0_3 hscM0_3 (iblk m c 0 t) (iblk m c 1 t) (qsel m c t)) (ix3 0 r D)
      = outOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (cur1 (n0 := 256) (m ((c : Thread nD τ).loc main_arg3))) (⟨t.val / 4, by have := lt64 t; omega⟩ : Fin 16) l D := by
  rw [PayAt.pay5_at]
  unfold kernelRun0_C.sl.r_5 kernelRun0_C.sl.r_6
  rw [PayAt.pay7_eq]
  refine out_of_parts _ _ _ _ _ l D _ _ _ (fun ch => ?_) (fun ch => folded_value m c hst t h0 h1 ch D) (bias_value m c t D)
  rw [cacheRead3_value m c t h1]
  exact qown_row m c t h1 r ch l hl

/-- The third tile. -/
theorem piece2_value (hst : ∀ (t : Fin cfg0.N) (ch : Fin 128) (e : Fin 32),
      (outsAt0 m c t.val t.isLt).1 (ix2 0 ch) = runMax (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.1 (ix2 0 ch) = runSum (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.2 (ix2 ch e) = runAcc (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch e)
    (t : Fin cfg0.N) (h0 : ¬t.val % 4 = 0) (h1 : t.val % 4 = 3) (r : Fin 2048) (D : Fin 256) (l : Fin 8192) (hl : l.val = 2048 * 2 + r.val) :
    k0_pay4 (kernelRun0_C.sl.r_5 (F := Ideal) c (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (iblk m c 2 t) (prevSt m c t).1 (prevSt m c t).2.1 (prevSt m c t).2.2) (kernelRun0_C.sl.r_6 (F := Ideal) c (ms0_3 t) (hs0_3 t) (iblk m c 3 t)) (kernelRun0_C.sl.v125 (F := Ideal) c (grid0.coords t) (ms0_0 t) (hs0_0 t) (ms0_1 t) (hs0_1 t) scM0_3 hscM0_3 (iblk m c 0 t) (iblk m c 1 t) (qsel m c t)) (ix3 0 r D)
      = outOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (cur1 (n0 := 256) (m ((c : Thread nD τ).loc main_arg3))) (⟨t.val / 4, by have := lt64 t; omega⟩ : Fin 16) l D := by
  rw [PayAt.pay4_at]
  unfold kernelRun0_C.sl.r_5 kernelRun0_C.sl.r_6
  rw [PayAt.pay7_eq]
  refine out_of_parts _ _ _ _ _ l D _ _ _ (fun ch => ?_) (fun ch => folded_value m c hst t h0 h1 ch D) (bias_value m c t D)
  rw [cacheRead2_value m c t h1]
  exact qtile_row m c t 2 (by omega) r ch l hl

/-- The second tile. -/
theorem piece1_value (hst : ∀ (t : Fin cfg0.N) (ch : Fin 128) (e : Fin 32),
      (outsAt0 m c t.val t.isLt).1 (ix2 0 ch) = runMax (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.1 (ix2 0 ch) = runSum (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.2 (ix2 ch e) = runAcc (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch e)
    (t : Fin cfg0.N) (h0 : ¬t.val % 4 = 0) (h1 : t.val % 4 = 3) (r : Fin 2048) (D : Fin 256) (l : Fin 8192) (hl : l.val = 2048 * 1 + r.val) :
    k0_pay3 (kernelRun0_C.sl.r_7 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 hscM0_3 (iblk m c 0 t) (iblk m c 1 t) (iblk m c 2 t) (iblk m c 3 t) (prevSt m c t).1 (prevSt m c t).2.1 (prevSt m c t).2.2 (qsel m c t)) (ix3 0 r D)
      = outOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (cur1 (n0 := 256) (m ((c : Thread nD τ).loc main_arg3))) (⟨t.val / 4, by have := lt64 t; omega⟩ : Fin 16) l D := by
  rw [PayAt.pay3_at]
  unfold kernelRun0_C.sl.r_7
  rw [PayAt.pay9_at]
  refine out_of_parts _ _ _ _ _ l D _ _ _ (fun ch => ?_) (fun ch => folded_value m c hst t h0 h1 ch D) (bias_value m c t D)
  rw [cacheRead1_value m c t h1]
  exact qtile_row m c t 1 (by omega) r ch l hl

/-- The first tile. -/
theorem piece0_value (hst : ∀ (t : Fin cfg0.N) (ch : Fin 128) (e : Fin 32),
      (outsAt0 m c t.val t.isLt).1 (ix2 0 ch) = runMax (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.1 (ix2 0 ch) = runSum (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.2 (ix2 ch e) = runAcc (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch e)
    (t : Fin cfg0.N) (h0 : ¬t.val % 4 = 0) (h1 : t.val % 4 = 3) (r : Fin 2048) (D : Fin 256) (l : Fin 8192) (hl : l.val = 2048 * 0 + r.val) :
    k0_pay8 (kernelRun0_C.sl.v84 (F := Ideal) c (ms0_0 t) (hs0_0 t) (ms0_1 t) (hs0_1 t) scM0_0 (Memref.isWhole_whole _) scM0_1 (Memref.isWhole_whole _) (iblk m c 0 t) (iblk m c 1 t) (prevSt m c t).1 (prevSt m c t).2.1) (kernelRun0_C.sl.v86 (F := Ideal) c (ms0_0 t) (hs0_0 t) (ms0_1 t) (hs0_1 t) scM0_0 (Memref.isWhole_whole _) scM0_2 (Memref.isWhole_whole _) (iblk m c 0 t) (iblk m c 1 t) (prevSt m c t).1 (prevSt m c t).2.2) (View.readAt (Elt Ideal) (ms0_2 t).view (Rect.unit ![0, 0] S128x256.size inb_S128x256_S128x256_0_0).toLoadRect ((hs0_2 t).unread (iblk m c 2 t))) (View.readAt (Elt Ideal) (ms0_3 t).view (Rect.unit ![0, 0] S1x256.size inb_S1x256_S1x256_0_0).toLoadRect ((hs0_3 t).unread (iblk m c 3 t)))
        (View.readAt (Elt Ideal) scM0_3.view (Rect.unit (s := S8192x128) ![0, 0] S2048x128.size inb_S8192x128_S2048x128_0_0).toLoadRect
        (scM0_3.view.writes (Elt Ideal) (hscM0_3.unread (qsel m c t)) (kernelRun0_C.sl.HS3_1 (F := Ideal) c (grid0.coords t) (ms0_0 t) (hs0_0 t) (ms0_1 t) (hs0_1 t) (iblk m c 0 t) (iblk m c 1 t)))) (ix3 0 r D)
      = outOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (cur1 (n0 := 256) (m ((c : Thread nD τ).loc main_arg3))) (⟨t.val / 4, by have := lt64 t; omega⟩ : Fin 16) l D := by
  rw [PayAt.pay8_at]
  refine out_of_parts _ _ _ _ _ l D _ _ _ (fun ch => ?_) (fun ch => folded_value m c hst t h0 h1 ch D) (bias_value m c t D)
  rw [cacheRead0_value m c t h1]
  exact qtile_row m c t 0 (by omega) r ch l hl

/-! ## The output block -/

/-- The four pieces the last tile stores into the output block, last store first. -/
theorem outPieces_eq (t : Fin cfg0.N) (h0 : ¬t.val % 4 = 0) (h1 : t.val % 4 = 3) (d : Vec Ideal S8192x128 .bf16) :
    ((runC m c t h0 h1 (prevSt m c t)).2.2.2 d).1
      = [⟨(Rect.unit (s := S1x8192x256) ![0, 6144, 0] S1x2048x256.size inb_S1x8192x256_S1x2048x256_0_6144_0), k0_pay5 (kernelRun0_C.sl.r_5 (F := Ideal) c (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (iblk m c 2 t) (prevSt m c t).1 (prevSt m c t).2.1 (prevSt m c t).2.2) (kernelRun0_C.sl.r_6 (F := Ideal) c (ms0_3 t) (hs0_3 t) (iblk m c 3 t)) (kernelRun0_C.sl.v132 (F := Ideal) c (grid0.coords t) (ms0_0 t) (hs0_0 t) (ms0_1 t) (hs0_1 t) scM0_3 hscM0_3 (iblk m c 0 t) (iblk m c 1 t) d)⟩,
         ⟨(Rect.unit (s := S1x8192x256) ![0, 4096, 0] S1x2048x256.size inb_S1x8192x256_S1x2048x256_0_4096_0), k0_pay4 (kernelRun0_C.sl.r_5 (F := Ideal) c (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (iblk m c 2 t) (prevSt m c t).1 (prevSt m c t).2.1 (prevSt m c t).2.2) (kernelRun0_C.sl.r_6 (F := Ideal) c (ms0_3 t) (hs0_3 t) (iblk m c 3 t)) (kernelRun0_C.sl.v125 (F := Ideal) c (grid0.coords t) (ms0_0 t) (hs0_0 t) (ms0_1 t) (hs0_1 t) scM0_3 hscM0_3 (iblk m c 0 t) (iblk m c 1 t) d)⟩,
         ⟨(Rect.unit (s := S1x8192x256) ![0, 2048, 0] S1x2048x256.size inb_S1x8192x256_S1x2048x256_0_2048_0), k0_pay3 (kernelRun0_C.sl.r_7 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 hscM0_3 (iblk m c 0 t) (iblk m c 1 t) (iblk m c 2 t) (iblk m c 3 t) (prevSt m c t).1 (prevSt m c t).2.1 (prevSt m c t).2.2 d)⟩,
         ⟨(Rect.unit (s := S1x8192x256) ![0, 0, 0] S1x2048x256.size inb_S1x8192x256_S1x2048x256_0_0_0), k0_pay8 (kernelRun0_C.sl.v84 (F := Ideal) c (ms0_0 t) (hs0_0 t) (ms0_1 t) (hs0_1 t) scM0_0 (Memref.isWhole_whole _) scM0_1 (Memref.isWhole_whole _) (iblk m c 0 t) (iblk m c 1 t) (prevSt m c t).1 (prevSt m c t).2.1) (kernelRun0_C.sl.v86 (F := Ideal) c (ms0_0 t) (hs0_0 t) (ms0_1 t) (hs0_1 t) scM0_0 (Memref.isWhole_whole _) scM0_2 (Memref.isWhole_whole _) (iblk m c 0 t) (iblk m c 1 t) (prevSt m c t).1 (prevSt m c t).2.2) (View.readAt (Elt Ideal) (ms0_2 t).view (Rect.unit ![0, 0] S128x256.size inb_S128x256_S128x256_0_0).toLoadRect ((hs0_2 t).unread (iblk m c 2 t))) (View.readAt (Elt Ideal) (ms0_3 t).view (Rect.unit ![0, 0] S1x256.size inb_S1x256_S1x256_0_0).toLoadRect ((hs0_3 t).unread (iblk m c 3 t))) (View.readAt (Elt Ideal) scM0_3.view (Rect.unit (s := S8192x128) ![0, 0] S2048x128.size inb_S8192x128_S2048x128_0_0).toLoadRect
        (scM0_3.view.writes (Elt Ideal) (hscM0_3.unread d) (kernelRun0_C.sl.HS3_1 (F := Ideal) c (grid0.coords t) (ms0_0 t) (hs0_0 t) (ms0_1 t) (hs0_1 t) (iblk m c 0 t) (iblk m c 1 t))))⟩] := rfl

/-- A tile's rectangle places its local index `(0, r, D)` at row `o + r` of the block. -/
theorem emb_tile (o : ℕ) (inb : ∀ a, (![0, o, 0] : Fin 3 → ℕ) a + S1x2048x256.size a ≤ S1x8192x256.size a)
    (r : Fin 2048) (D : Fin 256) (l : Fin 8192) (hl : l.val = o + r.val) :
    (Rect.unit (s := S1x8192x256) ![0, o, 0] S1x2048x256.size inb).emb (ix3 (0 : Fin 1) r D) = (ix3 (0 : Fin 1) l D : S1x8192x256.Idx) := by
  funext a
  apply Fin.ext
  match a with
  | ⟨0, _⟩ => rfl
  | ⟨1, _⟩ => show o + 1 * r.val = l.val; omega
  | ⟨2, _⟩ => show 0 + 1 * D.val = D.val; omega

/-- The output block the last tile of a batch row leaves is the online pass's value, given the running
    buffers' values after every point. -/
theorem outAt_value_of (hst : ∀ (t : Fin cfg0.N) (ch : Fin 128) (e : Fin 32),
      (outsAt0 m c t.val t.isLt).1 (ix2 0 ch) = runMax (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.1 (ix2 0 ch) = runSum (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch
      ∧ (outsAt0 m c t.val t.isLt).2.2 (ix2 ch e) = runAcc (cur3 (n0 := 16) (n1 := 8192) (n2 := 256) (m ((c : Thread nD τ).loc main_arg0))) (cur2 (n0 := 256) (n1 := 384) (m ((c : Thread nD τ).loc main_arg1))) (⟨t.val / 4, by have := lt64 t; omega⟩ : Fin 16) (t.val % 4 + 1) ch e)
    (t : Fin cfg0.N) (h1 : t.val % 4 = 3) (l : Fin 8192) (D : Fin 256) :
    (outAt m c t : S1x8192x256.Idx → EReal) (ix3 0 l D)
      = outOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (cur1 (n0 := 256) (m ((c : Thread nD τ).loc main_arg3))) (⟨t.val / 4, by have := lt64 t; omega⟩ : Fin 16) l D := by
  have h0 : ¬t.val % 4 = 0 := by omega
  unfold outAt
  rw [dif_pos h1]
  unfold out4 rd4
  rw [View.read_writes_eq_canon _ _ _ (coverC_4 m c t h0 h1 (prevSt m c t) (qsel m c t))]
  refine View.canon_apply_of_pieces (fun y : S1x8192x256.Idx => outOnline (cur3 (n0 := 16) (n1 := 8192) (n2 := 256) (m ((c : Thread nD τ).loc main_arg0))) (cur2 (n0 := 256) (n1 := 384) (m ((c : Thread nD τ).loc main_arg1))) (cur2 (n0 := 128) (n1 := 256) (m ((c : Thread nD τ).loc main_arg2))) (cur1 (n0 := 256) (m ((c : Thread nD τ).loc main_arg3))) (⟨t.val / 4, by have := lt64 t; omega⟩ : Fin 16) (y 1) (y 2)) _ (fun p hp x => ?_) (ix3 0 l D) (coverC_4 m c t h0 h1 (prevSt m c t) (qsel m c t) (ix3 0 l D))
  rw [outPieces_eq m c t h0 h1 (qsel m c t)] at hp
  simp only [List.mem_cons, List.mem_singleton, List.not_mem_nil, or_false] at hp
  rcases hp with rfl | rfl | rfl | rfl
  · obtain ⟨u, r, D', rfl⟩ : ∃ (u : Fin 1) (r : Fin 2048) (D' : Fin 256), x = ix3 u r D' :=
      ⟨x 0, x 1, x 2, eq_ix3 (n0 := 1) (n1 := 2048) (n2 := 256) x⟩
    obtain rfl : u = 0 := Subsingleton.elim _ _
    dsimp only
    rw [emb_tile 6144 inb_S1x8192x256_S1x2048x256_0_6144_0 r D' ⟨6144 + r.val, by have := r.isLt; omega⟩ rfl]
    exact piece3_value m c hst t h0 h1 r D' ⟨6144 + r.val, by have := r.isLt; omega⟩ (by show 6144 + r.val = 2048 * 3 + r.val; omega)
  · obtain ⟨u, r, D', rfl⟩ : ∃ (u : Fin 1) (r : Fin 2048) (D' : Fin 256), x = ix3 u r D' :=
      ⟨x 0, x 1, x 2, eq_ix3 (n0 := 1) (n1 := 2048) (n2 := 256) x⟩
    obtain rfl : u = 0 := Subsingleton.elim _ _
    dsimp only
    rw [emb_tile 4096 inb_S1x8192x256_S1x2048x256_0_4096_0 r D' ⟨4096 + r.val, by have := r.isLt; omega⟩ rfl]
    exact piece2_value m c hst t h0 h1 r D' ⟨4096 + r.val, by have := r.isLt; omega⟩ (by show 4096 + r.val = 2048 * 2 + r.val; omega)
  · obtain ⟨u, r, D', rfl⟩ : ∃ (u : Fin 1) (r : Fin 2048) (D' : Fin 256), x = ix3 u r D' :=
      ⟨x 0, x 1, x 2, eq_ix3 (n0 := 1) (n1 := 2048) (n2 := 256) x⟩
    obtain rfl : u = 0 := Subsingleton.elim _ _
    dsimp only
    rw [emb_tile 2048 inb_S1x8192x256_S1x2048x256_0_2048_0 r D' ⟨2048 + r.val, by have := r.isLt; omega⟩ rfl]
    exact piece1_value m c hst t h0 h1 r D' ⟨2048 + r.val, by have := r.isLt; omega⟩ (by show 2048 + r.val = 2048 * 1 + r.val; omega)
  · obtain ⟨u, r, D', rfl⟩ : ∃ (u : Fin 1) (r : Fin 2048) (D' : Fin 256), x = ix3 u r D' :=
      ⟨x 0, x 1, x 2, eq_ix3 (n0 := 1) (n1 := 2048) (n2 := 256) x⟩
    obtain rfl : u = 0 := Subsingleton.elim _ _
    dsimp only
    rw [emb_tile 0 inb_S1x8192x256_S1x2048x256_0_0_0 r D' ⟨0 + r.val, by have := r.isLt; omega⟩ rfl]
    exact piece0_value m c hst t h0 h1 r D' ⟨0 + r.val, by have := r.isLt; omega⟩ (by show 0 + r.val = 2048 * 0 + r.val; omega)

end Cert.KernelIdeal.Body

end
-- ==== Proof.KI.CacheInv.lean ====
/-
  How the knowledge of the query cache's tiles is carried from point to point: a first tile's store
  establishes the cache's first tile, a middle tile's store adds its own tile and keeps the earlier ones,
  and before the last tile of a batch row the cache's first three tiles are the row's first three tiles.
-/
import proofs.«425081_j79276506350102_3_alg».proof.Proof.KI.OutCongr

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem unread_read (f : VS0_3.ty.Contents (Elt F)) : hscM0_3.unread (VS0_3.read (Elt F) f) = f :=
  (hscM0_3.eq_unread rfl).symm

theorem qtileN_self (c : Dev nD) (t : Fin cfg0.N) : qtileN m c t.val = qtileAt m c t := by
  unfold qtileN; rw [dif_pos t.isLt]

/-- The cache contents after the tile of point `t` is stored over contents `d`. -/
noncomputable abbrev cacheAfter (c : Dev nD) (t : Fin cfg0.N) (QT : Vec F S2048x128 .bf16) (d : Vec F S8192x128 .bf16) : Vec F S8192x128 .bf16 :=
  VS0_3.read (Elt F) (VS0_3.writes (Elt F) (hscM0_3.unread d) [⟨Rect.unit (s := S8192x128) (k0_off1 (grid0.coords t)) S2048x128.size (k0_off1_inb (grid0.coords t)), QT⟩])

theorem qinv_A (c : Dev nD) (t : Fin cfg0.N) (h0 : t.val % 4 = 0) (h1 : ¬t.val % 4 = 3) (d : Vec F S8192x128 .bf16) :
    QInv m c t.val (cacheAfter c t (runA m c t h0 h1).2.2.2.1 d) := by
  have hoff : k0_off1 (grid0.coords t) = ![2048 * (⟨t.val % 4, Nat.mod_lt _ (by decide)⟩ : Fin 4).val, 0] := k0_off1_at t
  intro _
  unfold cacheAfter
  rw [unread_read]
  refine ⟨?_, fun h => absurd h (by omega), fun h => absurd h (by omega)⟩
  rw [tile0_after_store (F := F) scM0_3 (hscM0_3.unread d) ⟨t.val % 4, Nat.mod_lt _ (by decide)⟩ _ hoff, if_pos h0]
  have e : 4 * (t.val / 4) = t.val := by omega
  rw [e, qtileN_self]
  unfold qtileAt; rw [dif_pos h0]

theorem qinv_B (c : Dev nD) (t : Fin cfg0.N) (h0 : ¬t.val % 4 = 0) (h1 : ¬t.val % 4 = 3) (d : Vec F S8192x128 .bf16)
    (hq : QInv m c (t.val - 1) d) :
    QInv m c t.val (cacheAfter c t (runB m c t h0 h1 (prevSt m c t)).2.2.2.1 d) := by
  have hoff : k0_off1 (grid0.coords t) = ![2048 * (⟨t.val % 4, Nat.mod_lt _ (by decide)⟩ : Fin 4).val, 0] := k0_off1_at t
  have hQT : (runB m c t h0 h1 (prevSt m c t)).2.2.2.1 = qtileAt m c t := by
    unfold qtileAt; rw [dif_neg h0, dif_neg h1]
  have hdiv : (t.val - 1) / 4 = t.val / 4 := by omega
  obtain ⟨q0, q1, q2⟩ := hq (by omega)
  rw [hdiv] at q0 q1 q2
  intro _
  unfold cacheAfter
  rw [unread_read, hQT]
  refine ⟨?_, fun h => ?_, fun h => ?_⟩
  · rw [tile0_after_store (F := F) scM0_3 (hscM0_3.unread d) ⟨t.val % 4, Nat.mod_lt _ (by decide)⟩ _ hoff, if_neg h0]
    exact q0
  · rw [tile1_after_store (F := F) scM0_3 (hscM0_3.unread d) ⟨t.val % 4, Nat.mod_lt _ (by decide)⟩ _ hoff]
    by_cases h : t.val % 4 = 1
    · rw [if_pos h]
      have e : 4 * (t.val / 4) + 1 = t.val := by omega
      rw [e, qtileN_self]
    · rw [if_neg h]
      exact q1 (by omega)
  · rw [tile2_after_store (F := F) scM0_3 (hscM0_3.unread d) ⟨t.val % 4, Nat.mod_lt _ (by decide)⟩ _ hoff]
    have h2 : t.val % 4 = 2 := by omega
    rw [if_pos h2]
    have e : 4 * (t.val / 4) + 2 = t.val := by omega
    rw [e, qtileN_self]

theorem tiles3_of_qinv (c : Dev nD) (t : Fin cfg0.N) (h1 : t.val % 4 = 3) (d : Vec F S8192x128 .bf16)
    (hq : QInv m c (t.val - 1) d) : Tiles3 m c t d := by
  have hdiv : (t.val - 1) / 4 = t.val / 4 := by omega
  obtain ⟨q0, q1, q2⟩ := hq (by omega)
  rw [hdiv] at q0 q1 q2
  exact ⟨q0, q1 (by omega), q2 (by omega)⟩

/-- At the last tile of a batch row the output block does not depend on which cache contents with the right
    tiles the point found. -/
theorem out4_of_qinv (c : Dev nD) (t : Fin cfg0.N) (h0 : ¬t.val % 4 = 0) (h1 : t.val % 4 = 3) (d : Vec F S8192x128 .bf16)
    (hq : QInv m c (t.val - 1) d) : out4 m c t h0 h1 d = outAt m c t := by
  obtain ⟨a0, a1, a2⟩ := tiles3_of_qinv m c t h1 d hq
  obtain ⟨b0, b1, b2⟩ := qsel_spec m c t
  unfold outAt; rw [dif_pos h1]
  exact out4_congr m c t h0 h1 d (qsel m c t) (a0.trans b0.symm) (a1.trans b1.symm) (a2.trans b2.symm)

end Cert.KernelIdeal.Body

end
-- ==== Proof.KI.Frame.lean ====
/-
  The frame of the kernel's one pipelined region: the proof data (what each window's staging buffer holds
  after the body at each point), the region invariant carried from point to point, the body obligation at a
  generic point by cases on the point's position in its batch row, and the run of the whole program.

  Between points the invariant holds the running maximum, the running sum and the accumulator at the
  contents the point before left, and the query cache at some contents whose first tiles are the tiles
  stored so far in this batch row. The output window is idle except at the last tile of a batch row, where
  the body overwrites the whole block.
-/
import proofs.«425081_j79276506350102_3_alg».proof.Proof.KI.CacheInv

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, ⌜QInv m c n d⌝ ∗ owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, ⌜QInv m c n d⌝ ∗ owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2) ∗ (∃ d, ⌜QInv m c (n - 1) d⌝ ∗ owns (c : Thread nD τ) scM0_3 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 64 := lt_of_lt_of_eq t.isLt (show cfg0.N = 64 from N_0)
  by_cases h0 : t.val % 4 = 0
  · have h1 : ¬t.val % 4 = 3 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold stepA; (try dsimp only)
    by_cases hz : t.val = 0
    · rw [PhiS_castSucc m c t, PhiS_zero m c _ _ hz, PhiA0_eq]
      iintro ⟨⟨⟨HS0, HS1, HS2, ⟨%d3, HS3⟩⟩, Hg⟩, Ho, ⟨%d0, H0⟩, ⟨%d1, H1⟩, ⟨%d2, H2⟩, ⟨%e3, H3⟩, ⟨%d4, H4⟩⟩
      iapply ((runA m c t h0 h1).2.2.2.2 d3 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverA_0 m c t h0 h1)
          isplitl [HS1]
          · unfold owns; iexists _; isplitr; swap; (iexact HS1); ipureintro; exact View.read_writes_of_cover _ _ _ _ _ (scoverA_1 m c t h0 h1)
          isplitl [HS2]
          · unfold owns; iexists _; isplitr; swap; (iexact HS2); ipureintro; exact View.read_writes_of_cover _ _ _ _ _ (scoverA_2 m c t h0 h1)
          iexists _; isplitr; · ipureintro; exact qinv_A m c t h0 h1 d3
          unfold owns; iexists _; isplitr; swap; (iexact HS3); ipureintro; rfl
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, ⟨%d3, %hq, HS3⟩⟩, Hg⟩, Ho, ⟨%d0, H0⟩, ⟨%d1, H1⟩, ⟨%d2, H2⟩, ⟨%e3, H3⟩, ⟨%d4, H4⟩⟩
      iapply ((runA m c t h0 h1).2.2.2.2 d3 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverA_0 m c t h0 h1)
          isplitl [HS1]
          · unfold owns; iexists _; isplitr; swap; (iexact HS1); ipureintro; exact View.read_writes_of_cover _ _ _ _ _ (scoverA_1 m c t h0 h1)
          isplitl [HS2]
          · unfold owns; iexists _; isplitr; swap; (iexact HS2); ipureintro; exact View.read_writes_of_cover _ _ _ _ _ (scoverA_2 m c t h0 h1)
          iexists _; isplitr; · ipureintro; exact qinv_A m c t h0 h1 d3
          unfold owns; iexists _; isplitr; swap; (iexact HS3); ipureintro; rfl
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stepC; (try dsimp only)
      rw [PhiS_castSucc m c t, PhiS_pos m c _ _ hz]
      iintro ⟨⟨⟨HS0, HS1, HS2, ⟨%d3, %hq, HS3⟩⟩, Hg⟩, Ho, ⟨%d0, H0⟩, ⟨%d1, H1⟩, ⟨%d2, H2⟩, ⟨%e3, H3⟩, ⟨%d4, H4⟩⟩
      iapply (((runC m c t h0 h1 (prevSt m c t)).2.2.2 d3).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%d5, HS3⟩⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverC_0 m c t h0 h1 (prevSt m c t))
          isplitl [HS1]
          · unfold owns; iexists _; isplitr; swap; (iexact HS1); ipureintro; exact View.read_writes_of_cover _ _ _ _ _ (scoverC_1 m c t h0 h1 (prevSt m c t))
          isplitl [HS2]
          · unfold owns; iexists _; isplitr; swap; (iexact HS2); ipureintro; exact View.read_writes_of_cover _ _ _ _ _ (scoverC_2 m c t h0 h1 (prevSt m c t))
          iexists d5; isplitr; · ipureintro; exact (fun h => absurd h1 h)
          iexact HS3
        iexact Hg
      isplitl [Ho]; · iexact Ho
      isplitl [H0]; · iexact H0
      isplitl [H1]; · iexact H1
      isplitl [H2]; · iexact H2
      isplitl [H3]; · iexact H3
      rw [← out4_of_qinv m c t h0 h1 d3 hq]
      unfold out4 owns; iexists _; isplitr; swap; (iexact H4); ipureintro; exact View.read_writes_of_cover _ _ _ _ _ (coverC_4 m c t h0 h1 (prevSt m c t) d3)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold stepB; (try dsimp only)
      rw [PhiS_castSucc m c t, PhiS_pos m c _ _ hz]
      iintro ⟨⟨⟨HS0, HS1, HS2, ⟨%d3, %hq, HS3⟩⟩, Hg⟩, Ho, ⟨%d0, H0⟩, ⟨%d1, H1⟩, ⟨%d2, H2⟩, ⟨%e3, H3⟩, ⟨%d4, H4⟩⟩
      iapply ((runB m c t h0 h1 (prevSt m c t)).2.2.2.2 d3 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverB_0 m c t h0 h1 (prevSt m c t))
          isplitl [HS1]
          · unfold owns; iexists _; isplitr; swap; (iexact HS1); ipureintro; exact View.read_writes_of_cover _ _ _ _ _ (scoverB_1 m c t h0 h1 (prevSt m c t))
          isplitl [HS2]
          · unfold owns; iexists _; isplitr; swap; (iexact HS2); ipureintro; exact View.read_writes_of_cover _ _ _ _ _ (scoverB_2 m c t h0 h1 (prevSt m c t))
          iexists _; isplitr; · ipureintro; exact qinv_B m c t h0 h1 d3 hq
          unfold owns; iexists _; isplitr; swap; (iexact HS3); ipureintro; rfl
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, ⟨%d3, %hq, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KI.KernelValue.lean ====
/-
  The kernel's run with its result named: every weakly fair execution of the idealized kernel terminates
  with the output array at the online attention value of the argument arrays and the argument arrays
  unchanged, given that the last tile of every batch row leaves that row's slab of the online value in the
  output block. The sixteen slabs tile the output array; the arguments are the input window's array and
  three buffers no window stages.
-/
import proofs.«425081_j79276506350102_3_alg».proof.Proof.KI.Frame
import proofs.«425081_j79276506350102_3_alg».proof.Proof.Blocks
import proofs.«425081_j79276506350102_3_alg».proof.Proof.AttnArrays

set_option maxRecDepth 16384

noncomputable section

namespace Cert.KernelIdeal.Body

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Blocks
open Cert.LinAttn

variable (m : (ℓ : Loc nD τ sig) → Buf (Elt Ideal) ℓ)

/-- The online value's array at `(b, l, D)` is the online value there. -/
theorem arrOnline_at (a0 : (⟨3, ![16, 8192, 256]⟩ : Shape).Idx → EReal) (a1 : (⟨2, ![256, 384]⟩ : Shape).Idx → EReal)
    (a2 : (⟨2, ![128, 256]⟩ : Shape).Idx → EReal) (a3 : (⟨1, ![256]⟩ : Shape).Idx → EReal)
    (b : Fin 16) (l : Fin 8192) (D : Fin 256) :
    arrOnline a0 a1 a2 a3 (ix3 b l D) = outOnline (cur3 a0) (cur2 a1) (cur2 a2) (cur1 a3) b l D := rfl

/-- The run of the idealized kernel, its result the online attention value of the argument arrays. -/
theorem run_value_of
    (hout : ∀ (c : Dev nD) (t : Fin cfg0.N), t.val % 4 = 3 → ∀ (l : Fin 8192) (D : Fin 256),
      (outAt m c t : S1x8192x256.Idx → EReal) (ix3 0 l D)
        = outOnline (cur3 (n0 := 16) (n1 := 8192) (n2 := 256) (m ((c : Thread nD τ).loc main_arg0)))
            (cur2 (n0 := 256) (n1 := 384) (m ((c : Thread nD τ).loc main_arg1)))
            (cur2 (n0 := 128) (n1 := 256) (m ((c : Thread nD τ).loc main_arg2)))
            (cur1 (n0 := 256) (m ((c : Thread nD τ).loc main_arg3)))
            ⟨t.val / 4, by have := lt64 t; omega⟩ l D)
    (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = arrOnline (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ⟨?_, ?_, ?_, ?_, ?_⟩) (run_main (F := Ideal) m ρ)
  · refine ((h c).1 4).trans ?_
    refine final_of_last c (dats m 0 c) _ fun t ht l D => ?_
    rw [after0_4]
    exact (hout c t ht l D).trans (arrOnline_at _ _ _ _ _ l D).symm
  · exact ((h c).1 0).trans (((dats m 0 c).arrAt_in 0 rfl _).trans ((A_eq m c 0).trans (V_main_arg0 m c)))
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)

end Cert.KernelIdeal.Body

end
-- ==== Proof.KB.Shared.lean ====
/-
  What the three cases of the kernel body share. The body branches twice on the second grid coordinate:
  at the first tile of a batch row it resets the running maximum, the running sum and the accumulator;
  at the last tile it also computes the context and writes the whole output block. A point is therefore
  in one of three cases: first tile (A), a middle tile (B), last tile (C). Here: the two conditions in
  closed form over the 64 grid points, where the output window is idle, the staging and scratch memrefs
  as the pipeline passes them, and the region invariant with the four scratch buffers spelled out.
-/
import proofs.«425081_j79276506350102_3_alg».proof.Proof.Gen.Kernel.Frame
import proofs.«425081_j79276506350102_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition (the first tile of a batch row), from the grid coordinates. -/
abbrev cond0_0 (i : grid0.Coords) : Prop := (Scalar.cmpi .ne (Scalar.extui (Scalar.cmpi .eq (BitVec.ofNat 32 (i 1).val) 0#32)) 0#32) = 1#1
/-- It holds at the points congruent to 0 modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition (the last tile of a batch row). -/
abbrev cond0_1 (i : grid0.Coords) : Prop := k0_cond2 i = 1#1
/-- It holds at the points congruent to 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the body stores nothing into the output block, and the block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile the output window is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x256 .f32 := win0_4.stage (cfg0.slots t 4)
abbrev hs0_4 (t : Fin cfg0.N) : (ms0_4 t).IsWhole := hstage0_4 ((cfg0.slots t 4).cast nbuf0_4)
/-- The four scratch operands: the running maximum, the running sum, the accumulator, the cached queries. -/
abbrev scM0_0 : Memref sig .tc .vmem S1x128 .f32 := Memref.whole cc0_scratch0
abbrev scM0_1 : Memref sig .tc .vmem S1x128 .f32 := Memref.whole cc0_scratch1
abbrev scM0_2 : Memref sig .tc .vmem S128x32 .f32 := Memref.whole cc0_scratch2
abbrev scM0_3 : Memref sig .tc .vmem S8192x128 .bf16 := Memref.whole cc0_scratch3
abbrev hscM0_3 : (scM0_3).IsWhole := Memref.isWhole_whole _
abbrev VS0_0 : View sig .tc .vmem S1x128 .f32 := scM0_0.view
abbrev VS0_1 : View sig .tc .vmem S1x128 .f32 := scM0_1.view
abbrev VS0_2 : View sig .tc .vmem S128x32 .f32 := scM0_2.view
abbrev VS0_3 : View sig .tc .vmem S8192x128 .bf16 := scM0_3.view
/-- One staging buffer of the output window, through which its contents are stated. -/
abbrev VO0_4 : View sig .tc .vmem S1x8192x256 .f32 := (Memref.whole cc0_stg4_0 : Memref sig .tc .vmem S1x8192x256 .f32).view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.KB.RunA.lean ====
/-
  The body at the first tile of a batch row (case A): it resets the running maximum, the running sum and
  the accumulator, stores this tile's scaled queries into their slice of the query cache, and updates the
  three running quantities; the output block is left untouched. Stated on any whole memrefs, as a triple
  whose stored pieces are found by running the body.
-/
import proofs.«425081_j79276506350102_3_alg».proof.Proof.KB.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in case A: from the inputs at their blocks, the output buffer at any contents (handed back as
    found), the three running buffers at anything and the query cache at any contents `xs3`, it runs to the
    continuation with the running buffers' stored pieces written and the cache's one tile `QT` stored at
    this tile's rows; none of the pieces depends on what the cache held. -/
noncomputable def kernelRun0_A (c : Dev nD) (i : grid0.Coords) (arg2 : Memref sig .tc .vmem S1x2048x256 .f32) (harg2 : arg2.IsWhole) (arg3 : Memref sig .tc .vmem S256x384 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x8192x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S8192x128 .bf16) (harg10 : arg10.IsWhole) (hc0 : cond0_0 i) (hc1 : ¬cond0_1 i)
    (x0 : Vec F S1x2048x256 .f32) (x1 : Vec F S256x384 .bf16) (x2 : Vec F S128x256 .bf16) (x3 : Vec F S1x256 .f32) :
    Σ' (LS0 : List (View.Piece (Elt F) S1x128 .f32)), Σ' (LS1 : List (View.Piece (Elt F) S1x128 .f32)), Σ' (LS2 : List (View.Piece (Elt F) S128x32 .f32)), { QT : Vec F S2048x128 .bf16 //
      ∀ (xs3 : Vec F S8192x128 .bf16) (xi4 : Vec F S1x8192x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) [⟨Rect.unit (s := S8192x128) (k0_off1 i) S2048x128.size (k0_off1_inb i), QT⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun xs3 xi4 E K => ?run⟩
  case run =>
    simp only [cc0__fused_kernel_eq_skeleton]; unfold cc0__fused_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexact HS3

end Cert.Kernel.Body

end
-- ==== Proof.KB.RunB.lean ====
/-
  The body at a middle tile of a batch row (case B): no reset and no final projection. It stores this
  tile's scaled queries into their slice of the query cache and updates the running maximum, the running
  sum and the accumulator from what the previous tile left; the output block is left untouched.
-/
import proofs.«425081_j79276506350102_3_alg».proof.Proof.KB.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in case B: the three running buffers at what the point before left (`xs0`, `xs1`, `xs2`),
    the query cache at any contents; each handed back with its stored pieces written. -/
noncomputable def kernelRun0_B (c : Dev nD) (i : grid0.Coords) (arg2 : Memref sig .tc .vmem S1x2048x256 .f32) (harg2 : arg2.IsWhole) (arg3 : Memref sig .tc .vmem S256x384 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x8192x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S8192x128 .bf16) (harg10 : arg10.IsWhole) (hc0 : ¬cond0_0 i) (hc1 : ¬cond0_1 i)
    (x0 : Vec F S1x2048x256 .f32) (x1 : Vec F S256x384 .bf16) (x2 : Vec F S128x256 .bf16) (x3 : Vec F S1x256 .f32) (xs0 : Vec F S1x128 .f32) (xs1 : Vec F S1x128 .f32) (xs2 : Vec F S128x32 .f32) :
    Σ' (LS0 : List (View.Piece (Elt F) S1x128 .f32)), Σ' (LS1 : List (View.Piece (Elt F) S1x128 .f32)), Σ' (LS2 : List (View.Piece (Elt F) S128x32 .f32)), { QT : Vec F S2048x128 .bf16 //
      ∀ (xs3 : Vec F S8192x128 .bf16) (xi4 : Vec F S1x8192x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (arg10.view.loc (c : Thread nD τ) ↦[arg10.view.set]{fullShare} arg10.view.writes (Elt F) (harg10.unread xs3) [⟨Rect.unit (s := S8192x128) (k0_off1 i) S2048x128.size (k0_off1_inb i), QT⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, fun xs3 xi4 E K => ?run⟩
  case run =>
    simp only [cc0__fused_kernel_eq_skeleton]; unfold cc0__fused_kernel_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexact HS3

end Cert.Kernel.Body

end
-- ==== Proof.KB.RunC.lean ====
/-
  The body at the last tile of a batch row (case C): after the tile's update of the running quantities it
  divides the accumulator by the running sum, folds the result into the output weights head by head, and
  writes the output block in four chunks of 2048 rows, each the cached queries of that chunk times the
  folded weights plus the bias. The output buffer ends wholly overwritten by those four stores.
-/
import proofs.«425081_j79276506350102_3_alg».proof.Proof.KB.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in case C: as a middle tile, and the output buffer (at anything before) ends with its four
    stored pieces written; only these depend on what the query cache held. The cache is handed back at
    some contents: the next point starts a new batch row and relies on none of it. -/
noncomputable def kernelRun0_C (c : Dev nD) (i : grid0.Coords) (arg2 : Memref sig .tc .vmem S1x2048x256 .f32) (harg2 : arg2.IsWhole) (arg3 : Memref sig .tc .vmem S256x384 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x8192x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S8192x128 .bf16) (harg10 : arg10.IsWhole) (hc0 : ¬cond0_0 i) (hc1 : cond0_1 i)
    (x0 : Vec F S1x2048x256 .f32) (x1 : Vec F S256x384 .bf16) (x2 : Vec F S128x256 .bf16) (x3 : Vec F S1x256 .f32) (xs0 : Vec F S1x128 .f32) (xs1 : Vec F S1x128 .f32) (xs2 : Vec F S128x32 .f32) :
    Σ' (LS0 : List (View.Piece (Elt F) S1x128 .f32)), Σ' (LS1 : List (View.Piece (Elt F) S1x128 .f32)), Σ' (LS2 : List (View.Piece (Elt F) S128x32 .f32)),
      (xs3 : Vec F S8192x128 .bf16) → { L4 : List (View.Piece (Elt F) S1x8192x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ d, owns (c : Thread nD τ) arg10 fullShare d)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, fun xs3 => ⟨?_, fun E K => ?run⟩⟩
  case run =>
    simp only [cc0__fused_kernel_eq_skeleton]; unfold cc0__fused_kernel_skel
    simp only [k0_part2_eq_skeleton, k0_part3_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _, _; isplitr; swap; · iexact HS3
    ipureintro; rfl

end Cert.Kernel.Body

end
-- ==== Proof.KB.CacheTiles.lean ====
/-
  A [8192, 128] buffer written one [2048, 128] row-tile at a time and read back tile by tile: a read of tile `j` after a
  store of the tile at row offset `2048 k` is the stored payload when `k = j` (the read rectangle is the store's own)
  and the earlier contents when `k ≠ j` (the two row ranges are disjoint); and there are contents with three prescribed
  tiles (three stores over arbitrary contents).
-/
import proofs.«425081_j79276506350102_3_alg».proof.Proof.Gen.Kernel
import Idealize.ShloMosaic.Lib.Pipeline.FrameBody
import Idealize.ShloMosaic.Lib.Pipeline.Value
import Idealize.ShloMosaic.Lib.Exec.Geometry
import Idealize.ShloMosaic.Lib.Writes

noncomputable section

namespace Cert.Kernel.Body

open Idealize.ShloMosaic Cert.Kernel Cert.Kernel.Gen

variable {F : FTy → Type} [FloatOps F]

/-! ## One store, one read, at row offsets given as numbers -/

/-- A read through the store's own rectangle is the stored payload. -/
theorem read_store_same {sig' : RefSig} {κ : Kind} {sp : Space} (v : View sig' κ sp S8192x128 .bf16) (f : v.ty.Contents (Elt F))
    (o o' : ℕ) (h : o' = o) (inb : ∀ a, (![o, 0] : Fin 2 → ℕ) a + S2048x128.size a ≤ S8192x128.size a)
    (inb' : ∀ a, (![o', 0] : Fin 2 → ℕ) a + S2048x128.size a ≤ S8192x128.size a) (QT : Vec F S2048x128 .bf16) :
    v.readAt (Elt F) (Rect.unit (s := S8192x128) ![o', 0] S2048x128.size inb').toLoadRect
        (v.writes (Elt F) f [⟨Rect.unit (s := S8192x128) ![o, 0] S2048x128.size inb, QT⟩]) = QT := by
  subst h
  exact (View.readAt_writes_of_cover v f [⟨Rect.unit (s := S8192x128) ![o', 0] S2048x128.size inb, QT⟩]
      (Rect.unit (s := S8192x128) ![o', 0] S2048x128.size inb').toLoadRect
      (fun j => ⟨_, List.mem_singleton.mpr rfl, LoadRect.idx_mem _ j⟩)).trans
    (View.readCov_cons_toLoadRect v (Rect.unit (s := S8192x128) ![o', 0] S2048x128.size inb) QT [])

/-- A read through a rectangle whose rows are all below or all above the store's is the earlier contents. -/
theorem read_store_apart {sig' : RefSig} {κ : Kind} {sp : Space} (v : View sig' κ sp S8192x128 .bf16) (f : v.ty.Contents (Elt F))
    (o o' : ℕ) (h : o + 2048 ≤ o' ∨ o' + 2048 ≤ o) (inb : ∀ a, (![o, 0] : Fin 2 → ℕ) a + S2048x128.size a ≤ S8192x128.size a)
    (inb' : ∀ a, (![o', 0] : Fin 2 → ℕ) a + S2048x128.size a ≤ S8192x128.size a) (QT : Vec F S2048x128 .bf16) :
    v.readAt (Elt F) (Rect.unit (s := S8192x128) ![o', 0] S2048x128.size inb').toLoadRect
        (v.writes (Elt F) f [⟨Rect.unit (s := S8192x128) ![o, 0] S2048x128.size inb, QT⟩])
      = v.readAt (Elt F) (Rect.unit (s := S8192x128) ![o', 0] S2048x128.size inb').toLoadRect f := by
  refine View.readAt_writes_of_forall_not_mem v f _ _ fun j p hp hmem => ?_
  rw [List.mem_singleton.mp hp] at hmem
  have hd : Disjoint (Rect.unit (s := S8192x128) ![o, 0] S2048x128.size inb).set
      (Rect.unit (s := S8192x128) ![o', 0] S2048x128.size inb').set :=
    Rect.unit_disjoint (0 : Fin 2) (by show o + 2048 ≤ o' ∨ o' + 2048 ≤ o; exact h)
  exact Finset.disjoint_left.mp hd hmem (LoadRect.idx_mem _ j)

/-! ## Tile `j` after a store of tile `k` -/

theorem tile0_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![0, 0] S2048x128.size inb_S8192x128_S2048x128_0_0).toLoadRect
        (M.view.writes (Elt F) f [⟨Rect.unit (s := S8192x128) off S2048x128.size inb, QT⟩])
      = if k.val = 0 then QT
        else M.view.readAt (Elt F) (Rect.unit (s := S8192x128) ![0, 0] S2048x128.size inb_S8192x128_S2048x128_0_0).toLoadRect f := by
  subst hoff
  by_cases hk : k.val = 0
  · rw [if_pos hk]
    exact read_store_same M.view f (2048 * k.val) 0 (by omega) inb _ QT
  · rw [if_neg hk]
    exact read_store_apart M.view f (2048 * k.val) 0 (by omega) inb _ QT

theorem tile1_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![2048, 0] S2048x128.size inb_S8192x128_S2048x128_2048_0).toLoadRect
        (M.view.writes (Elt F) f [⟨Rect.unit (s := S8192x128) off S2048x128.size inb, QT⟩])
      = if k.val = 1 then QT
        else M.view.readAt (Elt F) (Rect.unit (s := S8192x128) ![2048, 0] S2048x128.size inb_S8192x128_S2048x128_2048_0).toLoadRect f := by
  subst hoff
  by_cases hk : k.val = 1
  · rw [if_pos hk]
    exact read_store_same M.view f (2048 * k.val) 2048 (by omega) inb _ QT
  · rw [if_neg hk]
    exact read_store_apart M.view f (2048 * k.val) 2048 (by omega) inb _ QT

theorem tile2_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![4096, 0] S2048x128.size inb_S8192x128_S2048x128_4096_0).toLoadRect
        (M.view.writes (Elt F) f [⟨Rect.unit (s := S8192x128) off S2048x128.size inb, QT⟩])
      = if k.val = 2 then QT
        else M.view.readAt (Elt F) (Rect.unit (s := S8192x128) ![4096, 0] S2048x128.size inb_S8192x128_S2048x128_4096_0).toLoadRect f := by
  subst hoff
  by_cases hk : k.val = 2
  · rw [if_pos hk]
    exact read_store_same M.view f (2048 * k.val) 4096 (by omega) inb _ QT
  · rw [if_neg hk]
    exact read_store_apart M.view f (2048 * k.val) 4096 (by omega) inb _ QT

theorem tile3_after_store (M : Memref sig .tc .vmem S8192x128 .bf16) (f : M.view.ty.Contents (Elt F)) (k : Fin 4) (off : Fin 2 → ℕ)
    (hoff : off = ![2048 * k.val, 0]) (inb : ∀ a, off a + S2048x128.size a ≤ S8192x128.size a) (QT : Vec F S2048x128 .bf16) :
    M.view.readAt (Elt F) (Rect.unit (s := S8192x128) ![6144, 0] S2048x128.size inb_S8192x128_S2048x128_6144_0).toLoadRect
        (M.view.writes (Elt F) f [⟨Rect.unit (s := S8192x128) off S2048x128.size inb, QT⟩])
      = if k.val = 3 then QT
        else M.view.readAt (Elt F) (Rect.unit (s := S8192x128) ![6144, 0] S2048x128.size inb_S8192x128_S2048x128_6144_0).toLoadRect f := by
  subst hoff
  by_cases hk : k.val = 3
  · rw [if_pos hk]
    exact read_store_same M.view f (2048 * k.val) 6144 (by omega) inb _ QT
  · rw [if_neg hk]
    exact read_store_apart M.view f (2048 * k.val) 6144 (by omega) inb _ QT

/-! ## Contents with three prescribed tiles -/

/-- Over any contents, three stores through pairwise disjoint rectangles leave contents that read back the three payloads. -/
theorem exists_three {sig' : RefSig} {κ : Kind} {sp : Space} {s : Shape} {e : EltTy} (v : View sig' κ sp s e) (r0 r1 r2 : Rect s)
    (w0 : r0.shape.Idx → Elt F e) (w1 : r1.shape.Idx → Elt F e) (w2 : r2.shape.Idx → Elt F e)
    (d01 : Disjoint r0.set r1.set) (d02 : Disjoint r0.set r2.set) (d12 : Disjoint r1.set r2.set) :
    ∃ f : v.ty.Contents (Elt F), v.readAt (Elt F) r0.toLoadRect f = w0 ∧ v.readAt (Elt F) r1.toLoadRect f = w1
      ∧ v.readAt (Elt F) r2.toLoadRect f = w2 :=
  ⟨v.writes (Elt F) v.junk [⟨r0, w0⟩, ⟨r1, w1⟩, ⟨r2, w2⟩],
    View.readCov_cons_toLoadRect v r0 w0 _,
    (View.readCov_cons_of_disjoint v ⟨r0, w0⟩ _ r1.toLoadRect d01).trans (View.readCov_cons_toLoadRect v r1 w1 _),
    (View.readCov_cons_of_disjoint v ⟨r0, w0⟩ _ r2.toLoadRect d02).trans
      ((View.readCov_cons_of_disjoint v ⟨r1, w1⟩ _ r2.toLoadRect d12).trans (View.readCov_cons_toLoadRect v r2 w2 _))⟩

theorem exists_tiles (M : Memref sig .tc .vmem S8192x128 .bf16) (T0 T1 T2 : Vec F S2048x128 .bf16) :
    ∃ f : M.view.ty.Contents (Elt F),
      M.view.readAt (Elt F) (Rect.unit (s := S8192x128) ![0, 0] S2048x128.size inb_S8192x128_S2048x128_0_0).toLoadRect f = T0
      ∧ M.view.readAt (Elt F) (Rect.unit (s := S8192x128) ![2048, 0] S2048x128.size inb_S8192x128_S2048x128_2048_0).toLoadRect f = T1
      ∧ M.view.readAt (Elt F) (Rect.unit (s := S8192x128) ![4096, 0] S2048x128.size inb_S8192x128_S2048x128_4096_0).toLoadRect f = T2 :=
  exists_three M.view (Rect.unit (s := S8192x128) ![0, 0] S2048x128.size inb_S8192x128_S2048x128_0_0) (Rect.unit (s := S8192x128) ![2048, 0] S2048x128.size inb_S8192x128_S2048x128_2048_0) (Rect.unit (s := S8192x128) ![4096, 0] S2048x128.size inb_S8192x128_S2048x128_4096_0) T0 T1 T2
    (Rect.unit_disjoint (0 : Fin 2) (Or.inl (by show (0 : ℕ) + 2048 ≤ 2048; omega)))
    (Rect.unit_disjoint (0 : Fin 2) (Or.inl (by show (0 : ℕ) + 2048 ≤ 4096; omega)))
    (Rect.unit_disjoint (0 : Fin 2) (Or.inl (by show (2048 : ℕ) + 2048 ≤ 4096; omega)))

end Cert.Kernel.Body

end
-- ==== Proof.KB.FrameDefs.lean ====
/-
  What the running buffers hold after each grid point, what the query cache is known to hold, and what the
  last tile of a batch row leaves in the output block — the proof data of the frame, stated through the
  pieces the three cases' runs found.

  The three running buffers (maximum, sum, accumulator) are wholly overwritten at every point, so their
  contents after a point are the stored pieces read back, a function of the point's input blocks and of
  what the point before left (nothing, at the first tile of a batch row). The query cache is written one
  2048-row tile per point; what is known of it after tile k of a batch row is that its first k + 1 tiles
  are the tiles stored so far. The output block is written at the last tile only.
-/
import proofs.«425081_j79276506350102_3_alg».proof.Proof.KB.RunC
import proofs.«425081_j79276506350102_3_alg».proof.Proof.KB.CacheTiles

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
noncomputable def junkVec {S : Shape} {e : EltTy} : S.Idx → Elt F e :=
  fun _ => Classical.choice ((inferInstance : ∀ e, Nonempty (Elt F e)) e)

/-- The three running buffers' contents: maximum, sum, accumulator. -/
abbrev St (F : FTy → Type) [FloatOps F] : Type := Vec F S1x128 .f32 × Vec F S1x128 .f32 × Vec F S128x32 .f32

/-- The case-A run at point `t`, on the memrefs and input blocks the pipeline passes there. -/
noncomputable abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
/-- The case-B run at point `t` over what the point before left. -/
noncomputable abbrev runB (c : Dev nD) (t : Fin cfg0.N) (h0 : ¬t.val % 4 = 0) (h1 : ¬t.val % 4 = 3) (s : St F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) s.1 s.2.1 s.2.2
/-- The case-C run at point `t` over what the point before left. -/
noncomputable abbrev runC (c : Dev nD) (t : Fin cfg0.N) (h0 : ¬t.val % 4 = 0) (h1 : t.val % 4 = 3) (s : St F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) s.1 s.2.1 s.2.2

/-- Pieces read back over junk, buffer by buffer. -/
noncomputable abbrev rd0 (L : List (View.Piece (Elt F) S1x128 .f32)) : Vec F S1x128 .f32 := VS0_0.read (Elt F) (VS0_0.writes (Elt F) VS0_0.junk L)
noncomputable abbrev rd1 (L : List (View.Piece (Elt F) S1x128 .f32)) : Vec F S1x128 .f32 := VS0_1.read (Elt F) (VS0_1.writes (Elt F) VS0_1.junk L)
noncomputable abbrev rd2 (L : List (View.Piece (Elt F) S128x32 .f32)) : Vec F S128x32 .f32 := VS0_2.read (Elt F) (VS0_2.writes (Elt F) VS0_2.junk L)
noncomputable abbrev rd4 (L : List (View.Piece (Elt F) S1x8192x256 .f32)) : Vec F S1x8192x256 .f32 := VO0_4.read (Elt F) (VO0_4.writes (Elt F) VO0_4.junk L)

/-- What each case leaves in the three running buffers. -/
noncomputable def stepA (c : Dev nD) (t : Fin cfg0.N) (h0 : t.val % 4 = 0) (h1 : ¬t.val % 4 = 3) : St F :=
  (rd0 (runA m c t h0 h1).1, rd1 (runA m c t h0 h1).2.1, rd2 (runA m c t h0 h1).2.2.1)
noncomputable def stepB (c : Dev nD) (t : Fin cfg0.N) (h0 : ¬t.val % 4 = 0) (h1 : ¬t.val % 4 = 3) (s : St F) : St F :=
  (rd0 (runB m c t h0 h1 s).1, rd1 (runB m c t h0 h1 s).2.1, rd2 (runB m c t h0 h1 s).2.2.1)
noncomputable def stepC (c : Dev nD) (t : Fin cfg0.N) (h0 : ¬t.val % 4 = 0) (h1 : t.val % 4 = 3) (s : St F) : St F :=
  (rd0 (runC m c t h0 h1 s).1, rd1 (runC m c t h0 h1 s).2.1, rd2 (runC m c t h0 h1 s).2.2.1)

/-! ## The stored pieces cover their buffers -/

theorem scoverA_0 (c : Dev nD) (t : Fin cfg0.N) (h0 : t.val % 4 = 0) (h1 : ¬t.val % 4 = 3) (y : S1x128.Idx) : ∃ pc ∈ (runA m c t h0 h1).1, y ∈ pc.1.set :=
  View.cover_of_tiledL (runA m c t h0 h1).1 S1x128.size (by sl_kernel_rfl) y
theorem scoverA_1 (c : Dev nD) (t : Fin cfg0.N) (h0 : t.val % 4 = 0) (h1 : ¬t.val % 4 = 3) (y : S1x128.Idx) : ∃ pc ∈ (runA m c t h0 h1).2.1, y ∈ pc.1.set :=
  View.cover_of_tiledL (runA m c t h0 h1).2.1 S1x128.size (by sl_kernel_rfl) y
theorem scoverA_2 (c : Dev nD) (t : Fin cfg0.N) (h0 : t.val % 4 = 0) (h1 : ¬t.val % 4 = 3) (y : S128x32.Idx) : ∃ pc ∈ (runA m c t h0 h1).2.2.1, y ∈ pc.1.set :=
  View.cover_of_wholeMem (runA m c t h0 h1).2.2.1 (by sl_whole_mem) y
theorem scoverB_0 (c : Dev nD) (t : Fin cfg0.N) (h0 : ¬t.val % 4 = 0) (h1 : ¬t.val % 4 = 3) (s : St F) (y : S1x128.Idx) : ∃ pc ∈ (runB m c t h0 h1 s).1, y ∈ pc.1.set :=
  View.cover_of_tiledL (runB m c t h0 h1 s).1 S1x128.size (by sl_kernel_rfl) y
theorem scoverB_1 (c : Dev nD) (t : Fin cfg0.N) (h0 : ¬t.val % 4 = 0) (h1 : ¬t.val % 4 = 3) (s : St F) (y : S1x128.Idx) : ∃ pc ∈ (runB m c t h0 h1 s).2.1, y ∈ pc.1.set :=
  View.cover_of_tiledL (runB m c t h0 h1 s).2.1 S1x128.size (by sl_kernel_rfl) y
theorem scoverB_2 (c : Dev nD) (t : Fin cfg0.N) (h0 : ¬t.val % 4 = 0) (h1 : ¬t.val % 4 = 3) (s : St F) (y : S128x32.Idx) : ∃ pc ∈ (runB m c t h0 h1 s).2.2.1, y ∈ pc.1.set :=
  View.cover_of_tiledL (runB m c t h0 h1 s).2.2.1 S32x32.size (by sl_kernel_rfl) y
theorem scoverC_0 (c : Dev nD) (t : Fin cfg0.N) (h0 : ¬t.val % 4 = 0) (h1 : t.val % 4 = 3) (s : St F) (y : S1x128.Idx) : ∃ pc ∈ (runC m c t h0 h1 s).1, y ∈ pc.1.set :=
  View.cover_of_tiledL (runC m c t h0 h1 s).1 S1x128.size (by sl_kernel_rfl) y
theorem scoverC_1 (c : Dev nD) (t : Fin cfg0.N) (h0 : ¬t.val % 4 = 0) (h1 : t.val % 4 = 3) (s : St F) (y : S1x128.Idx) : ∃ pc ∈ (runC m c t h0 h1 s).2.1, y ∈ pc.1.set :=
  View.cover_of_tiledL (runC m c t h0 h1 s).2.1 S1x128.size (by sl_kernel_rfl) y
theorem scoverC_2 (c : Dev nD) (t : Fin cfg0.N) (h0 : ¬t.val % 4 = 0) (h1 : t.val % 4 = 3) (s : St F) (y : S128x32.Idx) : ∃ pc ∈ (runC m c t h0 h1 s).2.2.1, y ∈ pc.1.set :=
  View.cover_of_tiledL (runC m c t h0 h1 s).2.2.1 S32x32.size (by sl_kernel_rfl) y
/-- The four chunk stores of the last tile cover the output block. -/
theorem coverC_4 (c : Dev nD) (t : Fin cfg0.N) (h0 : ¬t.val % 4 = 0) (h1 : t.val % 4 = 3) (s : St F) (d : Vec F S8192x128 .bf16) (y : S1x8192x256.Idx) :
    ∃ pc ∈ ((runC m c t h0 h1 s).2.2.2 d).1, y ∈ pc.1.set :=
  View.cover_of_tiledL ((runC m c t h0 h1 s).2.2.2 d).1 S1x2048x256.size (by sl_kernel_rfl) y

/-! ## The running buffers after each point -/

/-- What the three running buffers hold after the body at position `n`: the case the point is in, over what the
    point before left (nothing of it at the first tile of a batch row). -/
noncomputable def outsAt0 (c : Dev nD) : (n : ℕ) → n < cfg0.N → St F
  | 0, hn => stepA m c ⟨0, hn⟩ (Nat.zero_mod _) (by simp)
  | n + 1, hn =>
    if h0 : (n + 1) % 4 = 0 then stepA m c ⟨n + 1, hn⟩ h0 (by show ¬(n + 1) % 4 = 3; omega)
    else if h1 : (n + 1) % 4 = 3 then stepC m c ⟨n + 1, hn⟩ h0 h1 (outsAt0 c n (Nat.lt_of_succ_lt hn))
    else stepB m c ⟨n + 1, hn⟩ h0 h1 (outsAt0 c n (Nat.lt_of_succ_lt hn))

/-- What the point before `t` left (used only where `t` is not the first point). -/
noncomputable abbrev prevSt (c : Dev nD) (t : Fin cfg0.N) : St F :=
  outsAt0 m c (t.val - 1) (Nat.lt_of_le_of_lt (Nat.sub_le _ _) t.isLt)

theorem outsAt0_A (c : Dev nD) (t : Fin cfg0.N) (h0 : t.val % 4 = 0) (h1 : ¬t.val % 4 = 3) :
    outsAt0 m c t.val t.isLt = stepA m c t h0 h1 := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 m c t.val t.isLt = stepB m c t h0 h1 (prevSt m c t) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stepC m c t h0 h1 (prevSt m c t) := by
  obtain ⟨n, hn⟩ := t
  cases n with
  | zero => exact absurd (Nat.zero_mod _) h0
  | succ n => exact (dif_neg h0).trans ((dif_pos h1).trans rfl)

/-! ## The query cache -/

/-- The tile of scaled queries the point `t` stores into the cache (a first or a middle tile). -/
noncomputable def qtileAt (c : Dev nD) (t : Fin cfg0.N) : Vec F S2048x128 .bf16 :=
  if h0 : t.val % 4 = 0 then (runA m c t h0 (by omega)).2.2.2.1
  else if h1 : t.val % 4 = 3 then junkVec
  else (runB m c t h0 h1 (prevSt m c t)).2.2.2.1

/-- The same at a position given as a number (junk past the grid). -/
noncomputable def qtileN (c : Dev nD) (k : ℕ) : Vec F S2048x128 .bf16 :=
  if h : k < cfg0.N then qtileAt m c ⟨k, h⟩ else junkVec

/-- The three tile rectangles of the cache the last tile of a batch row reads back. -/
abbrev rq0 : Rect S8192x128 := Rect.unit (s := S8192x128) ![0, 0] S2048x128.size inb_S8192x128_S2048x128_0_0
abbrev rq1 : Rect S8192x128 := Rect.unit (s := S8192x128) ![2048, 0] S2048x128.size inb_S8192x128_S2048x128_2048_0
abbrev rq2 : Rect S8192x128 := Rect.unit (s := S8192x128) ![4096, 0] S2048x128.size inb_S8192x128_S2048x128_4096_0

/-- What is known of the cache's contents `d` after position `n`: within a batch row, the tiles stored so far
    (those of the row's first `n % 4 + 1` points); after the row's last point, nothing. -/
def QInv (c : Dev nD) (n : ℕ) (d : Vec F S8192x128 .bf16) : Prop :=
  n % 4 ≠ 3 →
    VS0_3.readAt (Elt F) rq0.toLoadRect (hscM0_3.unread d) = qtileN m c (4 * (n / 4))
    ∧ (1 ≤ n % 4 → VS0_3.readAt (Elt F) rq1.toLoadRect (hscM0_3.unread d) = qtileN m c (4 * (n / 4) + 1))
    ∧ (2 ≤ n % 4 → VS0_3.readAt (Elt F) rq2.toLoadRect (hscM0_3.unread d) = qtileN m c (4 * (n / 4) + 2))

/-- The three tiles a last-tile point `t` finds in the cache. -/
def Tiles3 (c : Dev nD) (t : Fin cfg0.N) (d : Vec F S8192x128 .bf16) : Prop :=
  VS0_3.readAt (Elt F) rq0.toLoadRect (hscM0_3.unread d) = qtileN m c (4 * (t.val / 4))
  ∧ VS0_3.readAt (Elt F) rq1.toLoadRect (hscM0_3.unread d) = qtileN m c (4 * (t.val / 4) + 1)
  ∧ VS0_3.readAt (Elt F) rq2.toLoadRect (hscM0_3.unread d) = qtileN m c (4 * (t.val / 4) + 2)

theorem exists_tiles3 (c : Dev nD) (t : Fin cfg0.N) : ∃ d : Vec F S8192x128 .bf16, Tiles3 m c t d := by
  obtain ⟨f, h0, h1, h2⟩ := exists_tiles (F := F) scM0_3 (qtileN m c (4 * (t.val / 4))) (qtileN m c (4 * (t.val / 4) + 1)) (qtileN m c (4 * (t.val / 4) + 2))
  refine ⟨VS0_3.read (Elt F) f, ?_⟩
  have e : hscM0_3.unread (VS0_3.read (Elt F) f) = f := (hscM0_3.eq_unread rfl).symm
  unfold Tiles3
  rw [e]
  exact ⟨h0, h1, h2⟩

/-- Some cache contents with those three tiles: the reference contents the output block is stated over. -/
noncomputable def qsel (c : Dev nD) (t : Fin cfg0.N) : Vec F S8192x128 .bf16 := Classical.choose (exists_tiles3 m c t)
theorem qsel_spec (c : Dev nD) (t : Fin cfg0.N) : Tiles3 m c t (qsel m c t) := Classical.choose_spec (exists_tiles3 m c t)

/-! ## The output block -/

/-- What the last tile of a batch row leaves in the output block when the cache held `d`. -/
noncomputable def out4 (c : Dev nD) (t : Fin cfg0.N) (h0 : ¬t.val % 4 = 0) (h1 : t.val % 4 = 3) (d : Vec F S8192x128 .bf16) : Vec F S1x8192x256 .f32 :=
  rd4 ((runC m c t h0 h1 (prevSt m c t)).2.2.2 d).1

/-- The output block after point `t` (named at the last tile of a batch row only; elsewhere the window is idle). -/
noncomputable def outAt (c : Dev nD) (t : Fin cfg0.N) : Vec F S1x8192x256 .f32 :=
  if h1 : t.val % 4 = 3 then out4 m c t (by omega) h1 (qsel m c t) else junkVec

end Cert.Kernel.Body

end
-- ==== Proof.KB.OutCongr.lean ====
/-
  The output block the last tile of a batch row writes depends on the query cache only through the
  three tiles it reads back beside the one it has just stored: two cache contents with the same first
  three tiles give the same output block.
-/
import proofs.«425081_j79276506350102_3_alg».proof.Proof.KB.FrameDefs
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows the tile of a point start at: 2048 times the point's position in its batch row. -/
theorem k0_off1_at : ∀ t : Fin cfg0.N, k0_off1 (grid0.coords t) = ![2048 * (t.val % 4), 0] :=
  (by decide +kernel : ∀ t : Fin grid0.N, k0_off1 (grid0.coords t) = ![2048 * (t.val % 4), 0])

/-- The one piece the tile's store leaves in the cache: this tile's scaled queries at the tile's rows. -/
theorem cachePiece_eq (c : Dev nD) (t : Fin cfg0.N) :
    kernelRun0_C.sl.HS3_1 (F := F) c (grid0.coords t) (ms0_0 t) (hs0_0 t) (ms0_1 t) (hs0_1 t) (iblk m c 0 t) (iblk m c 1 t)
      = [⟨Rect.unit (s := S8192x128) (k0_off1 (grid0.coords t)) S2048x128.size (k0_off1_inb (grid0.coords t)),
          k0_pay15 (View.readAt (Elt F) (ms0_0 t).view (Rect.unit ![0, 0, 0] S1x2048x256.size inb_S1x2048x256_S1x2048x256_0_0_0).toLoadRect ((hs0_0 t).unread (iblk m c 0 t)))
            (View.readAt (Elt F) (ms0_1 t).view (Rect.unit ![0, 0] S256x384.size inb_S256x384_S256x384_0_0).toLoadRect ((hs0_1 t).unread (iblk m c 1 t)))⟩] := rfl

/-- The last tile's read of its own tile back from the cache does not depend on what the cache held. -/
theorem cacheRead3 (c : Dev nD) (t : Fin cfg0.N) (h1 : t.val % 4 = 3) (d d' : Vec F S8192x128 .bf16) :
    kernelRun0_C.sl.v132 (F := F) c (grid0.coords t) (ms0_0 t) (hs0_0 t) (ms0_1 t) (hs0_1 t) scM0_3 hscM0_3 (iblk m c 0 t) (iblk m c 1 t) d
      = kernelRun0_C.sl.v132 (F := F) c (grid0.coords t) (ms0_0 t) (hs0_0 t) (ms0_1 t) (hs0_1 t) scM0_3 hscM0_3 (iblk m c 0 t) (iblk m c 1 t) d' := by
  have hoff : k0_off1 (grid0.coords t) = ![2048 * (3 : Fin 4).val, 0] := by
    rw [k0_off1_at t, h1]; rfl
  unfold kernelRun0_C.sl.v132; rw [cachePiece_eq m c t]
  rw [tile3_after_store (F := F) scM0_3 (hscM0_3.unread d) (3 : Fin 4) _ hoff, tile3_after_store (F := F) scM0_3 (hscM0_3.unread d') (3 : Fin 4) _ hoff]
  rw [if_pos (show ((3 : Fin 4).val = 3) from rfl), if_pos (show ((3 : Fin 4).val = 3) from rfl)]

/-- Its reads of the three earlier tiles are the cache's tiles. -/
theorem cacheRead2 (c : Dev nD) (t : Fin cfg0.N) (h1 : t.val % 4 = 3) (d d' : Vec F S8192x128 .bf16)
    (e2 : VS0_3.readAt (Elt F) rq2.toLoadRect (hscM0_3.unread d) = VS0_3.readAt (Elt F) rq2.toLoadRect (hscM0_3.unread d')) :
    kernelRun0_C.sl.v125 (F := F) c (grid0.coords t) (ms0_0 t) (hs0_0 t) (ms0_1 t) (hs0_1 t) scM0_3 hscM0_3 (iblk m c 0 t) (iblk m c 1 t) d
      = kernelRun0_C.sl.v125 (F := F) c (grid0.coords t) (ms0_0 t) (hs0_0 t) (ms0_1 t) (hs0_1 t) scM0_3 hscM0_3 (iblk m c 0 t) (iblk m c 1 t) d' := by
  have hoff : k0_off1 (grid0.coords t) = ![2048 * (3 : Fin 4).val, 0] := by
    rw [k0_off1_at t, h1]; rfl
  unfold kernelRun0_C.sl.v125; rw [cachePiece_eq m c t]
  rw [tile2_after_store (F := F) scM0_3 (hscM0_3.unread d) (3 : Fin 4) _ hoff, tile2_after_store (F := F) scM0_3 (hscM0_3.unread d') (3 : Fin 4) _ hoff]
  rw [if_neg (show ¬((3 : Fin 4).val = 2) by decide), if_neg (show ¬((3 : Fin 4).val = 2) by decide)]
  exact e2

theorem cacheRead1 (c : Dev nD) (t : Fin cfg0.N) (h1 : t.val % 4 = 3) (d d' : Vec F S8192x128 .bf16) (s : St F)
    (e1 : VS0_3.readAt (Elt F) rq1.toLoadRect (hscM0_3.unread d) = VS0_3.readAt (Elt F) rq1.toLoadRect (hscM0_3.unread d')) :
    kernelRun0_C.sl.r_7 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 hscM0_3 (iblk m c 0 t) (iblk m c 1 t) (iblk m c 2 t) (iblk m c 3 t) s.1 s.2.1 s.2.2 d
      = kernelRun0_C.sl.r_7 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 hscM0_3 (iblk m c 0 t) (iblk m c 1 t) (iblk m c 2 t) (iblk m c 3 t) s.1 s.2.1 s.2.2 d' := by
  have hoff : k0_off1 (grid0.coords t) = ![2048 * (3 : Fin 4).val, 0] := by
    rw [k0_off1_at t, h1]; rfl
  unfold kernelRun0_C.sl.r_7; rw [cachePiece_eq m c t]
  refine congrArg (k0_pay9 _ _ _ _) ?_
  rw [tile1_after_store (F := F) scM0_3 (hscM0_3.unread d) (3 : Fin 4) _ hoff, tile1_after_store (F := F) scM0_3 (hscM0_3.unread d') (3 : Fin 4) _ hoff]
  rw [if_neg (show ¬((3 : Fin 4).val = 1) by decide), if_neg (show ¬((3 : Fin 4).val = 1) by decide)]
  exact e1

theorem cacheRead0 (c : Dev nD) (t : Fin cfg0.N) (h1 : t.val % 4 = 3) (d d' : Vec F S8192x128 .bf16)
    (e0 : VS0_3.readAt (Elt F) rq0.toLoadRect (hscM0_3.unread d) = VS0_3.readAt (Elt F) rq0.toLoadRect (hscM0_3.unread d')) :
    View.readAt (Elt F) scM0_3.view (Rect.unit (s := S8192x128) ![0, 0] S2048x128.size inb_S8192x128_S2048x128_0_0).toLoadRect
        (scM0_3.view.writes (Elt F) (hscM0_3.unread d) (kernelRun0_C.sl.HS3_1 (F := F) c (grid0.coords t) (ms0_0 t) (hs0_0 t) (ms0_1 t) (hs0_1 t) (iblk m c 0 t) (iblk m c 1 t)))
      = View.readAt (Elt F) scM0_3.view (Rect.unit (s := S8192x128) ![0, 0] S2048x128.size inb_S8192x128_S2048x128_0_0).toLoadRect
        (scM0_3.view.writes (Elt F) (hscM0_3.unread d') (kernelRun0_C.sl.HS3_1 (F := F) c (grid0.coords t) (ms0_0 t) (hs0_0 t) (ms0_1 t) (hs0_1 t) (iblk m c 0 t) (iblk m c 1 t))) := by
  have hoff : k0_off1 (grid0.coords t) = ![2048 * (3 : Fin 4).val, 0] := by
    rw [k0_off1_at t, h1]; rfl
  rw [cachePiece_eq m c t]
  rw [tile0_after_store (F := F) scM0_3 (hscM0_3.unread d) (3 : Fin 4) _ hoff, tile0_after_store (F := F) scM0_3 (hscM0_3.unread d') (3 : Fin 4) _ hoff]
  rw [if_neg (show ¬((3 : Fin 4).val = 0) by decide), if_neg (show ¬((3 : Fin 4).val = 0) by decide)]
  exact e0

/-- Two cache contents with the same first three tiles give the same output block. -/
theorem out4_congr (c : Dev nD) (t : Fin cfg0.N) (h0 : ¬t.val % 4 = 0) (h1 : t.val % 4 = 3) (d d' : Vec F S8192x128 .bf16)
    (e0 : VS0_3.readAt (Elt F) rq0.toLoadRect (hscM0_3.unread d) = VS0_3.readAt (Elt F) rq0.toLoadRect (hscM0_3.unread d'))
    (e1 : VS0_3.readAt (Elt F) rq1.toLoadRect (hscM0_3.unread d) = VS0_3.readAt (Elt F) rq1.toLoadRect (hscM0_3.unread d'))
    (e2 : VS0_3.readAt (Elt F) rq2.toLoadRect (hscM0_3.unread d) = VS0_3.readAt (Elt F) rq2.toLoadRect (hscM0_3.unread d')) :
    out4 m c t h0 h1 d = out4 m c t h0 h1 d' := by
  have k0 := cacheRead0 m c t h1 d d' e0
  dsimp only at k0
  unfold out4
  refine congrArg (fun L => rd4 L) ?_
  unfold runC kernelRun0_C; dsimp only
  rw [cacheRead3 m c t h1 d d', cacheRead2 m c t h1 d d' e2, cacheRead1 m c t h1 d d' (prevSt m c t) e1, k0]

end Cert.Kernel.Body

end
-- ==== Proof.KB.CacheInv.lean ====
/-
  How the knowledge of the query cache's tiles is carried from point to point: a first tile's store
  establishes the cache's first tile, a middle tile's store adds its own tile and keeps the earlier ones,
  and before the last tile of a batch row the cache's first three tiles are the row's first three tiles.
-/
import proofs.«425081_j79276506350102_3_alg».proof.Proof.KB.OutCongr

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem unread_read (f : VS0_3.ty.Contents (Elt F)) : hscM0_3.unread (VS0_3.read (Elt F) f) = f :=
  (hscM0_3.eq_unread rfl).symm

theorem qtileN_self (c : Dev nD) (t : Fin cfg0.N) : qtileN m c t.val = qtileAt m c t := by
  unfold qtileN; rw [dif_pos t.isLt]

/-- The cache contents after the tile of point `t` is stored over contents `d`. -/
noncomputable abbrev cacheAfter (c : Dev nD) (t : Fin cfg0.N) (QT : Vec F S2048x128 .bf16) (d : Vec F S8192x128 .bf16) : Vec F S8192x128 .bf16 :=
  VS0_3.read (Elt F) (VS0_3.writes (Elt F) (hscM0_3.unread d) [⟨Rect.unit (s := S8192x128) (k0_off1 (grid0.coords t)) S2048x128.size (k0_off1_inb (grid0.coords t)), QT⟩])

theorem qinv_A (c : Dev nD) (t : Fin cfg0.N) (h0 : t.val % 4 = 0) (h1 : ¬t.val % 4 = 3) (d : Vec F S8192x128 .bf16) :
    QInv m c t.val (cacheAfter c t (runA m c t h0 h1).2.2.2.1 d) := by
  have hoff : k0_off1 (grid0.coords t) = ![2048 * (⟨t.val % 4, Nat.mod_lt _ (by decide)⟩ : Fin 4).val, 0] := k0_off1_at t
  intro _
  unfold cacheAfter
  rw [unread_read]
  refine ⟨?_, fun h => absurd h (by omega), fun h => absurd h (by omega)⟩
  rw [tile0_after_store (F := F) scM0_3 (hscM0_3.unread d) ⟨t.val % 4, Nat.mod_lt _ (by decide)⟩ _ hoff, if_pos h0]
  have e : 4 * (t.val / 4) = t.val := by omega
  rw [e, qtileN_self]
  unfold qtileAt; rw [dif_pos h0]

theorem qinv_B (c : Dev nD) (t : Fin cfg0.N) (h0 : ¬t.val % 4 = 0) (h1 : ¬t.val % 4 = 3) (d : Vec F S8192x128 .bf16)
    (hq : QInv m c (t.val - 1) d) :
    QInv m c t.val (cacheAfter c t (runB m c t h0 h1 (prevSt m c t)).2.2.2.1 d) := by
  have hoff : k0_off1 (grid0.coords t) = ![2048 * (⟨t.val % 4, Nat.mod_lt _ (by decide)⟩ : Fin 4).val, 0] := k0_off1_at t
  have hQT : (runB m c t h0 h1 (prevSt m c t)).2.2.2.1 = qtileAt m c t := by
    unfold qtileAt; rw [dif_neg h0, dif_neg h1]
  have hdiv : (t.val - 1) / 4 = t.val / 4 := by omega
  obtain ⟨q0, q1, q2⟩ := hq (by omega)
  rw [hdiv] at q0 q1 q2
  intro _
  unfold cacheAfter
  rw [unread_read, hQT]
  refine ⟨?_, fun h => ?_, fun h => ?_⟩
  · rw [tile0_after_store (F := F) scM0_3 (hscM0_3.unread d) ⟨t.val % 4, Nat.mod_lt _ (by decide)⟩ _ hoff, if_neg h0]
    exact q0
  · rw [tile1_after_store (F := F) scM0_3 (hscM0_3.unread d) ⟨t.val % 4, Nat.mod_lt _ (by decide)⟩ _ hoff]
    by_cases h : t.val % 4 = 1
    · rw [if_pos h]
      have e : 4 * (t.val / 4) + 1 = t.val := by omega
      rw [e, qtileN_self]
    · rw [if_neg h]
      exact q1 (by omega)
  · rw [tile2_after_store (F := F) scM0_3 (hscM0_3.unread d) ⟨t.val % 4, Nat.mod_lt _ (by decide)⟩ _ hoff]
    have h2 : t.val % 4 = 2 := by omega
    rw [if_pos h2]
    have e : 4 * (t.val / 4) + 2 = t.val := by omega
    rw [e, qtileN_self]

theorem tiles3_of_qinv (c : Dev nD) (t : Fin cfg0.N) (h1 : t.val % 4 = 3) (d : Vec F S8192x128 .bf16)
    (hq : QInv m c (t.val - 1) d) : Tiles3 m c t d := by
  have hdiv : (t.val - 1) / 4 = t.val / 4 := by omega
  obtain ⟨q0, q1, q2⟩ := hq (by omega)
  rw [hdiv] at q0 q1 q2
  exact ⟨q0, q1 (by omega), q2 (by omega)⟩

/-- At the last tile of a batch row the output block does not depend on which cache contents with the right
    tiles the point found. -/
theorem out4_of_qinv (c : Dev nD) (t : Fin cfg0.N) (h0 : ¬t.val % 4 = 0) (h1 : t.val % 4 = 3) (d : Vec F S8192x128 .bf16)
    (hq : QInv m c (t.val - 1) d) : out4 m c t h0 h1 d = outAt m c t := by
  obtain ⟨a0, a1, a2⟩ := tiles3_of_qinv m c t h1 d hq
  obtain ⟨b0, b1, b2⟩ := qsel_spec m c t
  unfold outAt; rw [dif_pos h1]
  exact out4_congr m c t h0 h1 d (qsel m c t) (a0.trans b0.symm) (a1.trans b1.symm) (a2.trans b2.symm)

end Cert.Kernel.Body

end
-- ==== Proof.KB.Frame.lean ====
/-
  The frame of the kernel's one pipelined region: the proof data (what each window's staging buffer holds
  after the body at each point), the region invariant carried from point to point, the body obligation at a
  generic point by cases on the point's position in its batch row, and the run of the whole program.

  Between points the invariant holds the running maximum, the running sum and the accumulator at the
  contents the point before left, and the query cache at some contents whose first tiles are the tiles
  stored so far in this batch row. The output window is idle except at the last tile of a batch row, where
  the body overwrites the whole block.
-/
import proofs.«425081_j79276506350102_3_alg».proof.Proof.KB.CacheInv

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, ⌜QInv m c n d⌝ ∗ owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, ⌜QInv m c n d⌝ ∗ owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2) ∗ (∃ d, ⌜QInv m c (n - 1) d⌝ ∗ owns (c : Thread nD τ) scM0_3 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 64 := lt_of_lt_of_eq t.isLt (show cfg0.N = 64 from N_0)
  by_cases h0 : t.val % 4 = 0
  · have h1 : ¬t.val % 4 = 3 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold stepA; (try dsimp only)
    by_cases hz : t.val = 0
    · rw [PhiS_castSucc m c t, PhiS_zero m c _ _ hz, PhiA0_eq]
      iintro ⟨⟨⟨HS0, HS1, HS2, ⟨%d3, HS3⟩⟩, Hg⟩, Ho, ⟨%d0, H0⟩, ⟨%d1, H1⟩, ⟨%d2, H2⟩, ⟨%e3, H3⟩, ⟨%d4, H4⟩⟩
      iapply ((runA m c t h0 h1).2.2.2.2 d3 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverA_0 m c t h0 h1)
          isplitl [HS1]
          · unfold owns; iexists _; isplitr; swap; (iexact HS1); ipureintro; exact View.read_writes_of_cover _ _ _ _ _ (scoverA_1 m c t h0 h1)
          isplitl [HS2]
          · unfold owns; iexists _; isplitr; swap; (iexact HS2); ipureintro; exact View.read_writes_of_cover _ _ _ _ _ (scoverA_2 m c t h0 h1)
          iexists _; isplitr; · ipureintro; exact qinv_A m c t h0 h1 d3
          unfold owns; iexists _; isplitr; swap; (iexact HS3); ipureintro; rfl
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2, ⟨%d3, %hq, HS3⟩⟩, Hg⟩, Ho, ⟨%d0, H0⟩, ⟨%d1, H1⟩, ⟨%d2, H2⟩, ⟨%e3, H3⟩, ⟨%d4, H4⟩⟩
      iapply ((runA m c t h0 h1).2.2.2.2 d3 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverA_0 m c t h0 h1)
          isplitl [HS1]
          · unfold owns; iexists _; isplitr; swap; (iexact HS1); ipureintro; exact View.read_writes_of_cover _ _ _ _ _ (scoverA_1 m c t h0 h1)
          isplitl [HS2]
          · unfold owns; iexists _; isplitr; swap; (iexact HS2); ipureintro; exact View.read_writes_of_cover _ _ _ _ _ (scoverA_2 m c t h0 h1)
          iexists _; isplitr; · ipureintro; exact qinv_A m c t h0 h1 d3
          unfold owns; iexists _; isplitr; swap; (iexact HS3); ipureintro; rfl
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold stepC; (try dsimp only)
      rw [PhiS_castSucc m c t, PhiS_pos m c _ _ hz]
      iintro ⟨⟨⟨HS0, HS1, HS2, ⟨%d3, %hq, HS3⟩⟩, Hg⟩, Ho, ⟨%d0, H0⟩, ⟨%d1, H1⟩, ⟨%d2, H2⟩, ⟨%e3, H3⟩, ⟨%d4, H4⟩⟩
      iapply (((runC m c t h0 h1 (prevSt m c t)).2.2.2 d3).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, ⟨%d5, HS3⟩⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverC_0 m c t h0 h1 (prevSt m c t))
          isplitl [HS1]
          · unfold owns; iexists _; isplitr; swap; (iexact HS1); ipureintro; exact View.read_writes_of_cover _ _ _ _ _ (scoverC_1 m c t h0 h1 (prevSt m c t))
          isplitl [HS2]
          · unfold owns; iexists _; isplitr; swap; (iexact HS2); ipureintro; exact View.read_writes_of_cover _ _ _ _ _ (scoverC_2 m c t h0 h1 (prevSt m c t))
          iexists d5; isplitr; · ipureintro; exact (fun h => absurd h1 h)
          iexact HS3
        iexact Hg
      isplitl [Ho]; · iexact Ho
      isplitl [H0]; · iexact H0
      isplitl [H1]; · iexact H1
      isplitl [H2]; · iexact H2
      isplitl [H3]; · iexact H3
      rw [← out4_of_qinv m c t h0 h1 d3 hq]
      unfold out4 owns; iexists _; isplitr; swap; (iexact H4); ipureintro; exact View.read_writes_of_cover _ _ _ _ _ (coverC_4 m c t h0 h1 (prevSt m c t) d3)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold stepB; (try dsimp only)
      rw [PhiS_castSucc m c t, PhiS_pos m c _ _ hz]
      iintro ⟨⟨⟨HS0, HS1, HS2, ⟨%d3, %hq, HS3⟩⟩, Hg⟩, Ho, ⟨%d0, H0⟩, ⟨%d1, H1⟩, ⟨%d2, H2⟩, ⟨%e3, H3⟩, ⟨%d4, H4⟩⟩
      iapply ((runB m c t h0 h1 (prevSt m c t)).2.2.2.2 d3 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr; swap; (iexact HS0); ipureintro; exact View.read_writes_of_cover _ _ _ _ _ (scoverB_0 m c t h0 h1 (prevSt m c t))
          isplitl [HS1]
          · unfold owns; iexists _; isplitr; swap; (iexact HS1); ipureintro; exact View.read_writes_of_cover _ _ _ _ _ (scoverB_1 m c t h0 h1 (prevSt m c t))
          isplitl [HS2]
          · unfold owns; iexists _; isplitr; swap; (iexact HS2); ipureintro; exact View.read_writes_of_cover _ _ _ _ _ (scoverB_2 m c t h0 h1 (prevSt m c t))
          iexists _; isplitr; · ipureintro; exact qinv_B m c t h0 h1 d3 hq
          unfold owns; iexists _; isplitr; swap; (iexact HS3); ipureintro; rfl
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, ⟨%d3, %hq, HS3⟩⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, and every final state has every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.lean ====
/-
  The certificate of a fused linear-attention kernel against its plain reference.

  The kernel makes one pass over the sequence in tiles of 2048 rows per batch row: it projects the tile to
  queries, keys and values, caches the scaled queries, and keeps a running maximum, a running sum of
  exponentials and a running accumulator of the keys' softmax weights against the values, rescaled at every
  tile; at the last tile it divides the accumulator by the running sum, folds the result into the output
  weights head by head and applies the cached queries. The reference takes the softmax of the keys over the
  whole sequence, forms the per-head context, applies the queries and projects.

  Over the extended reals with finite inputs the two values agree: the softmax is invariant under the shift
  the running maximum applies (so the finite number the running maximum starts from does not matter), the
  rescalings telescope, and the remaining difference is the order of finite sums. The pieces: the frame of
  the pipelined region at either float instance with the running buffers' contents carried point to point;
  those contents and the output block read at an index as the specification's online pass; the reference's
  run read at an index as the specification's direct value; the algebra joining the two; the inputs' finiteness
  from the precondition.
-/
import proofs.«425081_j79276506350102_3_alg».proof.Proof.Assembly
import proofs.«425081_j79276506350102_3_alg».proof.Proof.KI.StateValue
import proofs.«425081_j79276506350102_3_alg».proof.Proof.KI.OutValue
import proofs.«425081_j79276506350102_3_alg».proof.Proof.KI.KernelValue
import proofs.«425081_j79276506350102_3_alg».proof.Proof.KB.Frame

noncomputable section

namespace Cert.Proof

open Idealize.ShloMosaic Idealize.SL.Sem

theorem claim : Cert.Claim :=
  Cert.Proof.claim_of (fun m ρ => Cert.Kernel.Body.frame (F := Bits) m ρ)
    (fun m ρ => Cert.KernelIdeal.Body.run_value_of m
      (fun c t ht l D => Cert.KernelIdeal.Body.outAt_value_of m c
        (fun t' ch e => Cert.KernelIdeal.Body.outsAt0_value m c t' ch e) t ht l D) ρ)

end Cert.Proof

end
